-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v105_0)) (v1 : (c : Dev Cert.KernelIdeal.nD) → Buf (Elt Ideal) ((c.tc : Thread Cert.KernelIdeal.nD Cert.KernelIdeal.τ).loc Cert.KernelIdeal.main_v105_1)) (v2 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105_0) = v0 c
          ∧ r.2.mem ((c.tc : Thread Cert.KernelIdeal.nD Cert.KernelIdeal.τ).loc Cert.KernelIdeal.main_v105_1) = v1 c
          ∧ r.2.mem ((c.tc : Thread Cert.KernelIdeal.nD Cert.KernelIdeal.τ).loc Cert.KernelIdeal.main_v90) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S512x45 : Shape := ⟨2, ![512, 45]⟩
abbrev S64x128 : Shape := ⟨2, ![64, 128]⟩
abbrev S128 : Shape := ⟨1, ![128]⟩
abbrev S128x128 : Shape := ⟨2, ![128, 128]⟩
abbrev S3x128 : Shape := ⟨2, ![3, 128]⟩
abbrev S45 : Shape := ⟨1, ![45]⟩
abbrev S173x64 : Shape := ⟨2, ![173, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S173x173 : Shape := ⟨2, ![173, 173]⟩
abbrev S173 : Shape := ⟨1, ![173]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S512x45 : S_.BroadcastsInDim S512x45 (![] : Fin 0 → Fin S512x45.rank)
  reducesTo_S512x45_S_d0_1 : S512x45.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S45 : S_.BroadcastsInDim S45 (![] : Fin 0 → Fin S45.rank)
  reducesTo_S45_S_d0 : S45.ReducesTo [0] S_
  bcast_S_S173x64 : S_.BroadcastsInDim S173x64 (![] : Fin 0 → Fin S173x64.rank)
  reducesTo_S173x64_S_d0_1 : S173x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S173x173 : S_.BroadcastsInDim S173x173 (![] : Fin 0 → Fin S173x173.rank)
  reducesTo_S173x173_S_d0_1 : S173x173.ReducesTo [0, 1] S_
  bcast_S_S173 : S_.BroadcastsInDim S173 (![] : Fin 0 → Fin S173.rank)
  reducesTo_S173_S_d0 : S173.ReducesTo [0] S_

variable [Facts]

def fn_part8 {F : FTy → Type} [FloatOps F] (main_arg20 : FVec F S45 .f32) (main_v133 : IVec S_ 1) (main_v135 : IVec S3x128 1) (main_c_53 : IVec S_ 1) : IVec S_ 1 :=
  let main_v136 : IVec S_ 1 := (fun x v => Host.reduce IntOp.andi x v reducesTo_S3x128_S_d0_1 h_S_) main_v135 main_c_53
  let main_v137 : IVec S_ 1 := andi main_v133 main_v136
  let main_cst_54 : FVec F S_ .f32 := constant S_ .f32 0x00000000#32
  let main_v138 : FVec F S45 .f32 := broadcastInDim S45 ![] bcast_S_S45 main_cst_54
  let main_v139 : IVec S45 1 := cmpf .oge main_arg20 main_v138
  let main_c_55 : IVec S_ 1 := constantI S_ 1 1#1
  let main_v140 : IVec S_ 1 := (fun x v => Host.reduce IntOp.andi x v reducesTo_S45_S_d0 h_S_) main_v139 main_c_55
  let main_v141 : IVec S_ 1 := andi main_v137 main_v140
  main_v141

def fn_part7 {F : FTy → Type} [FloatOps F] (main_arg16 : FVec F S3x128 .f32) (main_arg20 : FVec F S45 .f32) (main_arg27 : FVec F S173x173 .f32) (main_arg28 : FVec F S173 .f32) (main_v118 : IVec S_ 1) (main_v119 : FVec F S2 .f32) : IVec S_ 1 :=
  let main_cst_46 : FVec F S_ .f32 := constant S_ .f32 0x7F800000#32
  let main_v120 : FVec F S2 .f32 := broadcastInDim S2 ![] bcast_S_S2 main_cst_46
  let main_v121 : IVec S2 1 := cmpf .olt main_v119 main_v120
  let main_c_47 : IVec S_ 1 := constantI S_ 1 1#1
  let main_v122 : IVec S_ 1 := (fun x v => Host.reduce IntOp.andi x v reducesTo_S2_S_d0 h_S_) main_v121 main_c_47
  let main_v123 : IVec S_ 1 := andi main_v118 main_v122
  let main_v124 : FVec F S173x173 .f32 := Host.absf main_arg27
  let main_cst_48 : FVec F S_ .f32 := constant S_ .f32 0x7F800000#32
  let main_v125 : FVec F S173x173 .f32 := broadcastInDim S173x173 ![] bcast_S_S173x173 main_cst_48
  let main_v126 : IVec S173x173 1 := cmpf .olt main_v124 main_v125
  let main_c_49 : IVec S_ 1 := constantI S_ 1 1#1
  let main_v127 : IVec S_ 1 := (fun x v => Host.reduce IntOp.andi x v reducesTo_S173x173_S_d0_1 h_S_) main_v126 main_c_49
  let main_v128 : IVec S_ 1 := andi main_v123 main_v127
  let main_v129 : FVec F S173 .f32 := Host.absf main_arg28
  let main_cst_50 : FVec F S_ .f32 := constant S_ .f32 0x7F800000#32
  let main_v130 : FVec F S173 .f32 := broadcastInDim S173 ![] bcast_S_S173 main_cst_50
  let main_v131 : IVec S173 1 := cmpf .olt main_v129 main_v130
  let main_c_51 : IVec S_ 1 := constantI S_ 1 1#1
  let main_v132 : IVec S_ 1 := (fun x v => Host.reduce IntOp.andi x v reducesTo_S173_S_d0 h_S_) main_v131 main_c_51
  let main_v133 : IVec S_ 1 := andi main_v128 main_v132
  let main_cst_52 : FVec F S_ .f32 := constant S_ .f32 0x00000000#32
  let main_v134 : FVec F S3x128 .f32 := broadcastInDim S3x128 ![] bcast_S_S3x128 main_cst_52
  let main_v135 : IVec S3x128 1 := cmpf .oge main_arg16 main_v134
  let main_c_53 : IVec S_ 1 := constantI S_ 1 1#1
  fn_part8 (F := F) main_arg20 main_v133 main_v135 main_c_53

def fn_part6 {F : FTy → Type} [FloatOps F] (main_arg16 : FVec F S3x128 .f32) (main_arg20 : FVec F S45 .f32) (main_arg23 : FVec F S64x32 .f32) (main_arg24 : FVec F S32 .f32) (main_arg25 : FVec F S32x2 .f32) (main_arg26 : FVec F S2 .f32) (main_arg27 : FVec F S173x173 .f32) (main_arg28 : FVec F S173 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x32 .f32 := Host.absf main_arg23
  let main_cst_40 : FVec F S_ .f32 := constant S_ .f32 0x7F800000#32
  let main_v105 : FVec F S64x32 .f32 := broadcastInDim S64x32 ![] bcast_S_S64x32 main_cst_40
  let main_v106 : IVec S64x32 1 := cmpf .olt main_v104 main_v105
  let main_c_41 : IVec S_ 1 := constantI S_ 1 1#1
  let main_v107 : IVec S_ 1 := (fun x v => Host.reduce IntOp.andi x v reducesTo_S64x32_S_d0_1 h_S_) main_v106 main_c_41
  let main_v108 : IVec S_ 1 := andi main_v103 main_v107
  let main_v109 : FVec F S32 .f32 := Host.absf main_arg24
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32x2 .f32 := Host.absf main_arg25
  let main_cst_44 : FVec F S_ .f32 := constant S_ .f32 0x7F800000#32
  let main_v115 : FVec F S32x2 .f32 := broadcastInDim S32x2 ![] bcast_S_S32x2 main_cst_44
  let main_v116 : IVec S32x2 1 := cmpf .olt main_v114 main_v115
  let main_c_45 : IVec S_ 1 := constantI S_ 1 1#1
  let main_v117 : IVec S_ 1 := (fun x v => Host.reduce IntOp.andi x v reducesTo_S32x2_S_d0_1 h_S_) main_v116 main_c_45
  let main_v118 : IVec S_ 1 := andi main_v113 main_v117
  let main_v119 : FVec F S2 .f32 := Host.absf main_arg26
  fn_part7 (F := F) main_arg16 main_arg20 main_arg27 main_arg28 main_v118 main_v119

def fn_part5 {F : FTy → Type} [FloatOps F] (main_arg16 : FVec F S3x128 .f32) (main_arg20 : FVec F S45 .f32) (main_arg21 : FVec F S173x64 .f32) (main_arg22 : FVec F S64 .f32) (main_arg23 : FVec F S64x32 .f32) (main_arg24 : FVec F S32 .f32) (main_arg25 : FVec F S32x2 .f32) (main_arg26 : FVec F S2 .f32) (main_arg27 : FVec F S173x173 .f32) (main_arg28 : FVec F S173 .f32) (main_v83 : IVec S_ 1) (main_v84 : FVec F S45 .f32) (main_cst_32 : FVec F S_ .f32) : IVec S_ 1 :=
  let main_v85 : FVec F S45 .f32 := broadcastInDim S45 ![] bcast_S_S45 main_cst_32
  let main_v86 : IVec S45 1 := cmpf .olt main_v84 main_v85
  let main_c_33 : IVec S_ 1 := constantI S_ 1 1#1
  let main_v87 : IVec S_ 1 := (fun x v => Host.reduce IntOp.andi x v reducesTo_S45_S_d0 h_S_) main_v86 main_c_33
  let main_v88 : IVec S_ 1 := andi main_v83 main_v87
  let main_v89 : FVec F S45 .f32 := Host.absf main_arg20
  let main_cst_34 : FVec F S_ .f32 := constant S_ .f32 0x7F800000#32
  let main_v90 : FVec F S45 .f32 := broadcastInDim S45 ![] bcast_S_S45 main_cst_34
  let main_v91 : IVec S45 1 := cmpf .olt main_v89 main_v90
  let main_c_35 : IVec S_ 1 := constantI S_ 1 1#1
  let main_v92 : IVec S_ 1 := (fun x v => Host.reduce IntOp.andi x v reducesTo_S45_S_d0 h_S_) main_v91 main_c_35
  let main_v93 : IVec S_ 1 := andi main_v88 main_v92
  let main_v94 : FVec F S173x64 .f32 := Host.absf main_arg21
  let main_cst_36 : FVec F S_ .f32 := constant S_ .f32 0x7F800000#32
  let main_v95 : FVec F S173x64 .f32 := broadcastInDim S173x64 ![] bcast_S_S173x64 main_cst_36
  let main_v96 : IVec S173x64 1 := cmpf .olt main_v94 main_v95
  let main_c_37 : IVec S_ 1 := constantI S_ 1 1#1
  let main_v97 : IVec S_ 1 := (fun x v => Host.reduce IntOp.andi x v reducesTo_S173x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg16 main_arg20 main_arg23 main_arg24 main_arg25 main_arg26 main_arg27 main_arg28 main_v98 main_v101 main_c_39

def fn_part4 {F : FTy → Type} [FloatOps F] (main_arg16 : FVec F S3x128 .f32) (main_arg17 : FVec F S45 .f32) (main_arg18 : FVec F S45 .f32) (main_arg19 : FVec F S45 .f32) (main_arg20 : FVec F S45 .f32) (main_arg21 : FVec F S173x64 .f32) (main_arg22 : FVec F S64 .f32) (main_arg23 : FVec F S64x32 .f32) (main_arg24 : FVec F S32 .f32) (main_arg25 : FVec F S32x2 .f32) (main_arg26 : FVec F S2 .f32) (main_arg27 : FVec F S173x173 .f32) (main_arg28 : FVec F S173 .f32) (main_v63 : IVec S_ 1) (main_v67 : IVec S_ 1) : IVec S_ 1 :=
  let main_v68 : IVec S_ 1 := andi main_v63 main_v67
  let main_v69 : FVec F S3x128 .f32 := Host.absf main_arg16
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S45 .f32 := Host.absf main_arg17
  let main_cst_28 : FVec F S_ .f32 := constant S_ .f32 0x7F800000#32
  let main_v75 : FVec F S45 .f32 := broadcastInDim S45 ![] bcast_S_S45 main_cst_28
  let main_v76 : IVec S45 1 := cmpf .olt main_v74 main_v75
  let main_c_29 : IVec S_ 1 := constantI S_ 1 1#1
  let main_v77 : IVec S_ 1 := (fun x v => Host.reduce IntOp.andi x v reducesTo_S45_S_d0 h_S_) main_v76 main_c_29
  let main_v78 : IVec S_ 1 := andi main_v73 main_v77
  let main_v79 : FVec F S45 .f32 := Host.absf main_arg18
  let main_cst_30 : FVec F S_ .f32 := constant S_ .f32 0x7F800000#32
  let main_v80 : FVec F S45 .f32 := broadcastInDim S45 ![] bcast_S_S45 main_cst_30
  let main_v81 : IVec S45 1 := cmpf .olt main_v79 main_v80
  let main_c_31 : IVec S_ 1 := constantI S_ 1 1#1
  let main_v82 : IVec S_ 1 := (fun x v => Host.reduce IntOp.andi x v reducesTo_S45_S_d0 h_S_) main_v81 main_c_31
  let main_v83 : IVec S_ 1 := andi main_v78 main_v82
  let main_v84 : FVec F S45 .f32 := Host.absf main_arg19
  let main_cst_32 : FVec F S_ .f32 := constant S_ .f32 0x7F800000#32
  fn_part5 (F := F) main_arg16 main_arg20 main_arg21 main_arg22 main_arg23 main_arg24 main_arg25 main_arg26 main_arg27 main_arg28 main_v83 main_v84 main_cst_32

def fn_part3 {F : FTy → Type} [FloatOps F] (main_arg13 : FVec F S3x128 .f32) (main_arg14 : FVec F S3x128 .f32) (main_arg15 : FVec F S3x128 .f32) (main_arg16 : FVec F S3x128 .f32) (main_arg17 : FVec F S45 .f32) (main_arg18 : FVec F S45 .f32) (main_arg19 : FVec F S45 .f32) (main_arg20 : FVec F S45 .f32) (main_arg21 : FVec F S173x64 .f32) (main_arg22 : FVec F S64 .f32) (main_arg23 : FVec F S64x32 .f32) (main_arg24 : FVec F S32 .f32) (main_arg25 : FVec F S32x2 .f32) (main_arg26 : FVec F S2 .f32) (main_arg27 : FVec F S173x173 .f32) (main_arg28 : FVec F S173 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg14
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128 .f32 := Host.absf main_arg15
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S128x128 .f32) (main_arg10 : FVec F S128x128 .f32) (main_arg11 : FVec F S128 .f32) (main_arg12 : FVec F S128x128 .f32) (main_arg13 : FVec F S3x128 .f32) (main_arg14 : FVec F S3x128 .f32) (main_arg15 : FVec F S3x128 .f32) (main_arg16 : FVec F S3x128 .f32) (main_arg17 : FVec F S45 .f32) (main_arg18 : FVec F S45 .f32) (main_arg19 : FVec F S45 .f32) (main_arg20 : FVec F S45 .f32) (main_arg21 : FVec F S173x64 .f32) (main_arg22 : FVec F S64 .f32) (main_arg23 : FVec F S64x32 .f32) (main_arg24 : FVec F S32 .f32) (main_arg25 : FVec F S32x2 .f32) (main_arg26 : FVec F S2 .f32) (main_arg27 : FVec F S173x173 .f32) (main_arg28 : FVec F S173 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S64x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S3x128 .f32) (main_arg14 : FVec F S3x128 .f32) (main_arg15 : FVec F S3x128 .f32) (main_arg16 : FVec F S3x128 .f32) (main_arg17 : FVec F S45 .f32) (main_arg18 : FVec F S45 .f32) (main_arg19 : FVec F S45 .f32) (main_arg20 : FVec F S45 .f32) (main_arg21 : FVec F S173x64 .f32) (main_arg22 : FVec F S64 .f32) (main_arg23 : FVec F S64x32 .f32) (main_arg24 : FVec F S32 .f32) (main_arg25 : FVec F S32x2 .f32) (main_arg26 : FVec F S2 .f32) (main_arg27 : FVec F S173x173 .f32) (main_arg28 : FVec F S173 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x64 .f32) (main_arg1 : IVec S2x1600000 32) (main_arg2 : IVec S100000 32) (main_arg3 : FVec F S512x45 .f32) (main_arg4 : FVec F S64x128 .f32) (main_arg5 : FVec F S128 .f32) (main_arg6 : FVec F S64x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S3x128 .f32) (main_arg14 : FVec F S3x128 .f32) (main_arg15 : FVec F S3x128 .f32) (main_arg16 : FVec F S3x128 .f32) (main_arg17 : FVec F S45 .f32) (main_arg18 : FVec F S45 .f32) (main_arg19 : FVec F S45 .f32) (main_arg20 : FVec F S45 .f32) (main_arg21 : FVec F S173x64 .f32) (main_arg22 : FVec F S64 .f32) (main_arg23 : FVec F S64x32 .f32) (main_arg24 : FVec F S32 .f32) (main_arg25 : FVec F S32x2 .f32) (main_arg26 : FVec F S2 .f32) (main_arg27 : FVec F S173x173 .f32) (main_arg28 : FVec F S173 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S512x45 .f32 := Host.absf main_arg3
  let main_cst_0 : FVec F S_ .f32 := constant S_ .f32 0x7F800000#32
  let main_v5 : FVec F S512x45 .f32 := broadcastInDim S512x45 ![] bcast_S_S512x45 main_cst_0
  let main_v6 : IVec S512x45 1 := cmpf .olt main_v4 main_v5
  let main_c_1 : IVec S_ 1 := constantI S_ 1 1#1
  let main_v7 : IVec S_ 1 := (fun x v => Host.reduce IntOp.andi x v reducesTo_S512x45_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S512x45 : Shape := ⟨2, ![512, 45]⟩
abbrev S64x128 : Shape := ⟨2, ![64, 128]⟩
abbrev S128 : Shape := ⟨1, ![128]⟩
abbrev S128x128 : Shape := ⟨2, ![128, 128]⟩
abbrev S3x128 : Shape := ⟨2, ![3, 128]⟩
abbrev S45 : Shape := ⟨1, ![45]⟩
abbrev S173x64 : Shape := ⟨2, ![173, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S173x173 : Shape := ⟨2, ![173, 173]⟩
abbrev S173 : Shape := ⟨1, ![173]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S1600000x64 : Shape := ⟨2, ![1600000, 64]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S512x128 : Shape := ⟨2, ![512, 128]⟩
abbrev S512x1 : Shape := ⟨2, ![512, 1]⟩
abbrev S2000x128 : Shape := ⟨2, ![2000, 128]⟩
abbrev S2000x1 : Shape := ⟨2, ![2000, 1]⟩
abbrev S2000x512 : Shape := ⟨2, ![2000, 512]⟩
abbrev S512x2000 : Shape := ⟨2, ![512, 2000]⟩
abbrev S128x64 : Shape := ⟨2, ![128, 64]⟩
abbrev S45x64 : Shape := ⟨2, ![45, 64]⟩
abbrev S128x173 : Shape := ⟨2, ![128, 173]⟩
abbrev S45x173 : Shape := ⟨2, ![45, 173]⟩
abbrev S1x45 : Shape := ⟨2, ![1, 45]⟩
abbrev S1x64 : Shape := ⟨2, ![1, 64]⟩
abbrev S1x32 : Shape := ⟨2, ![1, 32]⟩
abbrev S1x2 : Shape := ⟨2, ![1, 2]⟩
abbrev S1x173 : Shape := ⟨2, ![1, 173]⟩
abbrev S512x2 : Shape := ⟨2, ![512, 2]⟩
abbrev S512x173 : Shape := ⟨2, ![512, 173]⟩
abbrev S512x64 : Shape := ⟨2, ![512, 64]⟩
abbrev S512x32 : Shape := ⟨2, ![512, 32]⟩

abbrev nBuf : Space → Nat
  | .hbm => 150
  | .vmem => 64
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S512x45, .f32⟩
  | 4 => ⟨S64x128, .f32⟩
  | 5 => ⟨S128, .f32⟩
  | 6 => ⟨S64x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S3x128, .f32⟩
  | 14 => ⟨S3x128, .f32⟩
  | 15 => ⟨S3x128, .f32⟩
  | 16 => ⟨S3x128, .f32⟩
  | 17 => ⟨S45, .f32⟩
  | 18 => ⟨S45, .f32⟩
  | 19 => ⟨S45, .f32⟩
  | 20 => ⟨S45, .f32⟩
  | 21 => ⟨S173x64, .f32⟩
  | 22 => ⟨S64, .f32⟩
  | 23 => ⟨S64x32, .f32⟩
  | 24 => ⟨S32, .f32⟩
  | 25 => ⟨S32x2, .f32⟩
  | 26 => ⟨S2, .f32⟩
  | 27 => ⟨S173x173, .f32⟩
  | 28 => ⟨S173, .f32⟩
  | 29 => ⟨S1x1600000, .i32⟩
  | 30 => ⟨S1600000, .i32⟩
  | 31 => ⟨S1x1600000, .i32⟩
  | 32 => ⟨S1600000, .i32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S100000x1, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S100000x64, .f32⟩
  | 84 => ⟨S100000x64, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x128, .f32⟩
  | 105 => ⟨S100000x128, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x128, .f32⟩
  | 126 => ⟨S100000x128, .f32⟩
  | 127 => ⟨S1x128, .f32⟩
  | _ => ⟨S100000x64, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S100000x128, .f32⟩
  | 5 => ⟨S100000x1, .i32⟩
  | 6 => ⟨S512x128, .f32⟩
  | 7 => ⟨S512x1, .f32⟩
  | 8 => ⟨S128x64, .f32⟩
  | 9 => ⟨S45x64, .f32⟩
  | 10 => ⟨S128x173, .f32⟩
  | 11 => ⟨S45x173, .f32⟩
  | 12 => ⟨S1x45, .f32⟩
  | 13 => ⟨S1x45, .f32⟩
  | 14 => ⟨S1x45, .f32⟩
  | 15 => ⟨S1x45, .f32⟩
  | 16 => ⟨S1x64, .f32⟩
  | 17 => ⟨S1x32, .f32⟩
  | 18 => ⟨S1x2, .f32⟩
  | 19 => ⟨S1x173, .f32⟩
  | 20 => ⟨S512x2, .f32⟩
  | 21 => ⟨S512x173, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S2000x128, .f32⟩
  | .local _ .vmem, ⟨40, _⟩ => ⟨S2000x128, .f32⟩
  | .local _ .vmem, ⟨41, _⟩ => ⟨S2000x1, .i32⟩
  | .local _ .vmem, ⟨42, _⟩ => ⟨S2000x1, .i32⟩
  | .local _ .vmem, ⟨43, _⟩ => ⟨S512x128, .f32⟩
  | .local _ .vmem, ⟨44, _⟩ => ⟨S512x1, .f32⟩
  | .local _ .vmem, ⟨45, _⟩ => ⟨S512x128, .f32⟩
  | .local _ .vmem, ⟨46, _⟩ => ⟨S512x1, .f32⟩
  | .local _ .vmem, ⟨47, _⟩ => ⟨S512x45, .f32⟩
  | .local _ .vmem, ⟨48, _⟩ => ⟨S1x45, .f32⟩
  | .local _ .vmem, ⟨49, _⟩ => ⟨S1x45, .f32⟩
  | .local _ .vmem, ⟨50, _⟩ => ⟨S1x45, .f32⟩
  | .local _ .vmem, ⟨51, _⟩ => ⟨S1x45, .f32⟩
  | .local _ .vmem, ⟨52, _⟩ => ⟨S128x64, .f32⟩
  | .local _ .vmem, ⟨53, _⟩ => ⟨S45x64, .f32⟩
  | .local _ .vmem, ⟨54, _⟩ => ⟨S1x64, .f32⟩
  | .local _ .vmem, ⟨55, _⟩ => ⟨S64x32, .f32⟩
  | .local _ .vmem, ⟨56, _⟩ => ⟨S1x32, .f32⟩
  | .local _ .vmem, ⟨57, _⟩ => ⟨S32x2, .f32⟩
  | .local _ .vmem, ⟨58, _⟩ => ⟨S1x2, .f32⟩
  | .local _ .vmem, ⟨59, _⟩ => ⟨S128x173, .f32⟩
  | .local _ .vmem, ⟨60, _⟩ => ⟨S45x173, .f32⟩
  | .local _ .vmem, ⟨61, _⟩ => ⟨S1x173, .f32⟩
  | .local _ .vmem, ⟨62, _⟩ => ⟨S512x2, .f32⟩
  | .local _ .vmem, ⟨63, _⟩ => ⟨S512x173, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_v9 : Ref sig .tc := ⟨.hbm, 41, rfl⟩
abbrev main_cst_2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c : Ref sig .tc := ⟨.hbm, 70, rfl⟩
abbrev main_v37 : Ref sig .tc := ⟨.hbm, 71, rfl⟩
abbrev main_v38 : Ref sig .tc := ⟨.hbm, 72, rfl⟩
abbrev main_c_3 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_4 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_5 : Ref sig .tc := ⟨.hbm, 91, rfl⟩
abbrev main_v55 : Ref sig .tc := ⟨.hbm, 92, rfl⟩
abbrev main_v56 : Ref sig .tc := ⟨.hbm, 93, rfl⟩
abbrev main_c_6 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_c_8 : Ref sig .tc := ⟨.hbm, 112, rfl⟩
abbrev main_v73 : Ref sig .tc := ⟨.hbm, 113, rfl⟩
abbrev main_v74 : Ref sig .tc := ⟨.hbm, 114, rfl⟩
abbrev main_c_9 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_10 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92_0 : Ref sig .tc := ⟨.hbm, 134, rfl⟩
abbrev main_v92_1 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105_0 : Ref sig .tc := ⟨.hbm, 148, rfl⟩
abbrev main_v105_1 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc4_stg0_0 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg8_0 : Ref sig .tc := ⟨.vmem, 53, rfl⟩
abbrev cc4_stg9_0 : Ref sig .tc := ⟨.vmem, 54, rfl⟩
abbrev cc4_stg10_0 : Ref sig .tc := ⟨.vmem, 55, rfl⟩
abbrev cc4_stg11_0 : Ref sig .tc := ⟨.vmem, 56, rfl⟩
abbrev cc4_stg12_0 : Ref sig .tc := ⟨.vmem, 57, rfl⟩
abbrev cc4_stg13_0 : Ref sig .tc := ⟨.vmem, 58, rfl⟩
abbrev cc4_stg14_0 : Ref sig .tc := ⟨.vmem, 59, rfl⟩
abbrev cc4_stg15_0 : Ref sig .tc := ⟨.vmem, 60, rfl⟩
abbrev cc4_stg16_0 : Ref sig .tc := ⟨.vmem, 61, rfl⟩
abbrev cc4_stg17_0 : Ref sig .tc := ⟨.vmem, 62, rfl⟩
abbrev cc4_stg18_0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc4_sem0_0 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem8_0 : DmaSem sig := 53
abbrev cc4_sem9_0 : DmaSem sig := 54
abbrev cc4_sem10_0 : DmaSem sig := 55
abbrev cc4_sem11_0 : DmaSem sig := 56
abbrev cc4_sem12_0 : DmaSem sig := 57
abbrev cc4_sem13_0 : DmaSem sig := 58
abbrev cc4_sem14_0 : DmaSem sig := 59
abbrev cc4_sem15_0 : DmaSem sig := 60
abbrev cc4_sem16_0 : DmaSem sig := 61
abbrev cc4_sem17_0 : DmaSem sig := 62
abbrev cc4_sem18_0 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_18 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512x45 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x45 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x45 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x45 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x45 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S45x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S64x32 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x32 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S32x2 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x2 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S128x173 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S45x173 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S1x173 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S512x2 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 1 → Memref sig .tc .vmem S512x173 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S3x128_S1x128_0_0 : S3x128.Slices ![0, 0] S1x128
  shapeCasts_S1x128_S128 : S1x128.ShapeCasts S128
  slices_S3x128_S1x128_1_0 : S3x128.Slices ![1, 0] S1x128
  slices_S3x128_S1x128_2_0 : S3x128.Slices ![2, 0] S1x128
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  transposes_S2000x512_p1_0_S512x2000 : S2000x512.Transposes [1, 0] S512x2000
  shapeCasts_S512x128_S512x128 : S512x128.ShapeCasts S512x128
  shapeCasts_S512x1_S512x1 : S512x1.ShapeCasts S512x1
  slices_S173x64_S128x64_0_0 : S173x64.Slices ![0, 0] S128x64
  slices_S173x64_S45x64_128_0 : S173x64.Slices ![128, 0] S45x64
  slices_S173x173_S128x173_0_0 : S173x173.Slices ![0, 0] S128x173
  slices_S173x173_S45x173_128_0 : S173x173.Slices ![128, 0] S45x173
  shapeCasts_S45_S1x45 : S45.ShapeCasts S1x45
  shapeCasts_S64_S1x64 : S64.ShapeCasts S1x64
  shapeCasts_S32_S1x32 : S32.ShapeCasts S1x32
  shapeCasts_S2_S1x2 : S2.ShapeCasts S1x2
  shapeCasts_S173_S1x173 : S173.ShapeCasts S1x173
  broadcasts_S512x1_S512x128 : S512x1.Broadcasts S512x128
  inb_S512x45_S512x45_0_0 : ∀ a, (![0, 0] : Fin 2 → Nat) a + S512x45.size a ≤ S512x45.size a
  h_S512x45 : 0 < S512x45.numel
  inb_S1x45_S1x45_0_0 : ∀ a, (![0, 0] : Fin 2 → Nat) a + S1x45.size a ≤ S1x45.size a
  h_S1x45 : 0 < S1x45.numel
  shapeCasts_S1x45_S1x45 : S1x45.ShapeCasts S1x45
  broadcasts_S1x45_S512x45 : S1x45.Broadcasts S512x45
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S45x64_S45x64_0_0 : ∀ a, (![0, 0] : Fin 2 → Nat) a + S45x64.size a ≤ S45x64.size a
  h_S45x64 : 0 < S45x64.numel
  shapeCasts_S45x64_S45x64 : S45x64.ShapeCasts S45x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S128x173_S128x173_0_0 : ∀ a, (![0, 0] : Fin 2 → Nat) a + S128x173.size a ≤ S128x173.size a
  h_S128x173 : 0 < S128x173.numel
  shapeCasts_S128x173_S128x173 : S128x173.ShapeCasts S128x173
  inb_S45x173_S45x173_0_0 : ∀ a, (![0, 0] : Fin 2 → Nat) a + S45x173.size a ≤ S45x173.size a
  h_S45x173 : 0 < S45x173.numel
  shapeCasts_S45x173_S45x173 : S45x173.ShapeCasts S45x173
  inb_S1x173_S1x173_0_0 : ∀ a, (![0, 0] : Fin 2 → Nat) a + S1x173.size a ≤ S1x173.size a
  h_S1x173 : 0 < S1x173.numel
  shapeCasts_S1x173_S1x173 : S1x173.ShapeCasts S1x173
  broadcasts_S1x173_S512x173 : S1x173.Broadcasts S512x173
  inb_S512x2_S512x2_0_0 : ∀ a, (![0, 0] : Fin 2 → Nat) a + S512x2.size a ≤ S512x2.size a
  h_S512x2 : 0 < S512x2.numel
  inb_S512x173_S512x173_0_0 : ∀ a, (![0, 0] : Fin 2 → Nat) a + S512x173.size a ≤ S512x173.size a
  h_S512x173 : 0 < S512x173.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S512x2000_S2000x128_S512x128_1_0_0_1_n_n_wf : DotDims.WF S512x2000 S2000x128 S512x128 [1] [0] [0] [1] [] []
  dot_S512x2000_S2000x1_S512x1_1_0_0_1_n_n_wf : DotDims.WF S512x2000 S2000x1 S512x1 [1] [0] [0] [1] [] []
  dot_S512x128_S128x64_S512x64_1_0_0_1_n_n_wf : DotDims.WF S512x128 S128x64 S512x64 [1] [0] [0] [1] [] []
  dot_S512x45_S45x64_S512x64_1_0_0_1_n_n_wf : DotDims.WF S512x45 S45x64 S512x64 [1] [0] [0] [1] [] []
  dot_S512x64_S64x32_S512x32_1_0_0_1_n_n_wf : DotDims.WF S512x64 S64x32 S512x32 [1] [0] [0] [1] [] []
  dot_S512x32_S32x2_S512x2_1_0_0_1_n_n_wf : DotDims.WF S512x32 S32x2 S512x2 [1] [0] [0] [1] [] []
  dot_S512x128_S128x173_S512x173_1_0_0_1_n_n_wf : DotDims.WF S512x128 S128x173 S512x173 [1] [0] [0] [1] [] []
  dot_S512x45_S45x173_S512x173_1_0_0_1_n_n_wf : DotDims.WF S512x45 S45x173 S512x173 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .i32 = 32 ∨ (Rect.block (s := S100000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S512x128.size a
  hwx3_2 : ∀ i : grid3.Coords, EltTy.bits .f32 = 32 ∨ (Rect.block (s := S512x128) S512x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S512x1.size a
  hwx3_3 : ∀ i : grid3.Coords, EltTy.bits .f32 = 32 ∨ (Rect.block (s := S512x1) S512x1.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S512x1.size a
  hwx4_1 : ∀ i : grid4.Coords, EltTy.bits .f32 = 32 ∨ (Rect.block (s := S512x1) S512x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x45.size a ≤ S512x45.size a
  hwx4_2 : ∀ i : grid4.Coords, EltTy.bits .f32 = 32 ∨ (Rect.block (s := S512x45) S512x45.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x45.size a ≤ S1x45.size a
  hwx4_3 : ∀ i : grid4.Coords, EltTy.bits .f32 = 32 ∨ (Rect.block (s := S1x45) S1x45.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x45.size a ≤ S1x45.size a
  hwx4_4 : ∀ i : grid4.Coords, EltTy.bits .f32 = 32 ∨ (Rect.block (s := S1x45) S1x45.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x45.size a ≤ S1x45.size a
  hwx4_5 : ∀ i : grid4.Coords, EltTy.bits .f32 = 32 ∨ (Rect.block (s := S1x45) S1x45.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x45.size a ≤ S1x45.size a
  hwx4_6 : ∀ i : grid4.Coords, EltTy.bits .f32 = 32 ∨ (Rect.block (s := S1x45) S1x45.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x64.size a ≤ S128x64.size a
  hwx4_7 : ∀ i : grid4.Coords, EltTy.bits .f32 = 32 ∨ (Rect.block (s := S128x64) S128x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S45x64.size a ≤ S45x64.size a
  hwx4_8 : ∀ i : grid4.Coords, EltTy.bits .f32 = 32 ∨ (Rect.block (s := S45x64) S45x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S64x32.size a ≤ S64x32.size a
  hwx4_10 : ∀ i : grid4.Coords, EltTy.bits .f32 = 32 ∨ (Rect.block (s := S64x32) S64x32.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x32.size a ≤ S1x32.size a
  hwx4_11 : ∀ i : grid4.Coords, EltTy.bits .f32 = 32 ∨ (Rect.block (s := S1x32) S1x32.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S32x2.size a ≤ S32x2.size a
  hwx4_12 : ∀ i : grid4.Coords, EltTy.bits .f32 = 32 ∨ (Rect.block (s := S32x2) S32x2.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x2.size a ≤ S1x2.size a
  hwx4_13 : ∀ i : grid4.Coords, EltTy.bits .f32 = 32 ∨ (Rect.block (s := S1x2) S1x2.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S128x173.size a ≤ S128x173.size a
  hwx4_14 : ∀ i : grid4.Coords, EltTy.bits .f32 = 32 ∨ (Rect.block (s := S128x173) S128x173.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S45x173.size a ≤ S45x173.size a
  hwx4_15 : ∀ i : grid4.Coords, EltTy.bits .f32 = 32 ∨ (Rect.block (s := S45x173) S45x173.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S1x173.size a ≤ S1x173.size a
  hwx4_16 : ∀ i : grid4.Coords, EltTy.bits .f32 = 32 ∨ (Rect.block (s := S1x173) S1x173.size (cc4_transform_16 i) (hinb4_16 i)).WholeWords (EltTy.packing .f32)
  hstage4_17 : ∀ j, (stage4_17 j).IsWhole
  nbuf4_17 : grid4.bufCount reads4_17 true = 1
  hreads4_17 : ∀ i i' : grid4.Coords, (∀ a, reads4_17 a = true → i a = i' a) → cc4_transform_17 i = cc4_transform_17 i'
  hinb4_17 : ∀ (i : grid4.Coords) a, (cc4_transform_17 i a + 1) * S512x2.size a ≤ S512x2.size a
  hwx4_17 : ∀ i : grid4.Coords, EltTy.bits .f32 = 32 ∨ (Rect.block (s := S512x2) S512x2.size (cc4_transform_17 i) (hinb4_17 i)).WholeWords (EltTy.packing .f32)
  hstage4_18 : ∀ j, (stage4_18 j).IsWhole
  nbuf4_18 : grid4.bufCount reads4_18 true = 1
  hreads4_18 : ∀ i i' : grid4.Coords, (∀ a, reads4_18 a = true → i a = i' a) → cc4_transform_18 i = cc4_transform_18 i'
  hinb4_18 : ∀ (i : grid4.Coords) a, (cc4_transform_18 i a + 1) * S512x173.size a ≤ S512x173.size a
  hwx4_18 : ∀ i : grid4.Coords, EltTy.bits .f32 = 32 ∨ (Rect.block (s := S512x173) S512x173.size (cc4_transform_18 i) (hinb4_18 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S512x2000_S2000x128_S512x128_1_0_0_1_n_n : DotDims S512x2000 S2000x128 S512x128 where
  lhsContracting := [1]
  rhsContracting := [0]
  lhsNonContracting := [0]
  rhsNonContracting := [1]
  lhsBatch := []
  rhsBatch := []
  wf := dot_S512x2000_S2000x128_S512x128_1_0_0_1_n_n_wf
def dot_S512x2000_S2000x1_S512x1_1_0_0_1_n_n : DotDims S512x2000 S2000x1 S512x1 where
  lhsContracting := [1]
  rhsContracting := [0]
  lhsNonContracting := [0]
  rhsNonContracting := [1]
  lhsBatch := []
  rhsBatch := []
  wf := dot_S512x2000_S2000x1_S512x1_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x45_S45x64_S512x64_1_0_0_1_n_n : DotDims S512x45 S45x64 S512x64 where
  lhsContracting := [1]
  rhsContracting := [0]
  lhsNonContracting := [0]
  rhsNonContracting := [1]
  lhsBatch := []
  rhsBatch := []
  wf := dot_S512x45_S45x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf
def dot_S512x128_S128x173_S512x173_1_0_0_1_n_n : DotDims S512x128 S128x173 S512x173 where
  lhsContracting := [1]
  rhsContracting := [0]
  lhsNonContracting := [0]
  rhsNonContracting := [1]
  lhsBatch := []
  rhsBatch := []
  wf := dot_S512x128_S128x173_S512x173_1_0_0_1_n_n_wf
def dot_S512x45_S45x173_S512x173_1_0_0_1_n_n : DotDims S512x45 S45x173 S512x173 where
  lhsContracting := [1]
  rhsContracting := [0]
  lhsNonContracting := [0]
  rhsNonContracting := [1]
  lhsBatch := []
  rhsBatch := []
  wf := dot_S512x45_S45x173_S512x173_1_0_0_1_n_n_wf

abbrev win0_0 : Pipeline.Window sig grid0 :=
  Pipeline.Window.ofSpec (Memref.whole main_v48) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v66) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v70) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v71) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v72) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v84) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v87) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v88) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v89) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v90) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v90) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92_0) S512x128.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92_1) S512x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v92_0) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v92_1) S512x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg3) S512x45.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S1x45.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v98) S1x45.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S1x45.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S1x45.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v93) S128x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v94) S45x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v101) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg23) S64x32.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v102) S1x32.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_arg25) S32x2.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v103) S1x2.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v95) S128x173.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v96) S45x173.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v104) S1x173.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_v105_0) S512x2.size cc4_transform_17 reads4_17 true true 1 stage4_17 sem4_17
    hrank4 hreads4_17 hinb4_17 nbuf4_17 (Memref.isWhole_whole _) hwx4_17 hstage4_17

abbrev win4_18 : Pipeline.Window sig grid4 :=
  Pipeline.Window.ofSpec (Memref.whole main_v105_1) S512x173.size cc4_transform_18 reads4_18 true true 1 stage4_18 sem4_18
    hrank4 hreads4_18 hinb4_18 nbuf4_18 (Memref.isWhole_whole _) hwx4_18 hstage4_18

abbrev win4 : Fin 19 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | ⟨_ + 19, h⟩ => absurd h (Nat.not_lt.2 (Nat.le_add_left _ _))
abbrev spec4 : Fin 19 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S512x45 : Shape := ⟨2, ![512, 45]⟩
abbrev S64x128 : Shape := ⟨2, ![64, 128]⟩
abbrev S128 : Shape := ⟨1, ![128]⟩
abbrev S128x128 : Shape := ⟨2, ![128, 128]⟩
abbrev S3x128 : Shape := ⟨2, ![3, 128]⟩
abbrev S45 : Shape := ⟨1, ![45]⟩
abbrev S173x64 : Shape := ⟨2, ![173, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S173x173 : Shape := ⟨2, ![173, 173]⟩
abbrev S173 : Shape := ⟨1, ![173]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S512x128 : Shape := ⟨2, ![512, 128]⟩
abbrev S512 : Shape := ⟨1, ![512]⟩
abbrev S512x1 : Shape := ⟨2, ![512, 1]⟩
abbrev S1x45 : Shape := ⟨2, ![1, 45]⟩
abbrev S512x173 : Shape := ⟨2, ![512, 173]⟩
abbrev S512x64 : Shape := ⟨2, ![512, 64]⟩
abbrev S1x64 : Shape := ⟨2, ![1, 64]⟩
abbrev S512x32 : Shape := ⟨2, ![512, 32]⟩
abbrev S1x32 : Shape := ⟨2, ![1, 32]⟩
abbrev S512x2 : Shape := ⟨2, ![512, 2]⟩
abbrev S1x2 : Shape := ⟨2, ![1, 2]⟩
abbrev S1x173 : Shape := ⟨2, ![1, 173]⟩

abbrev nBuf : Space → Nat
  | .hbm => 237
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S512x45, .f32⟩
  | 4 => ⟨S64x128, .f32⟩
  | 5 => ⟨S128, .f32⟩
  | 6 => ⟨S64x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S3x128, .f32⟩
  | 14 => ⟨S3x128, .f32⟩
  | 15 => ⟨S3x128, .f32⟩
  | 16 => ⟨S3x128, .f32⟩
  | 17 => ⟨S45, .f32⟩
  | 18 => ⟨S45, .f32⟩
  | 19 => ⟨S45, .f32⟩
  | 20 => ⟨S45, .f32⟩
  | 21 => ⟨S173x64, .f32⟩
  | 22 => ⟨S64, .f32⟩
  | 23 => ⟨S64x32, .f32⟩
  | 24 => ⟨S32, .f32⟩
  | 25 => ⟨S32x2, .f32⟩
  | 26 => ⟨S2, .f32⟩
  | 27 => ⟨S173x173, .f32⟩
  | 28 => ⟨S173, .f32⟩
  | 29 => ⟨S1x1600000, .i32⟩
  | 30 => ⟨S1600000, .i32⟩
  | 31 => ⟨S1x1600000, .i32⟩
  | 32 => ⟨S1600000, .i32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S100000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000x64, .f32⟩
  | 60 => ⟨S100000x64, .f32⟩
  | 61 => ⟨S100000x128, .f32⟩
  | 62 => ⟨S1x128, .f32⟩
  | 63 => ⟨S100000x128, .f32⟩
  | 64 => ⟨S100000x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S100000x128, .f32⟩
  | 112 => ⟨S100000x128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S128, .f32⟩
  | 127 => ⟨S128, .f32⟩
  | _ => ⟨S100000x64, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S100000x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S100000x128, .f32⟩
  | 30 => ⟨S100000x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S512x128, .f32⟩
  | 58 => ⟨S100000x1, .i32⟩
  | 59 => ⟨S512x128, .f32⟩
  | 60 => ⟨S_, .f32⟩
  | 61 => ⟨S100000, .f32⟩
  | 62 => ⟨S_, .f32⟩
  | 63 => ⟨S512, .f32⟩
  | 64 => ⟨S100000x1, .i32⟩
  | 65 => ⟨S512, .f32⟩
  | 66 => ⟨S_, .f32⟩
  | 67 => ⟨S512, .f32⟩
  | 68 => ⟨S512, .f32⟩
  | 69 => ⟨S512x1, .f32⟩
  | 70 => ⟨S512x128, .f32⟩
  | 71 => ⟨S512x128, .f32⟩
  | 72 => ⟨S1x45, .f32⟩
  | 73 => ⟨S512x45, .f32⟩
  | 74 => ⟨S512x45, .f32⟩
  | 75 => ⟨S_, .f32⟩
  | 76 => ⟨S45, .f32⟩
  | 77 => ⟨S45, .f32⟩
  | 78 => ⟨S45, .f32⟩
  | 79 => ⟨S45, .f32⟩
  | 80 => ⟨S1x45, .f32⟩
  | 81 => ⟨S512x45, .f32⟩
  | 82 => ⟨S512x45, .f32⟩
  | 83 => ⟨S1x45, .f32⟩
  | 84 => ⟨S512x45, .f32⟩
  | 85 => ⟨S512x45, .f32⟩
  | 86 => ⟨S512x173, .f32⟩
  | 87 => ⟨S512x64, .f32⟩
  | 88 => ⟨S1x64, .f32⟩
  | 89 => ⟨S512x64, .f32⟩
  | 90 => ⟨S512x64, .f32⟩
  | 91 => ⟨S_, .f32⟩
  | 92 => ⟨S512x64, .f32⟩
  | 93 => ⟨S512x64, .f32⟩
  | 94 => ⟨S512x32, .f32⟩
  | 95 => ⟨S1x32, .f32⟩
  | 96 => ⟨S512x32, .f32⟩
  | 97 => ⟨S512x32, .f32⟩
  | 98 => ⟨S_, .f32⟩
  | 99 => ⟨S512x32, .f32⟩
  | 100 => ⟨S512x32, .f32⟩
  | 101 => ⟨S512x2, .f32⟩
  | 102 => ⟨S1x2, .f32⟩
  | 103 => ⟨S512x2, .f32⟩
  | 104 => ⟨S512x2, .f32⟩
  | 105 => ⟨S512x173, .f32⟩
  | 106 => ⟨S1x173, .f32⟩
  | 107 => ⟨S512x173, .f32⟩
  | 108 => ⟨S512x173, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_v9 : Ref sig .tc := ⟨.hbm, 41, rfl⟩
abbrev main_cst_2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_c : Ref sig .tc := ⟨.hbm, 46, rfl⟩
abbrev main_v13 : Ref sig .tc := ⟨.hbm, 47, rfl⟩
abbrev main_v14 : Ref sig .tc := ⟨.hbm, 48, rfl⟩
abbrev main_c_3 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_5 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_call0_cst : Ref sig .tc := ⟨.hbm, 89, rfl⟩
abbrev main_call0_v0 : Ref sig .tc := ⟨.hbm, 90, rfl⟩
abbrev main_v52 : Ref sig .tc := ⟨.hbm, 91, rfl⟩
abbrev main_c_6 : Ref sig .tc := ⟨.hbm, 92, rfl⟩
abbrev main_v53 : Ref sig .tc := ⟨.hbm, 93, rfl⟩
abbrev main_v54 : Ref sig .tc := ⟨.hbm, 94, rfl⟩
abbrev main_c_7 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_8 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_9 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_call1_cst : Ref sig .tc := ⟨.hbm, 135, rfl⟩
abbrev main_call1_v0 : Ref sig .tc := ⟨.hbm, 136, rfl⟩
abbrev main_v92 : Ref sig .tc := ⟨.hbm, 137, rfl⟩
abbrev main_c_10 : Ref sig .tc := ⟨.hbm, 138, rfl⟩
abbrev main_v93 : Ref sig .tc := ⟨.hbm, 139, rfl⟩
abbrev main_v94 : Ref sig .tc := ⟨.hbm, 140, rfl⟩
abbrev main_c_11 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_12 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_13 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_call2_cst : Ref sig .tc := ⟨.hbm, 181, rfl⟩
abbrev main_call2_v0 : Ref sig .tc := ⟨.hbm, 182, rfl⟩
abbrev main_v132 : Ref sig .tc := ⟨.hbm, 183, rfl⟩
abbrev main_cst_14 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_15 : Ref sig .tc := ⟨.hbm, 188, rfl⟩
abbrev main_v136 : Ref sig .tc := ⟨.hbm, 189, rfl⟩
abbrev main_cst_16 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_17 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_cst_18 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_call3_cst : Ref sig .tc := ⟨.hbm, 219, rfl⟩
abbrev main_call3_v0 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_call4_cst : Ref sig .tc := ⟨.hbm, 226, rfl⟩
abbrev main_call4_v0 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128_S1x128_0_0 : S3x128.Slices ![0, 0] S1x128
  shapeCasts_S1x128_S128 : S1x128.ShapeCasts S128
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128_S1x128_1_0 : S3x128.Slices ![1, 0] S1x128
  slices_S3x128_S1x128_2_0 : S3x128.Slices ![2, 0] S1x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S45_S1x45_1 : S45.BroadcastsInDim S1x45 (![1] : Fin 1 → Fin S1x45.rank)
  bcast_S1x45_S512x45_0_1 : S1x45.BroadcastsInDim S512x45 (![0, 1] : Fin 2 → Fin S512x45.rank)
  bcast_S_S45 : S_.BroadcastsInDim S45 (![] : Fin 0 → Fin S45.rank)
  concatenates_S512x128_S512x45_S512x173_d1 : Shape.Concatenates [S512x128, S512x45] S512x173 1
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  bcast_S173_S1x173_1 : S173.BroadcastsInDim S1x173 (![1] : Fin 1 → Fin S1x173.rank)
  bcast_S1x173_S512x173_0_1 : S1x173.BroadcastsInDim S512x173 (![0, 1] : Fin 2 → Fin S512x173.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x173_S173x64_S512x64_1_0_0_1_n_n_wf : DotDims.WF S512x173 S173x64 S512x64 [1] [0] [0] [1] [] []
  dot_S512x64_S64x32_S512x32_1_0_0_1_n_n_wf : DotDims.WF S512x64 S64x32 S512x32 [1] [0] [0] [1] [] []
  dot_S512x32_S32x2_S512x2_1_0_0_1_n_n_wf : DotDims.WF S512x32 S32x2 S512x2 [1] [0] [0] [1] [] []
  dot_S512x173_S173x173_S512x173_1_0_0_1_n_n_wf : DotDims.WF S512x173 S173x173 S512x173 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x173_S173x64_S512x64_1_0_0_1_n_n : DotDims S512x173 S173x64 S512x64 where
  lhsContracting := [1]
  rhsContracting := [0]
  lhsNonContracting := [0]
  rhsNonContracting := [1]
  lhsBatch := []
  rhsBatch := []
  wf := dot_S512x173_S173x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf
def dot_S512x173_S173x173_S512x173_1_0_0_1_n_n : DotDims S512x173 S173x173 S512x173 where
  lhsContracting := [1]
  rhsContracting := [0]
  lhsNonContracting := [0]
  rhsNonContracting := [1]
  lhsBatch := []
  rhsBatch := []
  wf := dot_S512x173_S173x173_S512x173_1_0_0_1_n_n_wf

class Facts : Prop extends Facts₀ where

variable [Facts]
-- ==== Proof.PreFacts.lean ====
/-
  What the precondition says of the two variance arrays. The precondition is one conjunction of and-reductions of
  entrywise comparisons; its last two conjuncts compare every entry of the layers' variances (3 × 128) and of the
  measurements' variances (45) with 0.0 by ≥. Where the conjunction is the word 1 each conjunct is, an and-reduction
  that is 1 had a 1 at every entry, and on the extended reals the comparison x ≥ 0.0 is 0 ≤ x.
-/
import proofs.«416966_j75505525063863_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreFacts

open Idealize.ShloMosaic
open Cert.Pre_finite_inputs

variable [Cert.Pre_finite_inputs.Facts]

/-- The shape of a scalar has one index. -/
theorem subsingleton_scalar : Subsingleton S_.Idx := ⟨fun a b => funext fun d => d.elim0⟩

/-- The comparison x ≥ 0.0 of extended reals that yields the word 1 says 0 ≤ x. -/
theorem nonneg_of_cmp_oge (x : EReal) (h : Ideal.cmp .oge x (Ideal.ofBits .f32 0x00000000#32) = 1#1) : (0 : EReal) ≤ x := by
  rw [Ideal.ofBits_zero_f32] at h
  by_contra hx
  simp only [Ideal.cmp, decide_eq_false hx] at h
  exact absurd h (by decide)

/-- The last two conjuncts of the precondition, read off its last stretch of operations: each is an and-reduction of
    the entrywise comparison x ≥ 0.0, so where the whole conjunction is the word 1 every entry is nonnegative. -/
theorem part7_nonneg (x16 : FVec Ideal S3x128 .f32) (x20 : FVec Ideal S45 .f32) (x27 : FVec Ideal S173x173 .f32)
    (x28 : FVec Ideal S173 .f32) (v118 : IVec S_ 1) (v119 : FVec Ideal S2 .f32)
    (h : fn_part7 (F := Ideal) x16 x20 x27 x28 v118 v119 ValueIdx.ix0 = 1#1) :
    (∀ i : S3x128.Idx, (0 : EReal) ≤ x16 i) ∧ (∀ i : S45.Idx, (0 : EReal) ≤ x20 i) := by
  haveI := subsingleton_scalar
  dsimp only [fn_part7, fn_part8] at h
  obtain ⟨h1, h140⟩ := IntOp.andi_eq_one.1 h
  obtain ⟨-, h136⟩ := IntOp.andi_eq_one.1 h1
  exact ⟨fun i => nonneg_of_cmp_oge (x16 i) (Host.reduce_andi_all _ _ _ _ _ h136 i),
    fun i => nonneg_of_cmp_oge (x20 i) (Host.reduce_andi_all _ _ _ _ _ h140 i)⟩

variable
    (x0 : FVec Ideal S100000x64 .f32) (x1 : IVec S2x1600000 32) (x2 : IVec S100000 32) (x3 : FVec Ideal S512x45 .f32)
    (x4 : FVec Ideal S64x128 .f32) (x5 : FVec Ideal S128 .f32) (x6 : FVec Ideal S64x128 .f32)
    (x7 : FVec Ideal S128x128 .f32) (x8 : FVec Ideal S128 .f32) (x9 : FVec Ideal S128x128 .f32)
    (x10 : FVec Ideal S128x128 .f32) (x11 : FVec Ideal S128 .f32) (x12 : FVec Ideal S128x128 .f32)
    (x13 : FVec Ideal S3x128 .f32) (x14 : FVec Ideal S3x128 .f32) (x15 : FVec Ideal S3x128 .f32)
    (x16 : FVec Ideal S3x128 .f32) (x17 : FVec Ideal S45 .f32) (x18 : FVec Ideal S45 .f32) (x19 : FVec Ideal S45 .f32)
    (x20 : FVec Ideal S45 .f32) (x21 : FVec Ideal S173x64 .f32) (x22 : FVec Ideal S64 .f32)
    (x23 : FVec Ideal S64x32 .f32) (x24 : FVec Ideal S32 .f32) (x25 : FVec Ideal S32x2 .f32)
    (x26 : FVec Ideal S2 .f32) (x27 : FVec Ideal S173x173 .f32) (x28 : FVec Ideal S173 .f32)

/-- The precondition's last two conjuncts together: the whole chain of operations ends in its last stretch, whose
    head names are values of the earlier stretches. -/
theorem nonneg_of_pre
    (h : Cert.Pre_finite_inputs.fn (F := Ideal) x0 x1 x2 x3 x4 x5 x6 x7 x8 x9 x10 x11 x12 x13 x14 x15 x16 x17 x18 x19 x20 x21 x22 x23 x24 x25 x26 x27 x28 = fun _ => 1#1) :
    (∀ i : S3x128.Idx, (0 : EReal) ≤ x16 i) ∧ (∀ i : S45.Idx, (0 : EReal) ≤ x20 i) :=
  part7_nonneg x16 x20 x27 x28 _ _ (congrFun h ValueIdx.ix0)

/-- Under the precondition every entry of the layers' variance array is nonnegative. -/
theorem bn_v_nonneg
    (h : Cert.Pre_finite_inputs.fn (F := Ideal) x0 x1 x2 x3 x4 x5 x6 x7 x8 x9 x10 x11 x12 x13 x14 x15 x16 x17 x18 x19 x20 x21 x22 x23 x24 x25 x26 x27 x28 = fun _ => 1#1)
    (i : Cert.Pre_finite_inputs.S3x128.Idx) : (0 : EReal) ≤ x16 i :=
  (nonneg_of_pre x0 x1 x2 x3 x4 x5 x6 x7 x8 x9 x10 x11 x12 x13 x14 x15 x16 x17 x18 x19 x20 x21 x22 x23 x24 x25 x26 x27 x28 h).1 i

/-- Under the precondition every entry of the measurements' variance array is nonnegative. -/
theorem rad_v_nonneg
    (h : Cert.Pre_finite_inputs.fn (F := Ideal) x0 x1 x2 x3 x4 x5 x6 x7 x8 x9 x10 x11 x12 x13 x14 x15 x16 x17 x18 x19 x20 x21 x22 x23 x24 x25 x26 x27 x28 = fun _ => 1#1)
    (i : Cert.Pre_finite_inputs.S45.Idx) : (0 : EReal) ≤ x20 i :=
  (nonneg_of_pre x0 x1 x2 x3 x4 x5 x6 x7 x8 x9 x10 x11 x12 x13 x14 x15 x16 x17 x18 x19 x20 x21 x22 x23 x24 x25 x26 x27 x28 h).2 i

end Cert.PreFacts

end
-- ==== Proof.KResults.lean ====
/-
  The run of the idealized kernel program with its three result arrays named: on every core the scores, the embedding
  and the node features end holding what the fold through @main leaves at their buffers, and every argument array ends
  as launched.
-/
import proofs.«416966_j75505525063863_1_alg».proof.Proof.KRun

set_option maxRecDepth 16384

noncomputable section

namespace Cert.KernelIdeal.GenRun

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- What the fold leaves at the scores' buffer. -/
abbrev outLogits (c : Dev nD) : Buf (Elt F) ((c.tc : Thread nD τ).loc main_v105_0) := W10 m ρ c (Proc.devRef .tc main_v105_0)
/-- What the fold leaves at the embedding's buffer. -/
abbrev outEmb (c : Dev nD) : Buf (Elt F) ((c.tc : Thread nD τ).loc main_v105_1) := W10 m ρ c (Proc.devRef .tc main_v105_1)
/-- What the fold leaves at the node features' buffer. -/
abbrev outNode (c : Dev nD) : Buf (Elt F) ((c.tc : Thread nD τ).loc main_v90) := W10 m ρ c (Proc.devRef .tc main_v90)

/-- The run with the results named and the arguments unchanged. -/
theorem run_results : θ_run defs (onTc (τ := τ) (main (F := F))) ⟨m, fun _ => 0, ρ⟩ (fun r => ∀ c : Dev nD,
      r.2.mem ((c.tc : Thread nD τ).loc main_v105_0) = outLogits m ρ c
      ∧ r.2.mem ((c.tc : Thread nD τ).loc main_v105_1) = outEmb m ρ c
      ∧ r.2.mem ((c.tc : Thread nD τ).loc main_v90) = outNode m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨h c _ (mem_uc main_v105_0 (by decide)),
      h c _ (mem_uc main_v105_1 (by decide)),
      h c _ (mem_uc main_v90 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c),
      (h c _ (mem_uc main_arg12 (by decide))).trans (W10_main_arg12 m ρ c),
      (h c _ (mem_uc main_arg13 (by decide))).trans (W10_main_arg13 m ρ c),
      (h c _ (mem_uc main_arg14 (by decide))).trans (W10_main_arg14 m ρ c),
      (h c _ (mem_uc main_arg15 (by decide))).trans (W10_main_arg15 m ρ c),
      (h c _ (mem_uc main_arg16 (by decide))).trans (W10_main_arg16 m ρ c),
      (h c _ (mem_uc main_arg17 (by decide))).trans (W10_main_arg17 m ρ c),
      (h c _ (mem_uc main_arg18 (by decide))).trans (W10_main_arg18 m ρ c),
      (h c _ (mem_uc main_arg19 (by decide))).trans (W10_main_arg19 m ρ c),
      (h c _ (mem_uc main_arg20 (by decide))).trans (W10_main_arg20 m ρ c),
      (h c _ (mem_uc main_arg21 (by decide))).trans (W10_main_arg21 m ρ c),
      (h c _ (mem_uc main_arg22 (by decide))).trans (W10_main_arg22 m ρ c),
      (h c _ (mem_uc main_arg23 (by decide))).trans (W10_main_arg23 m ρ c),
      (h c _ (mem_uc main_arg24 (by decide))).trans (W10_main_arg24 m ρ c),
      (h c _ (mem_uc main_arg25 (by decide))).trans (W10_main_arg25 m ρ c),
      (h c _ (mem_uc main_arg26 (by decide))).trans (W10_main_arg26 m ρ c),
      (h c _ (mem_uc main_arg27 (by decide))).trans (W10_main_arg27 m ρ c),
      (h c _ (mem_uc main_arg28 (by decide))).trans (W10_main_arg28 m ρ c)⟩)
    (run_all m ρ)

end Cert.KernelIdeal.GenRun

end
-- ==== Proof.Spec.lean ====
/-
  The arithmetic both programs compute, one output entry at a time, over the extended reals.

  A layer's dense stage at node n and feature f: the two contractions of the node's aggregated row and of its own row
  against a column of each weight matrix, the bias, then the normalisation (x − μ)·s + β with s the scale of the
  feature, and the clip below at 0. The two programs differ in two places only: the order in which the bias and the
  second contraction are added (addition of extended reals is associative and commutative), and the scale, γ·(v+ε)^(-1/2)
  on one side and γ/√(v+ε) on the other, which agree whenever 0 ≤ v (then v+ε is a positive real or +∞).

  The pooled mean and the head: a graph's sum divided by its node count clipped below at 1; the normalised
  measurements; then three affine maps with a clip after the first two, and one affine map for the embedding. One side
  contracts the 173 fused features at once, the other the first 128 and the last 45 separately: a sum over Fin (128+45)
  splits.
-/
import Idealize.ShloMosaic.PureOps.Ideal
import Idealize.ShloMosaic.PureOps.Ideal.Laws
import Mathlib.Algebra.BigOperators.Fin

noncomputable section

open scoped BigOperators

namespace Cert.Sage

open Idealize.ShloMosaic

/-- The normalisation's ε: the single-precision word of 1e-5, read exactly. -/
def eps : EReal := Ideal.ofBits .f32 0x3727C5AC#32

/-- The word of 1.0, read exactly. -/
def one : EReal := Ideal.ofBits .f32 0x3F800000#32

/-- The word of 0.0, read exactly. -/
def zero : EReal := Ideal.ofBits .f32 0x00000000#32

/-- The scale γ·(v+ε)^(-1/2). -/
def scaleK (g v : EReal) : EReal := g * Ideal.rsqrt (v + eps)

/-- The scale γ/√(v+ε). -/
def scaleR (g v : EReal) : EReal := Ideal.div g (Ideal.sqrt (v + eps))

/-- One entry of a layer: ((a·wl + x·wr) + bl − μ)·scaleK + β, clipped below at 0. -/
def denseK {K : ℕ} (a x wl wr : Fin K → EReal) (bl g b mu v : EReal) : EReal :=
  max (((((∑ k, a k * wl k) + (∑ k, x k * wr k)) + bl) - mu) * scaleK g v + b) zero

/-- One entry of a layer: ((a·wl + bl) + x·wr − μ)·scaleR + β, clipped below at 0. -/
def denseR {K : ℕ} (a x wl wr : Fin K → EReal) (bl g b mu v : EReal) : EReal :=
  max (((((∑ k, a k * wl k) + bl) + (∑ k, x k * wr k)) - mu) * scaleR g v + b) zero

/-- A pooled mean entry: the sum over the count clipped below at 1. -/
def meanOf (s cnt : EReal) : EReal := Ideal.div s (max cnt one)

/-- A normalised measurement, with the scale γ·(v+ε)^(-1/2). -/
def normK (r g b mu v : EReal) : EReal := (r - mu) * scaleK g v + b

/-- A normalised measurement, with the scale γ/√(v+ε). -/
def normR (r g b mu v : EReal) : EReal := (r - mu) * scaleR g v + b

/-- An affine entry over the two halves of the fused features: (p·wt + q·wb) + bias. -/
def affSplit {A B : ℕ} (p wt : Fin A → EReal) (q wb : Fin B → EReal) (bias : EReal) : EReal :=
  ((∑ k, p k * wt k) + (∑ k, q k * wb k)) + bias

/-- An affine entry: u·w + bias. -/
def aff {A : ℕ} (u w : Fin A → EReal) (bias : EReal) : EReal := (∑ k, u k * w k) + bias

/-- The clip below at 0. -/
def relu (x : EReal) : EReal := max x zero

/-- The two-class scores of one graph from the two halves of its fused features: three affine maps, a clip after the
    first two; the first map contracts the halves separately. -/
def logitsK (ge : Fin 128 → EReal) (re : Fin 45 → EReal) (c1Wt : Fin 128 → Fin 64 → EReal) (c1Wb : Fin 45 → Fin 64 → EReal)
    (c1b : Fin 64 → EReal) (c2W : Fin 64 → Fin 32 → EReal) (c2b : Fin 32 → EReal) (c3W : Fin 32 → Fin 2 → EReal)
    (c3b : Fin 2 → EReal) (j : Fin 2) : EReal :=
  aff (fun k2 => relu (aff (fun k1 => relu (affSplit ge (fun k => c1Wt k k1) re (fun k => c1Wb k k1) (c1b k1)))
    (fun k1 => c2W k1 k2) (c2b k2))) (fun k2 => c3W k2 j) (c3b j)

/-- The same scores from the 173 fused features at once. -/
def logitsR (fused : Fin 173 → EReal) (c1W : Fin 173 → Fin 64 → EReal) (c1b : Fin 64 → EReal)
    (c2W : Fin 64 → Fin 32 → EReal) (c2b : Fin 32 → EReal) (c3W : Fin 32 → Fin 2 → EReal) (c3b : Fin 2 → EReal)
    (j : Fin 2) : EReal :=
  aff (fun k2 => relu (aff (fun k1 => relu (aff fused (fun k => c1W k k1) (c1b k1)))
    (fun k1 => c2W k1 k2) (c2b k2))) (fun k2 => c3W k2 j) (c3b j)

/-- One entry of the embedding from the two halves. -/
def embK (ge : Fin 128 → EReal) (re : Fin 45 → EReal) (eWt : Fin 128 → Fin 173 → EReal) (eWb : Fin 45 → Fin 173 → EReal)
    (eb : Fin 173 → EReal) (j : Fin 173) : EReal :=
  affSplit ge (fun k => eWt k j) re (fun k => eWb k j) (eb j)

/-- One entry of the embedding from the fused features at once. -/
def embR (fused : Fin 173 → EReal) (eW : Fin 173 → Fin 173 → EReal) (eb : Fin 173 → EReal) (j : Fin 173) : EReal :=
  aff fused (fun k => eW k j) (eb j)

end Cert.Sage

end
-- ==== Proof.KLayer0.lean ====
/-
  The value of the layer's output array after the region, entry by entry.

  The region runs over 20 grid points; point t stages rows 5000·t … 5000·t + 4999 of the aggregated array and of the
  node array, the two whole 64×128 weight matrices and the five 1×128 rows (bias, γ, β, μ, variance), and writes back
  rows 5000·t … 5000·t + 4999 of the output. At entry (p, q) of the staged block the body computes
  max ((((agg·Wl + x·Wr) + bias) − μ) · (γ · (variance + ε)^(-1/2)) + β) 0, each product a sum over the 64 input features
  of row p against column q. Row n of the output lies in block n / 5000 at inner row n % 5000, and the 20 blocks tile
  the 100000 rows, so the output array at (n, f) is that formula on row n of the two input arrays and column f of the
  weights and of the five rows.
-/
import proofs.«416966_j75505525063863_1_alg».proof.Proof.Gen.KernelIdeal.Frame
import proofs.«416966_j75505525063863_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Handa0

open Cert.KernelIdeal Cert.KernelIdeal.Gen

/-! ## The block product at an entry -/

/-- The left operand is read at the output's row … -/
theorem lhs_axis0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and at the summation index on its second axis; -/
theorem lhs_axis1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- the right operand at the summation index on its first axis … -/
theorem rhs_axis0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and at the output's column. -/
theorem rhs_axis1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry (p, q) of a 5000×64 block times a 64×128 matrix, accumulated from zero, is the sum over the 64 features of
    row p against column q. -/
theorem blockProduct_apply (a : FVec Ideal S5000x64 .bf16) (w : FVec Ideal S64x128 .bf16) (p : Fin 5000) (q : Fin 128) :
    matmul dot_S5000x64_S64x128_S5000x128_1_0_0_1_n_n none a w (constant (F := Ideal) S5000x128 .f32 0x00000000#32) (ix2 p q)
      = ∑ k : Fin 64, a (ix2 p k) * w (ix2 k q) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-! ## The body at an entry -/

/-- The body's result at entry (p, q) of the block, from the staged blocks: the layer's dense stage on row p of the two
    row blocks, column q of the two weight matrices and of the five rows. A change of float format is the identity on
    extended reals, a cast to the same shape the identity, and a 1×128 row broadcast over the 5000 rows reads its one
    row. -/
theorem payload_apply (v0 v3 : Vec Ideal S5000x64 .f32) (v5 v7 : Vec Ideal S64x128 .f32)
    (v12 v16 v18 v20 v22 : Vec Ideal S1x128 .f32) (p : Fin 5000) (q : Fin 128) :
    k0_pay1 (F := Ideal) v0 v3 v5 v7 v12 v16 v18 v20 v22 (ix2 p q)
      = Cert.Sage.denseK (fun k : Fin 64 => v0 (ix2 p k)) (fun k : Fin 64 => v3 (ix2 p k))
          (fun k : Fin 64 => v5 (ix2 k q)) (fun k : Fin 64 => v7 (ix2 k q))
          (v12 (ix2 (0 : Fin 1) q)) (v16 (ix2 (0 : Fin 1) q)) (v18 (ix2 (0 : Fin 1) q)) (v20 (ix2 (0 : Fin 1) q))
          (v22 (ix2 (0 : Fin 1) q)) := by
  unfold k0_pay1
  simp only [shapeCast_self]
  simp only [maximumf_apply, addf_apply, mulf_apply, subf_apply, broadcast_apply]
  rw [blockProduct_apply, blockProduct_apply]
  rw [broadcastTo_1b_ab_apply v12, broadcastTo_1b_ab_apply v20, broadcastTo_1b_ab_apply v18, broadcastTo_1b_ab_apply]
  rfl

/-! ## From the blocks to the array -/

-- the TensorCore's buffer contents when the region is entered
variable (V : (c : Dev nD) → (b : Ref sig .tc) → Buf (Elt Ideal) ((c : Thread nD τ).loc b))

/-- The layer's output at node n and feature f, from the arrays as the region finds them. -/
def layerAt (c : Dev nD) (n : Fin 100000) (f : Fin 128) : EReal :=
  Cert.Sage.denseK (fun k : Fin 64 => (V c main_v48 : Vec Ideal S100000x64 .f32) (ix2 n k))
    (fun k : Fin 64 => (V c main_arg0 : Vec Ideal S100000x64 .f32) (ix2 n k))
    (fun k : Fin 64 => (V c main_arg4 : Vec Ideal S64x128 .f32) (ix2 k f))
    (fun k : Fin 64 => (V c main_arg6 : Vec Ideal S64x128 .f32) (ix2 k f))
    ((V c main_v49 : Vec Ideal S1x128 .f32) (ix2 0 f))
    ((V c main_v50 : Vec Ideal S1x128 .f32) (ix2 0 f))
    ((V c main_v51 : Vec Ideal S1x128 .f32) (ix2 0 f))
    ((V c main_v52 : Vec Ideal S1x128 .f32) (ix2 0 f))
    ((V c main_v53 : Vec Ideal S1x128 .f32) (ix2 0 f))

/-- The whole output array: the layer's output at each index's two coordinates. -/
def layer (c : Dev nD) : S100000x128.Idx → EReal := fun i => layerAt V c (i 0) (i 1)

theorem zeroOffsets : (![0, 0] : Fin 2 → Nat) = fun _ => 0 := funext fun a => by fin_cases a <;> rfl

/-- The printed index maps, decided over the 20 grid points: the two row windows and the output window stand at row
    block t, every other window at its one block. -/
theorem index_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- A grid point's number is below 20. -/
theorem point_lt (t : Fin cfg0.N) : t.val < 20 :=
  lt_of_lt_of_eq t.isLt (N_0 : cfg0.N = 20)

/-- Row p of the aggregated array's block at point t is row 5000·t + p of the array. -/
theorem aggBlock_apply (c : Dev nD) (t : Fin cfg0.N) (p : Fin 5000) (n : Fin 100000) (hn : n.val = t.val * 5000 + p.val) (k : Fin 64) :
    (iblk0 V c 0 t : Vec Ideal S5000x64 .f32) (ix2 p k) = (V c main_v48 : Vec Ideal S100000x64 .f32) (ix2 n k) := by
  obtain ⟨e0, e1, -⟩ := index_facts t
  unfold iblk0
  rw [View.read_apply]
  show V c main_v48 _ = V c main_v48 _
  congr 1
  funext ax
  apply Fin.ext
  match ax with
  | ⟨0, _⟩ => show win0_0.index t (0 : Fin 2) * 5000 + 1 * p.val = n.val; rw [e0, hn]; omega
  | ⟨1, _⟩ => show win0_0.index t (1 : Fin 2) * 64 + 1 * k.val = k.val; rw [e1]; omega

/-- Row p of the node array's block at point t is row 5000·t + p of the array. -/
theorem nodeBlock_apply (c : Dev nD) (t : Fin cfg0.N) (p : Fin 5000) (n : Fin 100000) (hn : n.val = t.val * 5000 + p.val) (k : Fin 64) :
    (iblk0 V c 1 t : Vec Ideal S5000x64 .f32) (ix2 p k) = (V c main_arg0 : Vec Ideal S100000x64 .f32) (ix2 n k) := by
  obtain ⟨-, -, e0, e1, -⟩ := index_facts t
  unfold iblk0
  rw [View.read_apply]
  show V c main_arg0 _ = V c main_arg0 _
  congr 1
  funext ax
  apply Fin.ext
  match ax with
  | ⟨0, _⟩ => show win0_1.index t (0 : Fin 2) * 5000 + 1 * p.val = n.val; rw [e0, hn]; omega
  | ⟨1, _⟩ => show win0_1.index t (1 : Fin 2) * 64 + 1 * k.val = k.val; rw [e1]; omega

/-- The first weight matrix is staged whole at every point. -/
theorem wlBlock_apply (c : Dev nD) (t : Fin cfg0.N) (k : Fin 64) (q : Fin 128) :
    (iblk0 V c 2 t : Vec Ideal S64x128 .f32) (ix2 k q) = (V c main_arg4 : Vec Ideal S64x128 .f32) (ix2 k q) := by
  obtain ⟨-, -, -, -, e0, e1, -⟩ := index_facts t
  unfold iblk0
  rw [View.read_apply]
  show V c main_arg4 _ = V c main_arg4 _
  congr 1
  funext ax
  apply Fin.ext
  match ax with
  | ⟨0, _⟩ => show win0_2.index t (0 : Fin 2) * 64 + 1 * k.val = k.val; rw [e0]; omega
  | ⟨1, _⟩ => show win0_2.index t (1 : Fin 2) * 128 + 1 * q.val = q.val; rw [e1]; omega

/-- The second weight matrix is staged whole at every point. -/
theorem wrBlock_apply (c : Dev nD) (t : Fin cfg0.N) (k : Fin 64) (q : Fin 128) :
    (iblk0 V c 4 t : Vec Ideal S64x128 .f32) (ix2 k q) = (V c main_arg6 : Vec Ideal S64x128 .f32) (ix2 k q) := by
  obtain ⟨-, -, -, -, -, -, -, -, e0, e1, -⟩ := index_facts t
  unfold iblk0
  rw [View.read_apply]
  show V c main_arg6 _ = V c main_arg6 _
  congr 1
  funext ax
  apply Fin.ext
  match ax with
  | ⟨0, _⟩ => show win0_4.index t (0 : Fin 2) * 64 + 1 * k.val = k.val; rw [e0]; omega
  | ⟨1, _⟩ => show win0_4.index t (1 : Fin 2) * 128 + 1 * q.val = q.val; rw [e1]; omega

/-- The bias row is staged whole at every point. -/
theorem biasBlock_apply (c : Dev nD) (t : Fin cfg0.N) (q : Fin 128) :
    (iblk0 V c 3 t : Vec Ideal S1x128 .f32) (ix2 (0 : Fin 1) q) = (V c main_v49 : Vec Ideal S1x128 .f32) (ix2 (0 : Fin 1) q) := by
  obtain ⟨-, -, -, -, -, -, e0, e1, -⟩ := index_facts t
  unfold iblk0
  rw [View.read_apply]
  show V c main_v49 _ = V c main_v49 _
  congr 1
  funext ax
  apply Fin.ext
  match ax with
  | ⟨0, _⟩ => show win0_3.index t (0 : Fin 2) * 1 + 1 * 0 = 0; rw [e0]
  | ⟨1, _⟩ => show win0_3.index t (1 : Fin 2) * 128 + 1 * q.val = q.val; rw [e1]; omega

/-- The row of γ is staged whole at every point. -/
theorem gammaBlock_apply (c : Dev nD) (t : Fin cfg0.N) (q : Fin 128) :
    (iblk0 V c 5 t : Vec Ideal S1x128 .f32) (ix2 (0 : Fin 1) q) = (V c main_v50 : Vec Ideal S1x128 .f32) (ix2 (0 : Fin 1) q) := by
  obtain ⟨-, -, -, -, -, -, -, -, -, -, e0, e1, -⟩ := index_facts t
  unfold iblk0
  rw [View.read_apply]
  show V c main_v50 _ = V c main_v50 _
  congr 1
  funext ax
  apply Fin.ext
  match ax with
  | ⟨0, _⟩ => show win0_5.index t (0 : Fin 2) * 1 + 1 * 0 = 0; rw [e0]
  | ⟨1, _⟩ => show win0_5.index t (1 : Fin 2) * 128 + 1 * q.val = q.val; rw [e1]; omega

/-- The row of β is staged whole at every point. -/
theorem betaBlock_apply (c : Dev nD) (t : Fin cfg0.N) (q : Fin 128) :
    (iblk0 V c 6 t : Vec Ideal S1x128 .f32) (ix2 (0 : Fin 1) q) = (V c main_v51 : Vec Ideal S1x128 .f32) (ix2 (0 : Fin 1) q) := by
  obtain ⟨-, -, -, -, -, -, -, -, -, -, -, -, e0, e1, -⟩ := index_facts t
  unfold iblk0
  rw [View.read_apply]
  show V c main_v51 _ = V c main_v51 _
  congr 1
  funext ax
  apply Fin.ext
  match ax with
  | ⟨0, _⟩ => show win0_6.index t (0 : Fin 2) * 1 + 1 * 0 = 0; rw [e0]
  | ⟨1, _⟩ => show win0_6.index t (1 : Fin 2) * 128 + 1 * q.val = q.val; rw [e1]; omega

/-- The row of μ is staged whole at every point. -/
theorem muBlock_apply (c : Dev nD) (t : Fin cfg0.N) (q : Fin 128) :
    (iblk0 V c 7 t : Vec Ideal S1x128 .f32) (ix2 (0 : Fin 1) q) = (V c main_v52 : Vec Ideal S1x128 .f32) (ix2 (0 : Fin 1) q) := by
  obtain ⟨-, -, -, -, -, -, -, -, -, -, -, -, -, -, e0, e1, -⟩ := index_facts t
  unfold iblk0
  rw [View.read_apply]
  show V c main_v52 _ = V c main_v52 _
  congr 1
  funext ax
  apply Fin.ext
  match ax with
  | ⟨0, _⟩ => show win0_7.index t (0 : Fin 2) * 1 + 1 * 0 = 0; rw [e0]
  | ⟨1, _⟩ => show win0_7.index t (1 : Fin 2) * 128 + 1 * q.val = q.val; rw [e1]; omega

/-- The row of variances is staged whole at every point. -/
theorem varBlock_apply (c : Dev nD) (t : Fin cfg0.N) (q : Fin 128) :
    (iblk0 V c 8 t : Vec Ideal S1x128 .f32) (ix2 (0 : Fin 1) q) = (V c main_v53 : Vec Ideal S1x128 .f32) (ix2 (0 : Fin 1) q) := by
  obtain ⟨-, -, -, -, -, -, -, -, -, -, -, -, -, -, -, -, e0, e1, -⟩ := index_facts t
  unfold iblk0
  rw [View.read_apply]
  show V c main_v53 _ = V c main_v53 _
  congr 1
  funext ax
  apply Fin.ext
  match ax with
  | ⟨0, _⟩ => show win0_8.index t (0 : Fin 2) * 1 + 1 * 0 = 0; rw [e0]
  | ⟨1, _⟩ => show win0_8.index t (1 : Fin 2) * 128 + 1 * q.val = q.val; rw [e1]; omega

/-- The body's result at entry (p, q) of point t's blocks is the layer's output at node 5000·t + p and feature q. -/
theorem point_apply (c : Dev nD) (t : Fin cfg0.N) (p : Fin 5000) (q : Fin 128) (n : Fin 100000) (hn : n.val = t.val * 5000 + p.val) :
    k0_pay1 (F := Ideal) (iblk0 V c 0 t) (iblk0 V c 1 t) (iblk0 V c 2 t) (iblk0 V c 4 t) (iblk0 V c 3 t)
        (iblk0 V c 5 t) (iblk0 V c 6 t) (iblk0 V c 7 t) (iblk0 V c 8 t) (ix2 p q)
      = layerAt V c n q := by
  refine (payload_apply (iblk0 V c 0 t) (iblk0 V c 1 t) (iblk0 V c 2 t) (iblk0 V c 4 t) (iblk0 V c 3 t)
    (iblk0 V c 5 t) (iblk0 V c 6 t) (iblk0 V c 7 t) (iblk0 V c 8 t) p q).trans ?_
  unfold layerAt
  simp only [aggBlock_apply V c t p n hn, nodeBlock_apply V c t p n hn, wlBlock_apply V c t, wrBlock_apply V c t,
    biasBlock_apply V c t, gammaBlock_apply V c t, betaBlock_apply V c t, muBlock_apply V c t, varBlock_apply V c t]

/-- WHAT POINT t WRITES BACK is block t of the layer's output array. -/
theorem flushed_eq (c : Dev nD) (t : Fin cfg0.N) :
    (dat0 (F := Ideal) V c).flushed 9 t = ((cfg0.win 9).blk t).view.read (Elt Ideal) (layer V c) := by
  show (cfg0.win 9).cut (grid0.coords t) ((dat0 V c).after 9 t) = _
  rw [after0_9]
  unfold out0_9
  rw [View.canon_unit_zero zeroOffsets]
  simp only [View.ld_unit_zero (S := S5000x64) zeroOffsets, View.ld_unit_zero (S := S64x128) zeroOffsets, View.ld_unit_zero (S := S1x128) zeroOffsets]
  obtain ⟨-, -, -, -, -, -, -, -, -, -, -, -, -, -, -, -, -, -, e0, e1⟩ := index_facts t
  have ht := point_lt t
  funext j
  show k0_pay1 (F := Ideal) (iblk0 V c 0 t) (iblk0 V c 1 t) (iblk0 V c 2 t) (iblk0 V c 4 t) (iblk0 V c 3 t)
      (iblk0 V c 5 t) (iblk0 V c 6 t) (iblk0 V c 7 t) (iblk0 V c 8 t) j
    = layer V c (((cfg0.win 9).blk t).view.emb j)
  obtain ⟨p, q, rfl⟩ : ∃ (p : Fin 5000) (q : Fin 128), j = ix2 p q := ⟨j 0, j 1, eq_ix2 j⟩
  have hp := p.isLt
  have hrow : (⟨t.val * 5000 + p.val, by omega⟩ : Fin 100000) = (((cfg0.win 9).blk t).view.emb (ix2 p q)) 0 := by
    apply Fin.ext
    show t.val * 5000 + p.val = win0_9.index t (0 : Fin 2) * 5000 + 1 * p.val
    rw [e0]; omega
  have hcol : q = (((cfg0.win 9).blk t).view.emb (ix2 p q)) 1 := by
    apply Fin.ext
    show q.val = win0_9.index t (1 : Fin 2) * 128 + 1 * q.val
    rw [e1]; omega
  have hpoint := point_apply V c t p q ⟨t.val * 5000 + p.val, by omega⟩ rfl
  exact hpoint.trans (congr (congrArg (layerAt V c) hrow) hcol)

/-- An index of the output array is in point t's block iff each coordinate is in the block's range on its axis. -/
theorem mem_blk (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v54).slice (win0_9.rect t)).set ↔ _
  rw [View.set_slice_whole, Rect.mem_set_unit]
  exact Iff.rfl

/-- The 20 row blocks tile the array: row n lies in block n / 5000. -/
theorem covered (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_9 _, ?_⟩
  rw [mem_blk]
  obtain ⟨-, -, -, -, -, -, -, -, -, -, -, -, -, -, -, -, -, -, e0, e1⟩ := index_facts ⟨(i 0).val / 5000, by rw [hN]; omega⟩
  intro a
  match a with
  | ⟨0, _⟩ =>
    show win0_9.index _ (0 : Fin 2) * 5000 ≤ (i 0).val ∧ (i 0).val < win0_9.index _ (0 : Fin 2) * 5000 + 5000
    rw [e0]; show (i 0).val / 5000 * 5000 ≤ (i 0).val ∧ (i 0).val < (i 0).val / 5000 * 5000 + 5000; omega
  | ⟨1, _⟩ =>
    show win0_9.index _ (1 : Fin 2) * 128 ≤ (i 1).val ∧ (i 1).val < win0_9.index _ (1 : Fin 2) * 128 + 128
    rw [e1]; omega

/-- THE OUTPUT ARRAY after the region is the layer's output array. -/
theorem final (c : Dev nD) : (dat0 (F := Ideal) V c).arrAt 9 cfg0.N = layer V c :=
  (dat0 (F := Ideal) V c).arrAt_eq_of_cover 9 (layer V c) (fun t _ => flushed_eq V c t) covered

/-- The output array after the region, at node n and feature f. -/
theorem final_apply (c : Dev nD) (n : Fin 100000) (f : Fin 128) :
    (dat0 (F := Ideal) V c).arrAt 9 cfg0.N (ix2 n f)
      = Cert.Sage.denseK (fun k : Fin 64 => (V c main_v48 : Vec Ideal S100000x64 .f32) (ix2 n k))
          (fun k : Fin 64 => (V c main_arg0 : Vec Ideal S100000x64 .f32) (ix2 n k))
          (fun k : Fin 64 => (V c main_arg4 : Vec Ideal S64x128 .f32) (ix2 k f))
          (fun k : Fin 64 => (V c main_arg6 : Vec Ideal S64x128 .f32) (ix2 k f))
          ((V c main_v49 : Vec Ideal S1x128 .f32) (ix2 0 f))
          ((V c main_v50 : Vec Ideal S1x128 .f32) (ix2 0 f))
          ((V c main_v51 : Vec Ideal S1x128 .f32) (ix2 0 f))
          ((V c main_v52 : Vec Ideal S1x128 .f32) (ix2 0 f))
          ((V c main_v53 : Vec Ideal S1x128 .f32) (ix2 0 f)) := by
  rw [final]
  rfl

end Cert.KernelIdeal.Handa0

end
-- ==== Proof.KLayer1.lean ====
/-
  The value of the layer's output array after the region, entry by entry.

  The region runs over 20 grid points; point t stages rows 5000·t … 5000·t + 4999 of the aggregated array and of the
  node array, the two whole 128×128 weight matrices and the five 1×128 rows (bias, γ, β, μ, variance), and writes back
  rows 5000·t … 5000·t + 4999 of the output. At entry (p, q) of the staged block the body computes
  max ((((agg·Wl + x·Wr) + bias) − μ) · (γ · (variance + ε)^(-1/2)) + β) 0, each product a sum over the 128 input features
  of row p against column q. Row n of the output lies in block n / 5000 at inner row n % 5000, and the 20 blocks tile
  the 100000 rows, so the output array at (n, f) is that formula on row n of the two input arrays and column f of the
  weights and of the five rows.
-/
import proofs.«416966_j75505525063863_1_alg».proof.Proof.Gen.KernelIdeal.Frame
import proofs.«416966_j75505525063863_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Handa1

open Cert.KernelIdeal Cert.KernelIdeal.Gen

/-! ## The block product at an entry -/

/-- The left operand is read at the output's row … -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the summation index on its second axis; -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index on its first axis … -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a 5000×128 block times a 128×128 matrix, accumulated from zero, is the sum over the 128 features of
    row p against column q. -/
theorem blockProduct_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-! ## The body at an entry -/

/-- The body's result at entry (p, q) of the block, from the staged blocks: the layer's dense stage on row p of the two
    row blocks, column q of the two weight matrices and of the five rows. A change of float format is the identity on
    extended reals, a cast to the same shape the identity, and a 1×128 row broadcast over the 5000 rows reads its one
    row. -/
theorem payload_apply (v0 v3 : Vec Ideal S5000x128 .f32) (v5 v7 : Vec Ideal S128x128 .f32)
    (v12 v16 v18 v20 v22 : Vec Ideal S1x128 .f32) (p : Fin 5000) (q : Fin 128) :
    k1_pay1 (F := Ideal) v0 v3 v5 v7 v12 v16 v18 v20 v22 (ix2 p q)
      = Cert.Sage.denseK (fun k : Fin 128 => v0 (ix2 p k)) (fun k : Fin 128 => v3 (ix2 p k))
          (fun k : Fin 128 => v5 (ix2 k q)) (fun k : Fin 128 => v7 (ix2 k q))
          (v12 (ix2 (0 : Fin 1) q)) (v16 (ix2 (0 : Fin 1) q)) (v18 (ix2 (0 : Fin 1) q)) (v20 (ix2 (0 : Fin 1) q))
          (v22 (ix2 (0 : Fin 1) q)) := by
  unfold k1_pay1
  simp only [shapeCast_self]
  simp only [maximumf_apply, addf_apply, mulf_apply, subf_apply, broadcast_apply]
  rw [blockProduct_apply, blockProduct_apply]
  rw [broadcastTo_1b_ab_apply v12, broadcastTo_1b_ab_apply v20, broadcastTo_1b_ab_apply v18, broadcastTo_1b_ab_apply]
  rfl

/-! ## From the blocks to the array -/

-- the TensorCore's buffer contents when the region is entered
variable (V : (c : Dev nD) → (b : Ref sig .tc) → Buf (Elt Ideal) ((c : Thread nD τ).loc b))

/-- The layer's output at node n and feature f, from the arrays as the region finds them. -/
def layerAt (c : Dev nD) (n : Fin 100000) (f : Fin 128) : EReal :=
  Cert.Sage.denseK (fun k : Fin 128 => (V c main_v66 : Vec Ideal S100000x128 .f32) (ix2 n k))
    (fun k : Fin 128 => (V c main_v54 : Vec Ideal S100000x128 .f32) (ix2 n k))
    (fun k : Fin 128 => (V c main_arg7 : Vec Ideal S128x128 .f32) (ix2 k f))
    (fun k : Fin 128 => (V c main_arg9 : Vec Ideal S128x128 .f32) (ix2 k f))
    ((V c main_v67 : Vec Ideal S1x128 .f32) (ix2 0 f))
    ((V c main_v68 : Vec Ideal S1x128 .f32) (ix2 0 f))
    ((V c main_v69 : Vec Ideal S1x128 .f32) (ix2 0 f))
    ((V c main_v70 : Vec Ideal S1x128 .f32) (ix2 0 f))
    ((V c main_v71 : Vec Ideal S1x128 .f32) (ix2 0 f))

/-- The whole output array: the layer's output at each index's two coordinates. -/
def layer (c : Dev nD) : S100000x128.Idx → EReal := fun i => layerAt V c (i 0) (i 1)

theorem zeroOffsets : (![0, 0] : Fin 2 → Nat) = fun _ => 0 := funext fun a => by fin_cases a <;> rfl

/-- The printed index maps, decided over the 20 grid points: the two row windows and the output window stand at row
    block t, every other window at its one block. -/
theorem index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- A grid point's number is below 20. -/
theorem point_lt (t : Fin cfg1.N) : t.val < 20 :=
  lt_of_lt_of_eq t.isLt (N_1 : cfg1.N = 20)

/-- Row p of the aggregated array's block at point t is row 5000·t + p of the array. -/
theorem aggBlock_apply (c : Dev nD) (t : Fin cfg1.N) (p : Fin 5000) (n : Fin 100000) (hn : n.val = t.val * 5000 + p.val) (k : Fin 128) :
    (iblk1 V c 0 t : Vec Ideal S5000x128 .f32) (ix2 p k) = (V c main_v66 : Vec Ideal S100000x128 .f32) (ix2 n k) := by
  obtain ⟨e0, e1, -⟩ := index_facts t
  unfold iblk1
  rw [View.read_apply]
  show V c main_v66 _ = V c main_v66 _
  congr 1
  funext ax
  apply Fin.ext
  match ax with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Row p of the node array's block at point t is row 5000·t + p of the array. -/
theorem nodeBlock_apply (c : Dev nD) (t : Fin cfg1.N) (p : Fin 5000) (n : Fin 100000) (hn : n.val = t.val * 5000 + p.val) (k : Fin 128) :
    (iblk1 V c 1 t : Vec Ideal S5000x128 .f32) (ix2 p k) = (V c main_v54 : Vec Ideal S100000x128 .f32) (ix2 n k) := by
  obtain ⟨-, -, e0, e1, -⟩ := index_facts t
  unfold iblk1
  rw [View.read_apply]
  show V c main_v54 _ = V c main_v54 _
  congr 1
  funext ax
  apply Fin.ext
  match ax with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- The first weight matrix is staged whole at every point. -/
theorem wlBlock_apply (c : Dev nD) (t : Fin cfg1.N) (k : Fin 128) (q : Fin 128) :
    (iblk1 V c 2 t : Vec Ideal S128x128 .f32) (ix2 k q) = (V c main_arg7 : Vec Ideal S128x128 .f32) (ix2 k q) := by
  obtain ⟨-, -, -, -, e0, e1, -⟩ := index_facts t
  unfold iblk1
  rw [View.read_apply]
  show V c main_arg7 _ = V c main_arg7 _
  congr 1
  funext ax
  apply Fin.ext
  match ax with
  | ⟨0, _⟩ => show win1_2.index t (0 : Fin 2) * 128 + 1 * k.val = k.val; rw [e0]; omega
  | ⟨1, _⟩ => show win1_2.index t (1 : Fin 2) * 128 + 1 * q.val = q.val; rw [e1]; omega

/-- The second weight matrix is staged whole at every point. -/
theorem wrBlock_apply (c : Dev nD) (t : Fin cfg1.N) (k : Fin 128) (q : Fin 128) :
    (iblk1 V c 4 t : Vec Ideal S128x128 .f32) (ix2 k q) = (V c main_arg9 : Vec Ideal S128x128 .f32) (ix2 k q) := by
  obtain ⟨-, -, -, -, -, -, -, -, e0, e1, -⟩ := index_facts t
  unfold iblk1
  rw [View.read_apply]
  show V c main_arg9 _ = V c main_arg9 _
  congr 1
  funext ax
  apply Fin.ext
  match ax with
  | ⟨0, _⟩ => show win1_4.index t (0 : Fin 2) * 128 + 1 * k.val = k.val; rw [e0]; omega
  | ⟨1, _⟩ => show win1_4.index t (1 : Fin 2) * 128 + 1 * q.val = q.val; rw [e1]; omega

/-- The bias row is staged whole at every point. -/
theorem biasBlock_apply (c : Dev nD) (t : Fin cfg1.N) (q : Fin 128) :
    (iblk1 V c 3 t : Vec Ideal S1x128 .f32) (ix2 (0 : Fin 1) q) = (V c main_v67 : Vec Ideal S1x128 .f32) (ix2 (0 : Fin 1) q) := by
  obtain ⟨-, -, -, -, -, -, e0, e1, -⟩ := index_facts t
  unfold iblk1
  rw [View.read_apply]
  show V c main_v67 _ = V c main_v67 _
  congr 1
  funext ax
  apply Fin.ext
  match ax with
  | ⟨0, _⟩ => show win1_3.index t (0 : Fin 2) * 1 + 1 * 0 = 0; rw [e0]
  | ⟨1, _⟩ => show win1_3.index t (1 : Fin 2) * 128 + 1 * q.val = q.val; rw [e1]; omega

/-- The row of γ is staged whole at every point. -/
theorem gammaBlock_apply (c : Dev nD) (t : Fin cfg1.N) (q : Fin 128) :
    (iblk1 V c 5 t : Vec Ideal S1x128 .f32) (ix2 (0 : Fin 1) q) = (V c main_v68 : Vec Ideal S1x128 .f32) (ix2 (0 : Fin 1) q) := by
  obtain ⟨-, -, -, -, -, -, -, -, -, -, e0, e1, -⟩ := index_facts t
  unfold iblk1
  rw [View.read_apply]
  show V c main_v68 _ = V c main_v68 _
  congr 1
  funext ax
  apply Fin.ext
  match ax with
  | ⟨0, _⟩ => show win1_5.index t (0 : Fin 2) * 1 + 1 * 0 = 0; rw [e0]
  | ⟨1, _⟩ => show win1_5.index t (1 : Fin 2) * 128 + 1 * q.val = q.val; rw [e1]; omega

/-- The row of β is staged whole at every point. -/
theorem betaBlock_apply (c : Dev nD) (t : Fin cfg1.N) (q : Fin 128) :
    (iblk1 V c 6 t : Vec Ideal S1x128 .f32) (ix2 (0 : Fin 1) q) = (V c main_v69 : Vec Ideal S1x128 .f32) (ix2 (0 : Fin 1) q) := by
  obtain ⟨-, -, -, -, -, -, -, -, -, -, -, -, e0, e1, -⟩ := index_facts t
  unfold iblk1
  rw [View.read_apply]
  show V c main_v69 _ = V c main_v69 _
  congr 1
  funext ax
  apply Fin.ext
  match ax with
  | ⟨0, _⟩ => show win1_6.index t (0 : Fin 2) * 1 + 1 * 0 = 0; rw [e0]
  | ⟨1, _⟩ => show win1_6.index t (1 : Fin 2) * 128 + 1 * q.val = q.val; rw [e1]; omega

/-- The row of μ is staged whole at every point. -/
theorem muBlock_apply (c : Dev nD) (t : Fin cfg1.N) (q : Fin 128) :
    (iblk1 V c 7 t : Vec Ideal S1x128 .f32) (ix2 (0 : Fin 1) q) = (V c main_v70 : Vec Ideal S1x128 .f32) (ix2 (0 : Fin 1) q) := by
  obtain ⟨-, -, -, -, -, -, -, -, -, -, -, -, -, -, e0, e1, -⟩ := index_facts t
  unfold iblk1
  rw [View.read_apply]
  show V c main_v70 _ = V c main_v70 _
  congr 1
  funext ax
  apply Fin.ext
  match ax with
  | ⟨0, _⟩ => show win1_7.index t (0 : Fin 2) * 1 + 1 * 0 = 0; rw [e0]
  | ⟨1, _⟩ => show win1_7.index t (1 : Fin 2) * 128 + 1 * q.val = q.val; rw [e1]; omega

/-- The row of variances is staged whole at every point. -/
theorem varBlock_apply (c : Dev nD) (t : Fin cfg1.N) (q : Fin 128) :
    (iblk1 V c 8 t : Vec Ideal S1x128 .f32) (ix2 (0 : Fin 1) q) = (V c main_v71 : Vec Ideal S1x128 .f32) (ix2 (0 : Fin 1) q) := by
  obtain ⟨-, -, -, -, -, -, -, -, -, -, -, -, -, -, -, -, e0, e1, -⟩ := index_facts t
  unfold iblk1
  rw [View.read_apply]
  show V c main_v71 _ = V c main_v71 _
  congr 1
  funext ax
  apply Fin.ext
  match ax with
  | ⟨0, _⟩ => show win1_8.index t (0 : Fin 2) * 1 + 1 * 0 = 0; rw [e0]
  | ⟨1, _⟩ => show win1_8.index t (1 : Fin 2) * 128 + 1 * q.val = q.val; rw [e1]; omega

/-- The body's result at entry (p, q) of point t's blocks is the layer's output at node 5000·t + p and feature q. -/
theorem point_apply (c : Dev nD) (t : Fin cfg1.N) (p : Fin 5000) (q : Fin 128) (n : Fin 100000) (hn : n.val = t.val * 5000 + p.val) :
    k1_pay1 (F := Ideal) (iblk1 V c 0 t) (iblk1 V c 1 t) (iblk1 V c 2 t) (iblk1 V c 4 t) (iblk1 V c 3 t)
        (iblk1 V c 5 t) (iblk1 V c 6 t) (iblk1 V c 7 t) (iblk1 V c 8 t) (ix2 p q)
      = layerAt V c n q := by
  refine (payload_apply (iblk1 V c 0 t) (iblk1 V c 1 t) (iblk1 V c 2 t) (iblk1 V c 4 t) (iblk1 V c 3 t)
    (iblk1 V c 5 t) (iblk1 V c 6 t) (iblk1 V c 7 t) (iblk1 V c 8 t) p q).trans ?_
  unfold layerAt
  simp only [aggBlock_apply V c t p n hn, nodeBlock_apply V c t p n hn, wlBlock_apply V c t, wrBlock_apply V c t,
    biasBlock_apply V c t, gammaBlock_apply V c t, betaBlock_apply V c t, muBlock_apply V c t, varBlock_apply V c t]

/-- WHAT POINT t WRITES BACK is block t of the layer's output array. -/
theorem flushed_eq (c : Dev nD) (t : Fin cfg1.N) :
    (dat1 (F := Ideal) V c).flushed 9 t = ((cfg1.win 9).blk t).view.read (Elt Ideal) (layer V c) := by
  show (cfg1.win 9).cut (grid1.coords t) ((dat1 V c).after 9 t) = _
  rw [after1_9]
  unfold out1_9
  rw [View.canon_unit_zero zeroOffsets]
  simp only [View.ld_unit_zero (S := S5000x128) zeroOffsets, View.ld_unit_zero (S := S128x128) zeroOffsets, View.ld_unit_zero (S := S1x128) zeroOffsets]
  obtain ⟨-, -, -, -, -, -, -, -, -, -, -, -, -, -, -, -, -, -, e0, e1⟩ := index_facts t
  have ht := point_lt t
  funext j
  show k1_pay1 (F := Ideal) (iblk1 V c 0 t) (iblk1 V c 1 t) (iblk1 V c 2 t) (iblk1 V c 4 t) (iblk1 V c 3 t)
      (iblk1 V c 5 t) (iblk1 V c 6 t) (iblk1 V c 7 t) (iblk1 V c 8 t) j
    = layer V c (((cfg1.win 9).blk t).view.emb j)
  obtain ⟨p, q, rfl⟩ : ∃ (p : Fin 5000) (q : Fin 128), j = ix2 p q := ⟨j 0, j 1, eq_ix2 j⟩
  have hp := p.isLt
  have hrow : (⟨t.val * 5000 + p.val, by omega⟩ : Fin 100000) = (((cfg1.win 9).blk t).view.emb (ix2 p q)) 0 := by
    apply Fin.ext
    show t.val * 5000 + p.val = win1_9.index t (0 : Fin 2) * 5000 + 1 * p.val
    rw [e0]; omega
  have hcol : q = (((cfg1.win 9).blk t).view.emb (ix2 p q)) 1 := by
    apply Fin.ext
    show q.val = win1_9.index t (1 : Fin 2) * 128 + 1 * q.val
    rw [e1]; omega
  have hpoint := point_apply V c t p q ⟨t.val * 5000 + p.val, by omega⟩ rfl
  exact hpoint.trans (congr (congrArg (layerAt V c) hrow) hcol)

/-- An index of the output array is in point t's block iff each coordinate is in the block's range on its axis. -/
theorem mem_blk (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v72).slice (win1_9.rect t)).set ↔ _
  rw [View.set_slice_whole, Rect.mem_set_unit]
  exact Iff.rfl

/-- The 20 row blocks tile the array: row n lies in block n / 5000. -/
theorem covered (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_9 _, ?_⟩
  rw [mem_blk]
  obtain ⟨-, -, -, -, -, -, -, -, -, -, -, -, -, -, -, -, -, -, e0, e1⟩ := index_facts ⟨(i 0).val / 5000, by rw [hN]; omega⟩
  intro a
  match a with
  | ⟨0, _⟩ =>
    show win1_9.index _ (0 : Fin 2) * 5000 ≤ (i 0).val ∧ (i 0).val < win1_9.index _ (0 : Fin 2) * 5000 + 5000
    rw [e0]; show (i 0).val / 5000 * 5000 ≤ (i 0).val ∧ (i 0).val < (i 0).val / 5000 * 5000 + 5000; omega
  | ⟨1, _⟩ =>
    show win1_9.index _ (1 : Fin 2) * 128 ≤ (i 1).val ∧ (i 1).val < win1_9.index _ (1 : Fin 2) * 128 + 128
    rw [e1]; omega

/-- THE OUTPUT ARRAY after the region is the layer's output array. -/
theorem final (c : Dev nD) : (dat1 (F := Ideal) V c).arrAt 9 cfg1.N = layer V c :=
  (dat1 (F := Ideal) V c).arrAt_eq_of_cover 9 (layer V c) (fun t _ => flushed_eq V c t) covered

/-- The output array after the region, at node n and feature f. -/
theorem final_apply (c : Dev nD) (n : Fin 100000) (f : Fin 128) :
    (dat1 (F := Ideal) V c).arrAt 9 cfg1.N (ix2 n f)
      = Cert.Sage.denseK (fun k : Fin 128 => (V c main_v66 : Vec Ideal S100000x128 .f32) (ix2 n k))
          (fun k : Fin 128 => (V c main_v54 : Vec Ideal S100000x128 .f32) (ix2 n k))
          (fun k : Fin 128 => (V c main_arg7 : Vec Ideal S128x128 .f32) (ix2 k f))
          (fun k : Fin 128 => (V c main_arg9 : Vec Ideal S128x128 .f32) (ix2 k f))
          ((V c main_v67 : Vec Ideal S1x128 .f32) (ix2 0 f))
          ((V c main_v68 : Vec Ideal S1x128 .f32) (ix2 0 f))
          ((V c main_v69 : Vec Ideal S1x128 .f32) (ix2 0 f))
          ((V c main_v70 : Vec Ideal S1x128 .f32) (ix2 0 f))
          ((V c main_v71 : Vec Ideal S1x128 .f32) (ix2 0 f)) := by
  rw [final]
  rfl

end Cert.KernelIdeal.Handa1

end
-- ==== Proof.KLayer2.lean ====
/-
  The value of the layer's output array after the region, entry by entry.

  The region runs over 20 grid points; point t stages rows 5000·t … 5000·t + 4999 of the aggregated array and of the
  node array, the two whole 128×128 weight matrices and the five 1×128 rows (bias, γ, β, μ, variance), and writes back
  rows 5000·t … 5000·t + 4999 of the output. At entry (p, q) of the staged block the body computes
  max ((((agg·Wl + x·Wr) + bias) − μ) · (γ · (variance + ε)^(-1/2)) + β) 0, each product a sum over the 128 input features
  of row p against column q. Row n of the output lies in block n / 5000 at inner row n % 5000, and the 20 blocks tile
  the 100000 rows, so the output array at (n, f) is that formula on row n of the two input arrays and column f of the
  weights and of the five rows.
-/
import proofs.«416966_j75505525063863_1_alg».proof.Proof.Gen.KernelIdeal.Frame
import proofs.«416966_j75505525063863_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Handa2

open Cert.KernelIdeal Cert.KernelIdeal.Gen

/-! ## The block product at an entry -/

/-- The left operand is read at the output's row … -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the summation index on its second axis; -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index on its first axis … -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a 5000×128 block times a 128×128 matrix, accumulated from zero, is the sum over the 128 features of
    row p against column q. -/
theorem blockProduct_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-! ## The body at an entry -/

/-- The body's result at entry (p, q) of the block, from the staged blocks: the layer's dense stage on row p of the two
    row blocks, column q of the two weight matrices and of the five rows. A change of float format is the identity on
    extended reals, a cast to the same shape the identity, and a 1×128 row broadcast over the 5000 rows reads its one
    row. -/
theorem payload_apply (v0 v3 : Vec Ideal S5000x128 .f32) (v5 v7 : Vec Ideal S128x128 .f32)
    (v12 v16 v18 v20 v22 : Vec Ideal S1x128 .f32) (p : Fin 5000) (q : Fin 128) :
    k2_pay1 (F := Ideal) v0 v3 v5 v7 v12 v16 v18 v20 v22 (ix2 p q)
      = Cert.Sage.denseK (fun k : Fin 128 => v0 (ix2 p k)) (fun k : Fin 128 => v3 (ix2 p k))
          (fun k : Fin 128 => v5 (ix2 k q)) (fun k : Fin 128 => v7 (ix2 k q))
          (v12 (ix2 (0 : Fin 1) q)) (v16 (ix2 (0 : Fin 1) q)) (v18 (ix2 (0 : Fin 1) q)) (v20 (ix2 (0 : Fin 1) q))
          (v22 (ix2 (0 : Fin 1) q)) := by
  unfold k2_pay1
  simp only [shapeCast_self]
  simp only [maximumf_apply, addf_apply, mulf_apply, subf_apply, broadcast_apply]
  rw [blockProduct_apply, blockProduct_apply]
  rw [broadcastTo_1b_ab_apply v12, broadcastTo_1b_ab_apply v20, broadcastTo_1b_ab_apply v18, broadcastTo_1b_ab_apply]
  rfl

/-! ## From the blocks to the array -/

-- the TensorCore's buffer contents when the region is entered
variable (V : (c : Dev nD) → (b : Ref sig .tc) → Buf (Elt Ideal) ((c : Thread nD τ).loc b))

/-- The layer's output at node n and feature f, from the arrays as the region finds them. -/
def layerAt (c : Dev nD) (n : Fin 100000) (f : Fin 128) : EReal :=
  Cert.Sage.denseK (fun k : Fin 128 => (V c main_v84 : Vec Ideal S100000x128 .f32) (ix2 n k))
    (fun k : Fin 128 => (V c main_v72 : Vec Ideal S100000x128 .f32) (ix2 n k))
    (fun k : Fin 128 => (V c main_arg10 : Vec Ideal S128x128 .f32) (ix2 k f))
    (fun k : Fin 128 => (V c main_arg12 : Vec Ideal S128x128 .f32) (ix2 k f))
    ((V c main_v85 : Vec Ideal S1x128 .f32) (ix2 0 f))
    ((V c main_v86 : Vec Ideal S1x128 .f32) (ix2 0 f))
    ((V c main_v87 : Vec Ideal S1x128 .f32) (ix2 0 f))
    ((V c main_v88 : Vec Ideal S1x128 .f32) (ix2 0 f))
    ((V c main_v89 : Vec Ideal S1x128 .f32) (ix2 0 f))

/-- The whole output array: the layer's output at each index's two coordinates. -/
def layer (c : Dev nD) : S100000x128.Idx → EReal := fun i => layerAt V c (i 0) (i 1)

theorem zeroOffsets : (![0, 0] : Fin 2 → Nat) = fun _ => 0 := funext fun a => by fin_cases a <;> rfl

/-- The printed index maps, decided over the 20 grid points: the two row windows and the output window stand at row
    block t, every other window at its one block. -/
theorem index_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- A grid point's number is below 20. -/
theorem point_lt (t : Fin cfg2.N) : t.val < 20 :=
  lt_of_lt_of_eq t.isLt (N_2 : cfg2.N = 20)

/-- Row p of the aggregated array's block at point t is row 5000·t + p of the array. -/
theorem aggBlock_apply (c : Dev nD) (t : Fin cfg2.N) (p : Fin 5000) (n : Fin 100000) (hn : n.val = t.val * 5000 + p.val) (k : Fin 128) :
    (iblk2 V c 0 t : Vec Ideal S5000x128 .f32) (ix2 p k) = (V c main_v84 : Vec Ideal S100000x128 .f32) (ix2 n k) := by
  obtain ⟨e0, e1, -⟩ := index_facts t
  unfold iblk2
  rw [View.read_apply]
  show V c main_v84 _ = V c main_v84 _
  congr 1
  funext ax
  apply Fin.ext
  match ax with
  | ⟨0, _⟩ => show win2_0.index t (0 : Fin 2) * 5000 + 1 * p.val = n.val; rw [e0, hn]; omega
  | ⟨1, _⟩ => show win2_0.index t (1 : Fin 2) * 128 + 1 * k.val = k.val; rw [e1]; omega

/-- Row p of the node array's block at point t is row 5000·t + p of the array. -/
theorem nodeBlock_apply (c : Dev nD) (t : Fin cfg2.N) (p : Fin 5000) (n : Fin 100000) (hn : n.val = t.val * 5000 + p.val) (k : Fin 128) :
    (iblk2 V c 1 t : Vec Ideal S5000x128 .f32) (ix2 p k) = (V c main_v72 : Vec Ideal S100000x128 .f32) (ix2 n k) := by
  obtain ⟨-, -, e0, e1, -⟩ := index_facts t
  unfold iblk2
  rw [View.read_apply]
  show V c main_v72 _ = V c main_v72 _
  congr 1
  funext ax
  apply Fin.ext
  match ax with
  | ⟨0, _⟩ => show win2_1.index t (0 : Fin 2) * 5000 + 1 * p.val = n.val; rw [e0, hn]; omega
  | ⟨1, _⟩ => show win2_1.index t (1 : Fin 2) * 128 + 1 * k.val = k.val; rw [e1]; omega

/-- The first weight matrix is staged whole at every point. -/
theorem wlBlock_apply (c : Dev nD) (t : Fin cfg2.N) (k : Fin 128) (q : Fin 128) :
    (iblk2 V c 2 t : Vec Ideal S128x128 .f32) (ix2 k q) = (V c main_arg10 : Vec Ideal S128x128 .f32) (ix2 k q) := by
  obtain ⟨-, -, -, -, e0, e1, -⟩ := index_facts t
  unfold iblk2
  rw [View.read_apply]
  show V c main_arg10 _ = V c main_arg10 _
  congr 1
  funext ax
  apply Fin.ext
  match ax with
  | ⟨0, _⟩ => show win2_2.index t (0 : Fin 2) * 128 + 1 * k.val = k.val; rw [e0]; omega
  | ⟨1, _⟩ => show win2_2.index t (1 : Fin 2) * 128 + 1 * q.val = q.val; rw [e1]; omega

/-- The second weight matrix is staged whole at every point. -/
theorem wrBlock_apply (c : Dev nD) (t : Fin cfg2.N) (k : Fin 128) (q : Fin 128) :
    (iblk2 V c 4 t : Vec Ideal S128x128 .f32) (ix2 k q) = (V c main_arg12 : Vec Ideal S128x128 .f32) (ix2 k q) := by
  obtain ⟨-, -, -, -, -, -, -, -, e0, e1, -⟩ := index_facts t
  unfold iblk2
  rw [View.read_apply]
  show V c main_arg12 _ = V c main_arg12 _
  congr 1
  funext ax
  apply Fin.ext
  match ax with
  | ⟨0, _⟩ => show win2_4.index t (0 : Fin 2) * 128 + 1 * k.val = k.val; rw [e0]; omega
  | ⟨1, _⟩ => show win2_4.index t (1 : Fin 2) * 128 + 1 * q.val = q.val; rw [e1]; omega

/-- The bias row is staged whole at every point. -/
theorem biasBlock_apply (c : Dev nD) (t : Fin cfg2.N) (q : Fin 128) :
    (iblk2 V c 3 t : Vec Ideal S1x128 .f32) (ix2 (0 : Fin 1) q) = (V c main_v85 : Vec Ideal S1x128 .f32) (ix2 (0 : Fin 1) q) := by
  obtain ⟨-, -, -, -, -, -, e0, e1, -⟩ := index_facts t
  unfold iblk2
  rw [View.read_apply]
  show V c main_v85 _ = V c main_v85 _
  congr 1
  funext ax
  apply Fin.ext
  match ax with
  | ⟨0, _⟩ => show win2_3.index t (0 : Fin 2) * 1 + 1 * 0 = 0; rw [e0]
  | ⟨1, _⟩ => show win2_3.index t (1 : Fin 2) * 128 + 1 * q.val = q.val; rw [e1]; omega

/-- The row of γ is staged whole at every point. -/
theorem gammaBlock_apply (c : Dev nD) (t : Fin cfg2.N) (q : Fin 128) :
    (iblk2 V c 5 t : Vec Ideal S1x128 .f32) (ix2 (0 : Fin 1) q) = (V c main_v86 : Vec Ideal S1x128 .f32) (ix2 (0 : Fin 1) q) := by
  obtain ⟨-, -, -, -, -, -, -, -, -, -, e0, e1, -⟩ := index_facts t
  unfold iblk2
  rw [View.read_apply]
  show V c main_v86 _ = V c main_v86 _
  congr 1
  funext ax
  apply Fin.ext
  match ax with
  | ⟨0, _⟩ => show win2_5.index t (0 : Fin 2) * 1 + 1 * 0 = 0; rw [e0]
  | ⟨1, _⟩ => show win2_5.index t (1 : Fin 2) * 128 + 1 * q.val = q.val; rw [e1]; omega

/-- The row of β is staged whole at every point. -/
theorem betaBlock_apply (c : Dev nD) (t : Fin cfg2.N) (q : Fin 128) :
    (iblk2 V c 6 t : Vec Ideal S1x128 .f32) (ix2 (0 : Fin 1) q) = (V c main_v87 : Vec Ideal S1x128 .f32) (ix2 (0 : Fin 1) q) := by
  obtain ⟨-, -, -, -, -, -, -, -, -, -, -, -, e0, e1, -⟩ := index_facts t
  unfold iblk2
  rw [View.read_apply]
  show V c main_v87 _ = V c main_v87 _
  congr 1
  funext ax
  apply Fin.ext
  match ax with
  | ⟨0, _⟩ => show win2_6.index t (0 : Fin 2) * 1 + 1 * 0 = 0; rw [e0]
  | ⟨1, _⟩ => show win2_6.index t (1 : Fin 2) * 128 + 1 * q.val = q.val; rw [e1]; omega

/-- The row of μ is staged whole at every point. -/
theorem muBlock_apply (c : Dev nD) (t : Fin cfg2.N) (q : Fin 128) :
    (iblk2 V c 7 t : Vec Ideal S1x128 .f32) (ix2 (0 : Fin 1) q) = (V c main_v88 : Vec Ideal S1x128 .f32) (ix2 (0 : Fin 1) q) := by
  obtain ⟨-, -, -, -, -, -, -, -, -, -, -, -, -, -, e0, e1, -⟩ := index_facts t
  unfold iblk2
  rw [View.read_apply]
  show V c main_v88 _ = V c main_v88 _
  congr 1
  funext ax
  apply Fin.ext
  match ax with
  | ⟨0, _⟩ => show win2_7.index t (0 : Fin 2) * 1 + 1 * 0 = 0; rw [e0]
  | ⟨1, _⟩ => show win2_7.index t (1 : Fin 2) * 128 + 1 * q.val = q.val; rw [e1]; omega

/-- The row of variances is staged whole at every point. -/
theorem varBlock_apply (c : Dev nD) (t : Fin cfg2.N) (q : Fin 128) :
    (iblk2 V c 8 t : Vec Ideal S1x128 .f32) (ix2 (0 : Fin 1) q) = (V c main_v89 : Vec Ideal S1x128 .f32) (ix2 (0 : Fin 1) q) := by
  obtain ⟨-, -, -, -, -, -, -, -, -, -, -, -, -, -, -, -, e0, e1, -⟩ := index_facts t
  unfold iblk2
  rw [View.read_apply]
  show V c main_v89 _ = V c main_v89 _
  congr 1
  funext ax
  apply Fin.ext
  match ax with
  | ⟨0, _⟩ => show win2_8.index t (0 : Fin 2) * 1 + 1 * 0 = 0; rw [e0]
  | ⟨1, _⟩ => show win2_8.index t (1 : Fin 2) * 128 + 1 * q.val = q.val; rw [e1]; omega

/-- The body's result at entry (p, q) of point t's blocks is the layer's output at node 5000·t + p and feature q. -/
theorem point_apply (c : Dev nD) (t : Fin cfg2.N) (p : Fin 5000) (q : Fin 128) (n : Fin 100000) (hn : n.val = t.val * 5000 + p.val) :
    k2_pay1 (F := Ideal) (iblk2 V c 0 t) (iblk2 V c 1 t) (iblk2 V c 2 t) (iblk2 V c 4 t) (iblk2 V c 3 t)
        (iblk2 V c 5 t) (iblk2 V c 6 t) (iblk2 V c 7 t) (iblk2 V c 8 t) (ix2 p q)
      = layerAt V c n q := by
  refine (payload_apply (iblk2 V c 0 t) (iblk2 V c 1 t) (iblk2 V c 2 t) (iblk2 V c 4 t) (iblk2 V c 3 t)
    (iblk2 V c 5 t) (iblk2 V c 6 t) (iblk2 V c 7 t) (iblk2 V c 8 t) p q).trans ?_
  unfold layerAt
  simp only [aggBlock_apply V c t p n hn, nodeBlock_apply V c t p n hn, wlBlock_apply V c t, wrBlock_apply V c t,
    biasBlock_apply V c t, gammaBlock_apply V c t, betaBlock_apply V c t, muBlock_apply V c t, varBlock_apply V c t]

/-- WHAT POINT t WRITES BACK is block t of the layer's output array. -/
theorem flushed_eq (c : Dev nD) (t : Fin cfg2.N) :
    (dat2 (F := Ideal) V c).flushed 9 t = ((cfg2.win 9).blk t).view.read (Elt Ideal) (layer V c) := by
  show (cfg2.win 9).cut (grid2.coords t) ((dat2 V c).after 9 t) = _
  rw [after2_9]
  unfold out2_9
  rw [View.canon_unit_zero zeroOffsets]
  simp only [View.ld_unit_zero (S := S5000x128) zeroOffsets, View.ld_unit_zero (S := S128x128) zeroOffsets, View.ld_unit_zero (S := S1x128) zeroOffsets]
  obtain ⟨-, -, -, -, -, -, -, -, -, -, -, -, -, -, -, -, -, -, e0, e1⟩ := index_facts t
  have ht := point_lt t
  funext j
  show k2_pay1 (F := Ideal) (iblk2 V c 0 t) (iblk2 V c 1 t) (iblk2 V c 2 t) (iblk2 V c 4 t) (iblk2 V c 3 t)
      (iblk2 V c 5 t) (iblk2 V c 6 t) (iblk2 V c 7 t) (iblk2 V c 8 t) j
    = layer V c (((cfg2.win 9).blk t).view.emb j)
  obtain ⟨p, q, rfl⟩ : ∃ (p : Fin 5000) (q : Fin 128), j = ix2 p q := ⟨j 0, j 1, eq_ix2 j⟩
  have hp := p.isLt
  have hrow : (⟨t.val * 5000 + p.val, by omega⟩ : Fin 100000) = (((cfg2.win 9).blk t).view.emb (ix2 p q)) 0 := by
    apply Fin.ext
    show t.val * 5000 + p.val = win2_9.index t (0 : Fin 2) * 5000 + 1 * p.val
    rw [e0]; omega
  have hcol : q = (((cfg2.win 9).blk t).view.emb (ix2 p q)) 1 := by
    apply Fin.ext
    show q.val = win2_9.index t (1 : Fin 2) * 128 + 1 * q.val
    rw [e1]; omega
  have hpoint := point_apply V c t p q ⟨t.val * 5000 + p.val, by omega⟩ rfl
  exact hpoint.trans (congr (congrArg (layerAt V c) hrow) hcol)

/-- An index of the output array is in point t's block iff each coordinate is in the block's range on its axis. -/
theorem mem_blk (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v90).slice (win2_9.rect t)).set ↔ _
  rw [View.set_slice_whole, Rect.mem_set_unit]
  exact Iff.rfl

/-- The 20 row blocks tile the array: row n lies in block n / 5000. -/
theorem covered (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_9 _, ?_⟩
  rw [mem_blk]
  obtain ⟨-, -, -, -, -, -, -, -, -, -, -, -, -, -, -, -, -, -, e0, e1⟩ := index_facts ⟨(i 0).val / 5000, by rw [hN]; omega⟩
  intro a
  match a with
  | ⟨0, _⟩ =>
    show win2_9.index _ (0 : Fin 2) * 5000 ≤ (i 0).val ∧ (i 0).val < win2_9.index _ (0 : Fin 2) * 5000 + 5000
    rw [e0]; show (i 0).val / 5000 * 5000 ≤ (i 0).val ∧ (i 0).val < (i 0).val / 5000 * 5000 + 5000; omega
  | ⟨1, _⟩ =>
    show win2_9.index _ (1 : Fin 2) * 128 ≤ (i 1).val ∧ (i 1).val < win2_9.index _ (1 : Fin 2) * 128 + 128
    rw [e1]; omega

/-- THE OUTPUT ARRAY after the region is the layer's output array. -/
theorem final (c : Dev nD) : (dat2 (F := Ideal) V c).arrAt 9 cfg2.N = layer V c :=
  (dat2 (F := Ideal) V c).arrAt_eq_of_cover 9 (layer V c) (fun t _ => flushed_eq V c t) covered

/-- The output array after the region, at node n and feature f. -/
theorem final_apply (c : Dev nD) (n : Fin 100000) (f : Fin 128) :
    (dat2 (F := Ideal) V c).arrAt 9 cfg2.N (ix2 n f)
      = Cert.Sage.denseK (fun k : Fin 128 => (V c main_v84 : Vec Ideal S100000x128 .f32) (ix2 n k))
          (fun k : Fin 128 => (V c main_v72 : Vec Ideal S100000x128 .f32) (ix2 n k))
          (fun k : Fin 128 => (V c main_arg10 : Vec Ideal S128x128 .f32) (ix2 k f))
          (fun k : Fin 128 => (V c main_arg12 : Vec Ideal S128x128 .f32) (ix2 k f))
          ((V c main_v85 : Vec Ideal S1x128 .f32) (ix2 0 f))
          ((V c main_v86 : Vec Ideal S1x128 .f32) (ix2 0 f))
          ((V c main_v87 : Vec Ideal S1x128 .f32) (ix2 0 f))
          ((V c main_v88 : Vec Ideal S1x128 .f32) (ix2 0 f))
          ((V c main_v89 : Vec Ideal S1x128 .f32) (ix2 0 f)) := by
  rw [final]
  rfl

end Cert.KernelIdeal.Handa2

end
-- ==== Proof.KLeavesAgg.lean ====
/-
  What the program's buffers hold when each layer is entered, first part: the aggregation. Each layer's first operand
  is the mean over every node's in-neighbours of the previous features: the sources' rows gathered, scatter-added at the
  targets into zeros, each node's row scaled by 1 / max(in-degree, 1). The edge rows and the scale are computed once,
  before the first layer, and only read afterwards; the three layers spell the same term, at width 64 and twice at
  width 128.
-/
import proofs.«416966_j75505525063863_1_alg».proof.Proof.Gen.KernelIdeal.Frame
import Idealize.ShloMosaic.Lib.StableHlo.Run
import Idealize.ShloMosaic.PureOps.Ideal
import Idealize.ShloMosaic.Lib.ValueIdx
import Idealize.ShloMosaic.Lib.Pipeline.Value
import Idealize.ShloMosaic.Lib.ValueLayout

set_option maxRecDepth 16384

noncomputable section

namespace Cert.KernelIdeal.Leaves

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## The aggregation: the mean over each node's in-neighbours, as the program spells it -/

/-- Row 0 of the edge array: each edge's source node. -/
def srcK (ei : IVec S2x1600000 32) : IVec S1600000 32 :=
  shapeCast S1600000 (extractStridedSlice S1x1600000 ![0, 0] ei slices_S2x1600000_S1x1600000_0_0)
    shapeCasts_S1x1600000_S1600000

/-- Row 1 of the edge array: each edge's target node. -/
def dstK (ei : IVec S2x1600000 32) : IVec S1600000 32 :=
  shapeCast S1600000 (extractStridedSlice S1x1600000 ![1, 0] ei slices_S2x1600000_S1x1600000_1_0)
    shapeCasts_S1x1600000_S1600000

/-- The gather's index column: each edge's source, a negative number counted from the end (100000 added). -/
def srcIdxK (ei : IVec S2x1600000 32) : IVec S1600000x1 32 :=
  broadcastInDim S1600000x1 ![0] bcast_S1600000_S1600000x1_0
    (select (cmpi CmpIPredicate.slt (srcK ei) (broadcastInDim S1600000 ![] bcast_S_S1600000 (constantI S_ 32 0#32)))
      (addi (srcK ei) (broadcastInDim S1600000 ![] bcast_S_S1600000 (constantI S_ 32 100000#32)))
      (srcK ei))

/-- The scatter's index column: each edge's target. -/
def dstIdxK (ei : IVec S2x1600000 32) : IVec S1600000x1 32 :=
  broadcastInDim S1600000x1 ![0] bcast_S1600000_S1600000x1_0 (dstK ei)

/-- 1 / max(in-degree, 1) of each node, as a column: the in-degree is a scatter-add of ones at the targets. -/
def invDegK (ei : IVec S2x1600000 32) : Vec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal)
        (Host.scatterAdd (F := Ideal) scatter_S100000_S1600000x1_S1600000_n_0_0_1
          (broadcastInDim S100000 ![] bcast_S_S100000 (constant (F := Ideal) S_ .f32 0x00000000#32))
          (dstIdxK ei)
          (broadcastInDim S1600000 ![] bcast_S_S1600000 (constant (F := Ideal) S_ .f32 0x3F800000#32)))
        (broadcastInDim S100000 ![] bcast_S_S100000 (constant (F := Ideal) S_ .f32 0x3F800000#32))))

/-- The aggregation at width 64: gather the sources' rows of h, scatter-add them at the targets into zeros, scale
    each node's row by 1 / max(in-degree, 1). -/
def aggK64 (h : Vec Ideal S100000x64 .f32) (ei : IVec S2x1600000 32) : Vec Ideal S100000x64 .f32 :=
  mulf (F := Ideal)
    (Host.scatterAdd (F := Ideal) scatter_S100000x64_S1600000x1_S1600000x64_1_0_0_1
      (broadcastInDim S100000x64 ![] bcast_S_S100000x64 (constant (F := Ideal) S_ .f32 0x00000000#32))
      (dstIdxK ei)
      (Host.gather gather_S100000x64_S1600000x1_S1600000x64_1_0_n_n_0_1_164 h (srcIdxK ei)))
    (broadcastInDim S100000x64 ![0, 1] bcast_S100000x1_S100000x64_0_1 (invDegK ei))

/-- The aggregation at width 128: the same term over rows of 128. -/
def aggK128 (h : Vec Ideal S100000x128 .f32) (ei : IVec S2x1600000 32) : Vec Ideal S100000x128 .f32 :=
  mulf (F := Ideal)
    (Host.scatterAdd (F := Ideal) scatter_S100000x128_S1600000x1_S1600000x128_1_0_0_1
      (broadcastInDim S100000x128 ![] bcast_S_S100000x128 (constant (F := Ideal) S_ .f32 0x00000000#32))
      (dstIdxK ei)
      (Host.gather gather_S100000x128_S1600000x1_S1600000x128_1_0_n_n_0_1_1128 h (srcIdxK ei)))
    (broadcastInDim S100000x128 ![0, 1] bcast_S100000x1_S100000x128_0_1 (invDegK ei))

variable (c : Dev nD)

set_option maxHeartbeats 4000000 in
/-- At the first layer's entry the aggregated features are the aggregation of the input features. -/
theorem V1_agg : V1 m ρ c main_v48 = aggK64 (m ((c : Thread nD τ).loc main_arg0)) (m ((c : Thread nD τ).loc main_arg1)) := by
  dsimp only [V1, W1, hostOps0]
  after_results_simp
  rfl

/-! ## The edge rows and the inverse degrees: computed before the first layer, read by every later stretch -/

/-- Closes `after ops V b = V b` for a buffer `b` that no operation of the literal list `ops` writes. -/
local macro "host_untouched" ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

theorem W1_v1 : W1 m ρ c (Proc.devRef .tc main_v1) = srcK (m ((c : Thread nD τ).loc main_arg1)) := by
  dsimp only [W1, hostOps0]; after_results_simp; rfl
theorem W1_v3 : W1 m ρ c (Proc.devRef .tc main_v3) = dstK (m ((c : Thread nD τ).loc main_arg1)) := by
  dsimp only [W1, hostOps0]; after_results_simp; rfl
theorem W1_v12 : W1 m ρ c (Proc.devRef .tc main_v12) = invDegK (m ((c : Thread nD τ).loc main_arg1)) := by
  dsimp only [W1, hostOps0]; after_results_simp; rfl

theorem W2_v1 : W2 m ρ c (Proc.devRef .tc main_v1) = srcK (m ((c : Thread nD τ).loc main_arg1)) :=
  (W2_of_ne m ρ c main_v1 (by decide)).trans (W1_v1 m ρ c)
theorem W2_v3 : W2 m ρ c (Proc.devRef .tc main_v3) = dstK (m ((c : Thread nD τ).loc main_arg1)) :=
  (W2_of_ne m ρ c main_v3 (by decide)).trans (W1_v3 m ρ c)
theorem W2_v12 : W2 m ρ c (Proc.devRef .tc main_v12) = invDegK (m ((c : Thread nD τ).loc main_arg1)) :=
  (W2_of_ne m ρ c main_v12 (by decide)).trans (W1_v12 m ρ c)

theorem W3_v1 : W3 m ρ c (Proc.devRef .tc main_v1) = W2 m ρ c (Proc.devRef .tc main_v1) := by host_untouched hostOps1
theorem W3_v3 : W3 m ρ c (Proc.devRef .tc main_v3) = W2 m ρ c (Proc.devRef .tc main_v3) := by host_untouched hostOps1
theorem W3_v12 : W3 m ρ c (Proc.devRef .tc main_v12) = W2 m ρ c (Proc.devRef .tc main_v12) := by host_untouched hostOps1

theorem W4_v1 : W4 m ρ c (Proc.devRef .tc main_v1) = srcK (m ((c : Thread nD τ).loc main_arg1)) :=
  (W4_of_ne m ρ c main_v1 (by decide)).trans ((W3_v1 m ρ c).trans (W2_v1 m ρ c))
theorem W4_v3 : W4 m ρ c (Proc.devRef .tc main_v3) = dstK (m ((c : Thread nD τ).loc main_arg1)) :=
  (W4_of_ne m ρ c main_v3 (by decide)).trans ((W3_v3 m ρ c).trans (W2_v3 m ρ c))
theorem W4_v12 : W4 m ρ c (Proc.devRef .tc main_v12) = invDegK (m ((c : Thread nD τ).loc main_arg1)) :=
  (W4_of_ne m ρ c main_v12 (by decide)).trans ((W3_v12 m ρ c).trans (W2_v12 m ρ c))

/-- At the second layer's entry the aggregated features are the aggregation of the first layer's output. -/
theorem V3_agg : V3 m ρ c main_v66
    = aggK128 (W2 m ρ c (Proc.devRef .tc main_v54)) (m ((c : Thread nD τ).loc main_arg1)) := by
  dsimp only [V3, W3, hostOps1]
  after_results_simp
  rw [W2_v1, W2_v3, W2_v12]
  rfl

/-- At the third layer's entry the aggregated features are the aggregation of the second layer's output. -/
theorem V5_agg : V5 m ρ c main_v84
    = aggK128 (W4 m ρ c (Proc.devRef .tc main_v72)) (m ((c : Thread nD τ).loc main_arg1)) := by
  dsimp only [V5, W5, hostOps2]
  after_results_simp
  rw [W4_v1, W4_v3, W4_v12]
  rfl

end Cert.KernelIdeal.Leaves

end
-- ==== Proof.KLeavesPass.lean ====
/-
  What the program's buffers hold when each layer is entered, second part: the arrays that pass through. The weights and
  the input features are read as launched (no host operation writes an argument, and a region only reads it); each
  layer's output is read by the next stretch where its region left it, and a region leaves in an output array what its
  write-backs fold to. The third layer's output is also a result, still in place at the end.
-/
import proofs.«416966_j75505525063863_1_alg».proof.Proof.Gen.KernelIdeal.Frame
import Idealize.ShloMosaic.Lib.StableHlo.Run
import Idealize.ShloMosaic.PureOps.Ideal
import Idealize.ShloMosaic.Lib.ValueIdx
import Idealize.ShloMosaic.Lib.Pipeline.Value
import Idealize.ShloMosaic.Lib.ValueLayout

set_option maxRecDepth 16384

noncomputable section

namespace Cert.KernelIdeal.Leaves

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- Closes `after ops V b = V b` for a buffer `b` that no operation of the literal list `ops` writes. -/
local macro "host_untouched" ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (c : Dev nD)

/-! ## Arrays a layer reads as they were launched -/

/-- The first layer reads the input features as launched. -/
theorem V1_arg0 : V1 m ρ c main_arg0 = m ((c : Thread nD τ).loc main_arg0) :=
  calc W1 m ρ c (Proc.devRef .tc main_arg0)
    _ = W0 m ρ c (Proc.devRef .tc main_arg0) := by host_untouched hostOps0
    _ = m ((c : Thread nD τ).loc main_arg0) := rfl
/-- The first layer's weight on the aggregated row, as launched. -/
theorem V1_arg4 : V1 m ρ c main_arg4 = m ((c : Thread nD τ).loc main_arg4) :=
  calc W1 m ρ c (Proc.devRef .tc main_arg4)
    _ = W0 m ρ c (Proc.devRef .tc main_arg4) := by host_untouched hostOps0
    _ = m ((c : Thread nD τ).loc main_arg4) := rfl
/-- The first layer's weight on the node's own row, as launched. -/
theorem V1_arg6 : V1 m ρ c main_arg6 = m ((c : Thread nD τ).loc main_arg6) :=
  calc W1 m ρ c (Proc.devRef .tc main_arg6)
    _ = W0 m ρ c (Proc.devRef .tc main_arg6) := by host_untouched hostOps0
    _ = m ((c : Thread nD τ).loc main_arg6) := rfl
/-- The second layer's weight on the aggregated row, as launched. -/
theorem V3_arg7 : V3 m ρ c main_arg7 = m ((c : Thread nD τ).loc main_arg7) :=
  calc W3 m ρ c (Proc.devRef .tc main_arg7)
    _ = W2 m ρ c (Proc.devRef .tc main_arg7) := by host_untouched hostOps1
    _ = W1 m ρ c (Proc.devRef .tc main_arg7) := W2_of_ne m ρ c main_arg7 (by decide)
    _ = W0 m ρ c (Proc.devRef .tc main_arg7) := by host_untouched hostOps0
    _ = m ((c : Thread nD τ).loc main_arg7) := rfl
/-- The second layer's weight on the node's own row, as launched. -/
theorem V3_arg9 : V3 m ρ c main_arg9 = m ((c : Thread nD τ).loc main_arg9) :=
  calc W3 m ρ c (Proc.devRef .tc main_arg9)
    _ = W2 m ρ c (Proc.devRef .tc main_arg9) := by host_untouched hostOps1
    _ = W1 m ρ c (Proc.devRef .tc main_arg9) := W2_of_ne m ρ c main_arg9 (by decide)
    _ = W0 m ρ c (Proc.devRef .tc main_arg9) := by host_untouched hostOps0
    _ = m ((c : Thread nD τ).loc main_arg9) := rfl
/-- The third layer's weight on the aggregated row, as launched. -/
theorem V5_arg10 : V5 m ρ c main_arg10 = m ((c : Thread nD τ).loc main_arg10) :=
  calc W5 m ρ c (Proc.devRef .tc main_arg10)
    _ = W4 m ρ c (Proc.devRef .tc main_arg10) := by host_untouched hostOps2
    _ = W3 m ρ c (Proc.devRef .tc main_arg10) := W4_of_ne m ρ c main_arg10 (by decide)
    _ = W2 m ρ c (Proc.devRef .tc main_arg10) := by host_untouched hostOps1
    _ = W1 m ρ c (Proc.devRef .tc main_arg10) := W2_of_ne m ρ c main_arg10 (by decide)
    _ = W0 m ρ c (Proc.devRef .tc main_arg10) := by host_untouched hostOps0
    _ = m ((c : Thread nD τ).loc main_arg10) := rfl
/-- The third layer's weight on the node's own row, as launched. -/
theorem V5_arg12 : V5 m ρ c main_arg12 = m ((c : Thread nD τ).loc main_arg12) :=
  calc W5 m ρ c (Proc.devRef .tc main_arg12)
    _ = W4 m ρ c (Proc.devRef .tc main_arg12) := by host_untouched hostOps2
    _ = W3 m ρ c (Proc.devRef .tc main_arg12) := W4_of_ne m ρ c main_arg12 (by decide)
    _ = W2 m ρ c (Proc.devRef .tc main_arg12) := by host_untouched hostOps1
    _ = W1 m ρ c (Proc.devRef .tc main_arg12) := W2_of_ne m ρ c main_arg12 (by decide)
    _ = W0 m ρ c (Proc.devRef .tc main_arg12) := by host_untouched hostOps0
    _ = m ((c : Thread nD τ).loc main_arg12) := rfl
/-- The head reads the measurements as launched. -/
theorem V9_arg3 : V9 m ρ c main_arg3 = m ((c : Thread nD τ).loc main_arg3) :=
  calc W9 m ρ c (Proc.devRef .tc main_arg3)
    _ = W8 m ρ c (Proc.devRef .tc main_arg3) := by host_untouched hostOps4
    _ = W7 m ρ c (Proc.devRef .tc main_arg3) := W8_of_ne m ρ c main_arg3 (by decide)
    _ = W6 m ρ c (Proc.devRef .tc main_arg3) := by host_untouched hostOps3
    _ = W5 m ρ c (Proc.devRef .tc main_arg3) := W6_of_ne m ρ c main_arg3 (by decide)
    _ = W4 m ρ c (Proc.devRef .tc main_arg3) := by host_untouched hostOps2
    _ = W3 m ρ c (Proc.devRef .tc main_arg3) := W4_of_ne m ρ c main_arg3 (by decide)
    _ = W2 m ρ c (Proc.devRef .tc main_arg3) := by host_untouched hostOps1
    _ = W1 m ρ c (Proc.devRef .tc main_arg3) := W2_of_ne m ρ c main_arg3 (by decide)
    _ = W0 m ρ c (Proc.devRef .tc main_arg3) := by host_untouched hostOps0
    _ = m ((c : Thread nD τ).loc main_arg3) := rfl
/-- The head's second weight matrix, as launched. -/
theorem V9_arg23 : V9 m ρ c main_arg23 = m ((c : Thread nD τ).loc main_arg23) :=
  calc W9 m ρ c (Proc.devRef .tc main_arg23)
    _ = W8 m ρ c (Proc.devRef .tc main_arg23) := by host_untouched hostOps4
    _ = W7 m ρ c (Proc.devRef .tc main_arg23) := W8_of_ne m ρ c main_arg23 (by decide)
    _ = W6 m ρ c (Proc.devRef .tc main_arg23) := by host_untouched hostOps3
    _ = W5 m ρ c (Proc.devRef .tc main_arg23) := W6_of_ne m ρ c main_arg23 (by decide)
    _ = W4 m ρ c (Proc.devRef .tc main_arg23) := by host_untouched hostOps2
    _ = W3 m ρ c (Proc.devRef .tc main_arg23) := W4_of_ne m ρ c main_arg23 (by decide)
    _ = W2 m ρ c (Proc.devRef .tc main_arg23) := by host_untouched hostOps1
    _ = W1 m ρ c (Proc.devRef .tc main_arg23) := W2_of_ne m ρ c main_arg23 (by decide)
    _ = W0 m ρ c (Proc.devRef .tc main_arg23) := by host_untouched hostOps0
    _ = m ((c : Thread nD τ).loc main_arg23) := rfl
/-- The head's third weight matrix, as launched. -/
theorem V9_arg25 : V9 m ρ c main_arg25 = m ((c : Thread nD τ).loc main_arg25) :=
  calc W9 m ρ c (Proc.devRef .tc main_arg25)
    _ = W8 m ρ c (Proc.devRef .tc main_arg25) := by host_untouched hostOps4
    _ = W7 m ρ c (Proc.devRef .tc main_arg25) := W8_of_ne m ρ c main_arg25 (by decide)
    _ = W6 m ρ c (Proc.devRef .tc main_arg25) := by host_untouched hostOps3
    _ = W5 m ρ c (Proc.devRef .tc main_arg25) := W6_of_ne m ρ c main_arg25 (by decide)
    _ = W4 m ρ c (Proc.devRef .tc main_arg25) := by host_untouched hostOps2
    _ = W3 m ρ c (Proc.devRef .tc main_arg25) := W4_of_ne m ρ c main_arg25 (by decide)
    _ = W2 m ρ c (Proc.devRef .tc main_arg25) := by host_untouched hostOps1
    _ = W1 m ρ c (Proc.devRef .tc main_arg25) := W2_of_ne m ρ c main_arg25 (by decide)
    _ = W0 m ρ c (Proc.devRef .tc main_arg25) := by host_untouched hostOps0
    _ = m ((c : Thread nD τ).loc main_arg25) := rfl

/-! ## A layer's output: what the next stretch of host operations leaves in place, and what the region left there -/

/-- The second layer reads the first layer's output where the first region left it. -/
theorem V3_v54 : V3 m ρ c main_v54 = W2 m ρ c (Proc.devRef .tc main_v54) := by
  host_untouched hostOps1
/-- The third layer reads the second layer's output where the second region left it. -/
theorem V5_v72 : V5 m ρ c main_v72 = W4 m ρ c (Proc.devRef .tc main_v72) := by
  host_untouched hostOps2
/-- The pooling reads the third layer's output where the third region left it. -/
theorem V7_v90 : V7 m ρ c main_v90 = W6 m ρ c (Proc.devRef .tc main_v90) := by
  host_untouched hostOps3
/-- The head reads the pooled sums where the pooling region left them. -/
theorem V9_v92_0 : V9 m ρ c main_v92_0 = W8 m ρ c (Proc.devRef .tc main_v92_0) := by
  host_untouched hostOps4
/-- The head reads the node counts where the pooling region left them. -/
theorem V9_v92_1 : V9 m ρ c main_v92_1 = W8 m ρ c (Proc.devRef .tc main_v92_1) := by
  host_untouched hostOps4
/-- The first layer's output is its region's output window, all write-backs folded. -/
theorem W2_v54 : W2 m ρ c (Proc.devRef .tc main_v54) = (dat0 (V1 m ρ) c).arrAt 9 cfg0.N :=
  W2_arr m ρ c 9
/-- The second layer's output is its region's output window, all write-backs folded. -/
theorem W4_v72 : W4 m ρ c (Proc.devRef .tc main_v72) = (dat1 (V3 m ρ) c).arrAt 9 cfg1.N :=
  W4_arr m ρ c 9
/-- The third layer's output is its region's output window, all write-backs folded. -/
theorem W6_v90 : W6 m ρ c (Proc.devRef .tc main_v90) = (dat2 (V5 m ρ) c).arrAt 9 cfg2.N :=
  W6_arr m ρ c 9
/-- The pooled sums are the pooling region's first output window, all write-backs folded. -/
theorem W8_v92_0 : W8 m ρ c (Proc.devRef .tc main_v92_0) = (dat3 (V7 m ρ) c).arrAt 2 cfg3.N :=
  W8_arr m ρ c 2
/-- The node counts are the pooling region's second output window, all write-backs folded. -/
theorem W8_v92_1 : W8 m ρ c (Proc.devRef .tc main_v92_1) = (dat3 (V7 m ρ) c).arrAt 3 cfg3.N :=
  W8_arr m ρ c 3
/-- The scores are the head region's first output window, all write-backs folded. -/
theorem W10_v105_0 : W10 m ρ c (Proc.devRef .tc main_v105_0) = (dat4 (V9 m ρ) c).arrAt 17 cfg4.N :=
  W10_arr m ρ c 17
/-- The embedding is the head region's second output window, all write-backs folded. -/
theorem W10_v105_1 : W10 m ρ c (Proc.devRef .tc main_v105_1) = (dat4 (V9 m ρ) c).arrAt 18 cfg4.N :=
  W10_arr m ρ c 18
/-- The third layer's output, which the program also returns, is still in place at the end: the pooling region only
    reads it, and no later operation writes it. -/
theorem W10_v90 : W10 m ρ c (Proc.devRef .tc main_v90) = (dat2 (V5 m ρ) c).arrAt 9 cfg2.N :=
  calc W10 m ρ c (Proc.devRef .tc main_v90)
    _ = W9 m ρ c (Proc.devRef .tc main_v90) := W10_of_ne m ρ c main_v90 (by decide)
    _ = W8 m ρ c (Proc.devRef .tc main_v90) := by host_untouched hostOps4
    _ = W7 m ρ c (Proc.devRef .tc main_v90) := (W8_arr m ρ c 0).trans (((dat3 (V7 m ρ) c).arrAt_in 0 rfl _).trans (A_eq3 (V7 m ρ) c 0))
    _ = W6 m ρ c (Proc.devRef .tc main_v90) := by host_untouched hostOps3
    _ = (dat2 (V5 m ρ) c).arrAt 9 cfg2.N := W6_arr m ρ c 9

end Cert.KernelIdeal.Leaves

end
-- ==== Proof.KLeavesRows.lean ====
/-
  What the program's buffers hold when each layer is entered, third part: rows and reshapes read at an index. A bias
  vector enters a layer as a [1, n] row of the launched vector; a layer's normalisation parameters are one row of the
  launched [3, 128] arrays; the pooling's index column is the launched assignment vector; the head's wide matrices enter
  as their first 128 and last 45 rows.
-/
import proofs.«416966_j75505525063863_1_alg».proof.Proof.Gen.KernelIdeal.Frame
import Idealize.ShloMosaic.Lib.StableHlo.Run
import Idealize.ShloMosaic.PureOps.Ideal
import Idealize.ShloMosaic.Lib.ValueIdx
import Idealize.ShloMosaic.Lib.Pipeline.Value
import Idealize.ShloMosaic.Lib.ValueLayout

set_option maxRecDepth 16384

noncomputable section

namespace Cert.KernelIdeal.Leaves

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- Closes `after ops V b = V b` for a buffer `b` that no operation of the literal list `ops` writes. -/
local macro "host_untouched" ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (c : Dev nD)

/-! ## Layout operations read at an index -/

/-- A vector of length a cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row r of a [3, 128] array, cut out as [1, 128], flattened to [128] and cast back to [1, 128], reads at (0, f) the
    array at (r, f). -/
theorem row_apply {o : ℕ} (x : Vec Ideal S3x128 .f32) (hs : S3x128.Slices ![o, 0] S1x128) (r : Fin 3) (hr : r.val = o)
    (f : Fin 128) :
    shapeCast S1x128 (shapeCast S128 (extractStridedSlice S1x128 ![o, 0] x hs) shapeCasts_S1x128_S128)
      shapeCasts_S128_S1x128 (ix2 0 f) = x (ix2 r f) := by
  rw [shapeCast_a_1a_apply, shapeCast_1a_a_apply]
  exact slice2_axis0_apply o x hs 0 f r (hr.trans (Nat.add_zero o).symm)

/-! ## The first layer's rows -/

/-- The first layer's bias as a row. -/
theorem V1_v49 (f : Fin 128) :
    (V1 m ρ c main_v49 : Vec Ideal S1x128 .f32) (ix2 0 f) = (m ((c : Thread nD τ).loc main_arg5) : Vec Ideal S128 .f32) (ix1 f) := by
  have e : (V1 m ρ c main_v49 : Vec Ideal S1x128 .f32)
      = shapeCast S1x128 (m ((c : Thread nD τ).loc main_arg5) : Vec Ideal S128 .f32) shapeCasts_S128_S1x128 := by
    dsimp only [V1, W1, hostOps0]; after_results_simp; rfl
  exact (congrFun e _).trans (shapeCast_a_1a_apply _ _ _ _)
/-- The first layer's normalisation scale γ: row 0 of its array. -/
theorem V1_v50 (f : Fin 128) :
    (V1 m ρ c main_v50 : Vec Ideal S1x128 .f32) (ix2 0 f) = (m ((c : Thread nD τ).loc main_arg13) : Vec Ideal S3x128 .f32) (ix2 0 f) := by
  have e : (V1 m ρ c main_v50 : Vec Ideal S1x128 .f32)
      = shapeCast S1x128 (shapeCast S128 (extractStridedSlice S1x128 ![0, 0] (m ((c : Thread nD τ).loc main_arg13) : Vec Ideal S3x128 .f32) slices_S3x128_S1x128_0_0) shapeCasts_S1x128_S128) shapeCasts_S128_S1x128 := by
    dsimp only [V1, W1, hostOps0]; after_results_simp; rfl
  exact (congrFun e _).trans (row_apply _ _ 0 rfl f)
/-- The first layer's normalisation shift β: row 0 of its array. -/
theorem V1_v51 (f : Fin 128) :
    (V1 m ρ c main_v51 : Vec Ideal S1x128 .f32) (ix2 0 f) = (m ((c : Thread nD τ).loc main_arg14) : Vec Ideal S3x128 .f32) (ix2 0 f) := by
  have e : (V1 m ρ c main_v51 : Vec Ideal S1x128 .f32)
      = shapeCast S1x128 (shapeCast S128 (extractStridedSlice S1x128 ![0, 0] (m ((c : Thread nD τ).loc main_arg14) : Vec Ideal S3x128 .f32) slices_S3x128_S1x128_0_0) shapeCasts_S1x128_S128) shapeCasts_S128_S1x128 := by
    dsimp only [V1, W1, hostOps0]; after_results_simp; rfl
  exact (congrFun e _).trans (row_apply _ _ 0 rfl f)
/-- The first layer's normalisation mean μ: row 0 of its array. -/
theorem V1_v52 (f : Fin 128) :
    (V1 m ρ c main_v52 : Vec Ideal S1x128 .f32) (ix2 0 f) = (m ((c : Thread nD τ).loc main_arg15) : Vec Ideal S3x128 .f32) (ix2 0 f) := by
  have e : (V1 m ρ c main_v52 : Vec Ideal S1x128 .f32)
      = shapeCast S1x128 (shapeCast S128 (extractStridedSlice S1x128 ![0, 0] (m ((c : Thread nD τ).loc main_arg15) : Vec Ideal S3x128 .f32) slices_S3x128_S1x128_0_0) shapeCasts_S1x128_S128) shapeCasts_S128_S1x128 := by
    dsimp only [V1, W1, hostOps0]; after_results_simp; rfl
  exact (congrFun e _).trans (row_apply _ _ 0 rfl f)
/-- The first layer's normalisation variance v: row 0 of its array. -/
theorem V1_v53 (f : Fin 128) :
    (V1 m ρ c main_v53 : Vec Ideal S1x128 .f32) (ix2 0 f) = (m ((c : Thread nD τ).loc main_arg16) : Vec Ideal S3x128 .f32) (ix2 0 f) := by
  have e : (V1 m ρ c main_v53 : Vec Ideal S1x128 .f32)
      = shapeCast S1x128 (shapeCast S128 (extractStridedSlice S1x128 ![0, 0] (m ((c : Thread nD τ).loc main_arg16) : Vec Ideal S3x128 .f32) slices_S3x128_S1x128_0_0) shapeCasts_S1x128_S128) shapeCasts_S128_S1x128 := by
    dsimp only [V1, W1, hostOps0]; after_results_simp; rfl
  exact (congrFun e _).trans (row_apply _ _ 0 rfl f)

/-! ## The second layer's rows -/

/-- The second layer's bias as a row. -/
theorem V3_v67 (f : Fin 128) :
    (V3 m ρ c main_v67 : Vec Ideal S1x128 .f32) (ix2 0 f) = (m ((c : Thread nD τ).loc main_arg8) : Vec Ideal S128 .f32) (ix1 f) := by
  have a : W2 m ρ c (Proc.devRef .tc main_arg8) = m ((c : Thread nD τ).loc main_arg8) :=
    calc W2 m ρ c (Proc.devRef .tc main_arg8)
      _ = W1 m ρ c (Proc.devRef .tc main_arg8) := W2_of_ne m ρ c main_arg8 (by decide)
      _ = W0 m ρ c (Proc.devRef .tc main_arg8) := by host_untouched hostOps0
      _ = m ((c : Thread nD τ).loc main_arg8) := rfl
  have e : (V3 m ρ c main_v67 : Vec Ideal S1x128 .f32)
      = shapeCast S1x128 (W2 m ρ c (Proc.devRef .tc main_arg8) : Vec Ideal S128 .f32) shapeCasts_S128_S1x128 := by
    dsimp only [V3, W3, hostOps1]; after_results_simp; rfl
  refine (congrFun e _).trans ?_
  rw [a]; exact shapeCast_a_1a_apply _ _ _ _
/-- The second layer's normalisation scale γ: row 1 of its array. -/
theorem V3_v68 (f : Fin 128) :
    (V3 m ρ c main_v68 : Vec Ideal S1x128 .f32) (ix2 0 f) = (m ((c : Thread nD τ).loc main_arg13) : Vec Ideal S3x128 .f32) (ix2 1 f) := by
  have a : W2 m ρ c (Proc.devRef .tc main_v22)
      = shapeCast S128 (extractStridedSlice S1x128 ![1, 0] (m ((c : Thread nD τ).loc main_arg13) : Vec Ideal S3x128 .f32) slices_S3x128_S1x128_1_0) shapeCasts_S1x128_S128 :=
    calc W2 m ρ c (Proc.devRef .tc main_v22)
      _ = W1 m ρ c (Proc.devRef .tc main_v22) := W2_of_ne m ρ c main_v22 (by decide)
      _ = shapeCast S128 (extractStridedSlice S1x128 ![1, 0] (m ((c : Thread nD τ).loc main_arg13) : Vec Ideal S3x128 .f32) slices_S3x128_S1x128_1_0) shapeCasts_S1x128_S128 := by
        dsimp only [W1, hostOps0]; after_results_simp; rfl
  have e : (V3 m ρ c main_v68 : Vec Ideal S1x128 .f32)
      = shapeCast S1x128 (W2 m ρ c (Proc.devRef .tc main_v22) : Vec Ideal S128 .f32) shapeCasts_S128_S1x128 := by
    dsimp only [V3, W3, hostOps1]; after_results_simp; rfl
  refine (congrFun e _).trans ?_
  rw [a]; exact row_apply _ _ 1 rfl f
/-- The second layer's normalisation shift β: row 1 of its array. -/
theorem V3_v69 (f : Fin 128) :
    (V3 m ρ c main_v69 : Vec Ideal S1x128 .f32) (ix2 0 f) = (m ((c : Thread nD τ).loc main_arg14) : Vec Ideal S3x128 .f32) (ix2 1 f) := by
  have a : W2 m ρ c (Proc.devRef .tc main_v24)
      = shapeCast S128 (extractStridedSlice S1x128 ![1, 0] (m ((c : Thread nD τ).loc main_arg14) : Vec Ideal S3x128 .f32) slices_S3x128_S1x128_1_0) shapeCasts_S1x128_S128 :=
    calc W2 m ρ c (Proc.devRef .tc main_v24)
      _ = W1 m ρ c (Proc.devRef .tc main_v24) := W2_of_ne m ρ c main_v24 (by decide)
      _ = shapeCast S128 (extractStridedSlice S1x128 ![1, 0] (m ((c : Thread nD τ).loc main_arg14) : Vec Ideal S3x128 .f32) slices_S3x128_S1x128_1_0) shapeCasts_S1x128_S128 := by
        dsimp only [W1, hostOps0]; after_results_simp; rfl
  have e : (V3 m ρ c main_v69 : Vec Ideal S1x128 .f32)
      = shapeCast S1x128 (W2 m ρ c (Proc.devRef .tc main_v24) : Vec Ideal S128 .f32) shapeCasts_S128_S1x128 := by
    dsimp only [V3, W3, hostOps1]; after_results_simp; rfl
  refine (congrFun e _).trans ?_
  rw [a]; exact row_apply _ _ 1 rfl f
/-- The second layer's normalisation mean μ: row 1 of its array. -/
theorem V3_v70 (f : Fin 128) :
    (V3 m ρ c main_v70 : Vec Ideal S1x128 .f32) (ix2 0 f) = (m ((c : Thread nD τ).loc main_arg15) : Vec Ideal S3x128 .f32) (ix2 1 f) := by
  have a : W2 m ρ c (Proc.devRef .tc main_v26)
      = shapeCast S128 (extractStridedSlice S1x128 ![1, 0] (m ((c : Thread nD τ).loc main_arg15) : Vec Ideal S3x128 .f32) slices_S3x128_S1x128_1_0) shapeCasts_S1x128_S128 :=
    calc W2 m ρ c (Proc.devRef .tc main_v26)
      _ = W1 m ρ c (Proc.devRef .tc main_v26) := W2_of_ne m ρ c main_v26 (by decide)
      _ = shapeCast S128 (extractStridedSlice S1x128 ![1, 0] (m ((c : Thread nD τ).loc main_arg15) : Vec Ideal S3x128 .f32) slices_S3x128_S1x128_1_0) shapeCasts_S1x128_S128 := by
        dsimp only [W1, hostOps0]; after_results_simp; rfl
  have e : (V3 m ρ c main_v70 : Vec Ideal S1x128 .f32)
      = shapeCast S1x128 (W2 m ρ c (Proc.devRef .tc main_v26) : Vec Ideal S128 .f32) shapeCasts_S128_S1x128 := by
    dsimp only [V3, W3, hostOps1]; after_results_simp; rfl
  refine (congrFun e _).trans ?_
  rw [a]; exact row_apply _ _ 1 rfl f
/-- The second layer's normalisation variance v: row 1 of its array. -/
theorem V3_v71 (f : Fin 128) :
    (V3 m ρ c main_v71 : Vec Ideal S1x128 .f32) (ix2 0 f) = (m ((c : Thread nD τ).loc main_arg16) : Vec Ideal S3x128 .f32) (ix2 1 f) := by
  have a : W2 m ρ c (Proc.devRef .tc main_v28)
      = shapeCast S128 (extractStridedSlice S1x128 ![1, 0] (m ((c : Thread nD τ).loc main_arg16) : Vec Ideal S3x128 .f32) slices_S3x128_S1x128_1_0) shapeCasts_S1x128_S128 :=
    calc W2 m ρ c (Proc.devRef .tc main_v28)
      _ = W1 m ρ c (Proc.devRef .tc main_v28) := W2_of_ne m ρ c main_v28 (by decide)
      _ = shapeCast S128 (extractStridedSlice S1x128 ![1, 0] (m ((c : Thread nD τ).loc main_arg16) : Vec Ideal S3x128 .f32) slices_S3x128_S1x128_1_0) shapeCasts_S1x128_S128 := by
        dsimp only [W1, hostOps0]; after_results_simp; rfl
  have e : (V3 m ρ c main_v71 : Vec Ideal S1x128 .f32)
      = shapeCast S1x128 (W2 m ρ c (Proc.devRef .tc main_v28) : Vec Ideal S128 .f32) shapeCasts_S128_S1x128 := by
    dsimp only [V3, W3, hostOps1]; after_results_simp; rfl
  refine (congrFun e _).trans ?_
  rw [a]; exact row_apply _ _ 1 rfl f

/-! ## The third layer's rows -/

/-- The third layer's bias as a row. -/
theorem V5_v85 (f : Fin 128) :
    (V5 m ρ c main_v85 : Vec Ideal S1x128 .f32) (ix2 0 f) = (m ((c : Thread nD τ).loc main_arg11) : Vec Ideal S128 .f32) (ix1 f) := by
  have a : W4 m ρ c (Proc.devRef .tc main_arg11) = m ((c : Thread nD τ).loc main_arg11) :=
    calc W4 m ρ c (Proc.devRef .tc main_arg11)
      _ = W3 m ρ c (Proc.devRef .tc main_arg11) := W4_of_ne m ρ c main_arg11 (by decide)
      _ = W2 m ρ c (Proc.devRef .tc main_arg11) := by host_untouched hostOps1
      _ = W1 m ρ c (Proc.devRef .tc main_arg11) := W2_of_ne m ρ c main_arg11 (by decide)
      _ = W0 m ρ c (Proc.devRef .tc main_arg11) := by host_untouched hostOps0
      _ = m ((c : Thread nD τ).loc main_arg11) := rfl
  have e : (V5 m ρ c main_v85 : Vec Ideal S1x128 .f32)
      = shapeCast S1x128 (W4 m ρ c (Proc.devRef .tc main_arg11) : Vec Ideal S128 .f32) shapeCasts_S128_S1x128 := by
    dsimp only [V5, W5, hostOps2]; after_results_simp; rfl
  refine (congrFun e _).trans ?_
  rw [a]; exact shapeCast_a_1a_apply _ _ _ _
/-- The third layer's normalisation scale γ: row 2 of its array. -/
theorem V5_v86 (f : Fin 128) :
    (V5 m ρ c main_v86 : Vec Ideal S1x128 .f32) (ix2 0 f) = (m ((c : Thread nD τ).loc main_arg13) : Vec Ideal S3x128 .f32) (ix2 2 f) := by
  have a : W4 m ρ c (Proc.devRef .tc main_v30)
      = shapeCast S128 (extractStridedSlice S1x128 ![2, 0] (m ((c : Thread nD τ).loc main_arg13) : Vec Ideal S3x128 .f32) slices_S3x128_S1x128_2_0) shapeCasts_S1x128_S128 :=
    calc W4 m ρ c (Proc.devRef .tc main_v30)
      _ = W3 m ρ c (Proc.devRef .tc main_v30) := W4_of_ne m ρ c main_v30 (by decide)
      _ = W2 m ρ c (Proc.devRef .tc main_v30) := by host_untouched hostOps1
      _ = W1 m ρ c (Proc.devRef .tc main_v30) := W2_of_ne m ρ c main_v30 (by decide)
      _ = shapeCast S128 (extractStridedSlice S1x128 ![2, 0] (m ((c : Thread nD τ).loc main_arg13) : Vec Ideal S3x128 .f32) slices_S3x128_S1x128_2_0) shapeCasts_S1x128_S128 := by
        dsimp only [W1, hostOps0]; after_results_simp; rfl
  have e : (V5 m ρ c main_v86 : Vec Ideal S1x128 .f32)
      = shapeCast S1x128 (W4 m ρ c (Proc.devRef .tc main_v30) : Vec Ideal S128 .f32) shapeCasts_S128_S1x128 := by
    dsimp only [V5, W5, hostOps2]; after_results_simp; rfl
  refine (congrFun e _).trans ?_
  rw [a]; exact row_apply _ _ 2 rfl f
/-- The third layer's normalisation shift β: row 2 of its array. -/
theorem V5_v87 (f : Fin 128) :
    (V5 m ρ c main_v87 : Vec Ideal S1x128 .f32) (ix2 0 f) = (m ((c : Thread nD τ).loc main_arg14) : Vec Ideal S3x128 .f32) (ix2 2 f) := by
  have a : W4 m ρ c (Proc.devRef .tc main_v32)
      = shapeCast S128 (extractStridedSlice S1x128 ![2, 0] (m ((c : Thread nD τ).loc main_arg14) : Vec Ideal S3x128 .f32) slices_S3x128_S1x128_2_0) shapeCasts_S1x128_S128 :=
    calc W4 m ρ c (Proc.devRef .tc main_v32)
      _ = W3 m ρ c (Proc.devRef .tc main_v32) := W4_of_ne m ρ c main_v32 (by decide)
      _ = W2 m ρ c (Proc.devRef .tc main_v32) := by host_untouched hostOps1
      _ = W1 m ρ c (Proc.devRef .tc main_v32) := W2_of_ne m ρ c main_v32 (by decide)
      _ = shapeCast S128 (extractStridedSlice S1x128 ![2, 0] (m ((c : Thread nD τ).loc main_arg14) : Vec Ideal S3x128 .f32) slices_S3x128_S1x128_2_0) shapeCasts_S1x128_S128 := by
        dsimp only [W1, hostOps0]; after_results_simp; rfl
  have e : (V5 m ρ c main_v87 : Vec Ideal S1x128 .f32)
      = shapeCast S1x128 (W4 m ρ c (Proc.devRef .tc main_v32) : Vec Ideal S128 .f32) shapeCasts_S128_S1x128 := by
    dsimp only [V5, W5, hostOps2]; after_results_simp; rfl
  refine (congrFun e _).trans ?_
  rw [a]; exact row_apply _ _ 2 rfl f
/-- The third layer's normalisation mean μ: row 2 of its array. -/
theorem V5_v88 (f : Fin 128) :
    (V5 m ρ c main_v88 : Vec Ideal S1x128 .f32) (ix2 0 f) = (m ((c : Thread nD τ).loc main_arg15) : Vec Ideal S3x128 .f32) (ix2 2 f) := by
  have a : W4 m ρ c (Proc.devRef .tc main_v34)
      = shapeCast S128 (extractStridedSlice S1x128 ![2, 0] (m ((c : Thread nD τ).loc main_arg15) : Vec Ideal S3x128 .f32) slices_S3x128_S1x128_2_0) shapeCasts_S1x128_S128 :=
    calc W4 m ρ c (Proc.devRef .tc main_v34)
      _ = W3 m ρ c (Proc.devRef .tc main_v34) := W4_of_ne m ρ c main_v34 (by decide)
      _ = W2 m ρ c (Proc.devRef .tc main_v34) := by host_untouched hostOps1
      _ = W1 m ρ c (Proc.devRef .tc main_v34) := W2_of_ne m ρ c main_v34 (by decide)
      _ = shapeCast S128 (extractStridedSlice S1x128 ![2, 0] (m ((c : Thread nD τ).loc main_arg15) : Vec Ideal S3x128 .f32) slices_S3x128_S1x128_2_0) shapeCasts_S1x128_S128 := by
        dsimp only [W1, hostOps0]; after_results_simp; rfl
  have e : (V5 m ρ c main_v88 : Vec Ideal S1x128 .f32)
      = shapeCast S1x128 (W4 m ρ c (Proc.devRef .tc main_v34) : Vec Ideal S128 .f32) shapeCasts_S128_S1x128 := by
    dsimp only [V5, W5, hostOps2]; after_results_simp; rfl
  refine (congrFun e _).trans ?_
  rw [a]; exact row_apply _ _ 2 rfl f
/-- The third layer's normalisation variance v: row 2 of its array. -/
theorem V5_v89 (f : Fin 128) :
    (V5 m ρ c main_v89 : Vec Ideal S1x128 .f32) (ix2 0 f) = (m ((c : Thread nD τ).loc main_arg16) : Vec Ideal S3x128 .f32) (ix2 2 f) := by
  have a : W4 m ρ c (Proc.devRef .tc main_v36)
      = shapeCast S128 (extractStridedSlice S1x128 ![2, 0] (m ((c : Thread nD τ).loc main_arg16) : Vec Ideal S3x128 .f32) slices_S3x128_S1x128_2_0) shapeCasts_S1x128_S128 :=
    calc W4 m ρ c (Proc.devRef .tc main_v36)
      _ = W3 m ρ c (Proc.devRef .tc main_v36) := W4_of_ne m ρ c main_v36 (by decide)
      _ = W2 m ρ c (Proc.devRef .tc main_v36) := by host_untouched hostOps1
      _ = W1 m ρ c (Proc.devRef .tc main_v36) := W2_of_ne m ρ c main_v36 (by decide)
      _ = shapeCast S128 (extractStridedSlice S1x128 ![2, 0] (m ((c : Thread nD τ).loc main_arg16) : Vec Ideal S3x128 .f32) slices_S3x128_S1x128_2_0) shapeCasts_S1x128_S128 := by
        dsimp only [W1, hostOps0]; after_results_simp; rfl
  have e : (V5 m ρ c main_v89 : Vec Ideal S1x128 .f32)
      = shapeCast S1x128 (W4 m ρ c (Proc.devRef .tc main_v36) : Vec Ideal S128 .f32) shapeCasts_S128_S1x128 := by
    dsimp only [V5, W5, hostOps2]; after_results_simp; rfl
  refine (congrFun e _).trans ?_
  rw [a]; exact row_apply _ _ 2 rfl f

/-! ## The pooling's index column -/

/-- The node-to-graph assignment as a column. -/
theorem V7_v91 (n : Fin 100000) :
    (V7 m ρ c main_v91 : IVec S100000x1 32) (ix2 n 0) = (m ((c : Thread nD τ).loc main_arg2) : IVec S100000 32) (ix1 n) := by
  have a : W6 m ρ c (Proc.devRef .tc main_arg2) = m ((c : Thread nD τ).loc main_arg2) :=
    calc W6 m ρ c (Proc.devRef .tc main_arg2)
      _ = W7 m ρ c (Proc.devRef .tc main_arg2) := (by host_untouched hostOps3 : W7 m ρ c (Proc.devRef .tc main_arg2) = W6 m ρ c (Proc.devRef .tc main_arg2)).symm
      _ = W8 m ρ c (Proc.devRef .tc main_arg2) := (W8_of_ne m ρ c main_arg2 (by decide)).symm
      _ = W9 m ρ c (Proc.devRef .tc main_arg2) := (by host_untouched hostOps4 : W9 m ρ c (Proc.devRef .tc main_arg2) = W8 m ρ c (Proc.devRef .tc main_arg2)).symm
      _ = W10 m ρ c (Proc.devRef .tc main_arg2) := (W10_of_ne m ρ c main_arg2 (by decide)).symm
      _ = m ((c : Thread nD τ).loc main_arg2) := W10_main_arg2 m ρ c
  have e : (V7 m ρ c main_v91 : IVec S100000x1 32)
      = shapeCast S100000x1 (W6 m ρ c (Proc.devRef .tc main_arg2) : IVec S100000 32) shapeCasts_S100000_S100000x1 := by
    dsimp only [V7, W7, hostOps3]; after_results_simp; rfl
  refine (congrFun e _).trans ?_
  rw [a]; exact shapeCast_a_a1_apply _ _ _ _

/-! ## The head's rows and the two halves of its wide matrices -/

/-- The measurements' normalisation scale γ as a row. -/
theorem V9_v97 (k : Fin 45) :
    (V9 m ρ c main_v97 : Vec Ideal S1x45 .f32) (ix2 0 k) = (m ((c : Thread nD τ).loc main_arg17) : Vec Ideal S45 .f32) (ix1 k) := by
  have a : W8 m ρ c (Proc.devRef .tc main_arg17) = m ((c : Thread nD τ).loc main_arg17) :=
    calc W8 m ρ c (Proc.devRef .tc main_arg17)
      _ = W9 m ρ c (Proc.devRef .tc main_arg17) := (by host_untouched hostOps4 : W9 m ρ c (Proc.devRef .tc main_arg17) = W8 m ρ c (Proc.devRef .tc main_arg17)).symm
      _ = W10 m ρ c (Proc.devRef .tc main_arg17) := (W10_of_ne m ρ c main_arg17 (by decide)).symm
      _ = m ((c : Thread nD τ).loc main_arg17) := W10_main_arg17 m ρ c
  have e : (V9 m ρ c main_v97 : Vec Ideal S1x45 .f32)
      = shapeCast S1x45 (W8 m ρ c (Proc.devRef .tc main_arg17) : Vec Ideal S45 .f32) shapeCasts_S45_S1x45 := by
    dsimp only [V9, W9, hostOps4]; after_results_simp; rfl
  refine (congrFun e _).trans ?_
  rw [a]; exact shapeCast_a_1a_apply _ _ _ _
/-- The measurements' normalisation shift β as a row. -/
theorem V9_v98 (k : Fin 45) :
    (V9 m ρ c main_v98 : Vec Ideal S1x45 .f32) (ix2 0 k) = (m ((c : Thread nD τ).loc main_arg18) : Vec Ideal S45 .f32) (ix1 k) := by
  have a : W8 m ρ c (Proc.devRef .tc main_arg18) = m ((c : Thread nD τ).loc main_arg18) :=
    calc W8 m ρ c (Proc.devRef .tc main_arg18)
      _ = W9 m ρ c (Proc.devRef .tc main_arg18) := (by host_untouched hostOps4 : W9 m ρ c (Proc.devRef .tc main_arg18) = W8 m ρ c (Proc.devRef .tc main_arg18)).symm
      _ = W10 m ρ c (Proc.devRef .tc main_arg18) := (W10_of_ne m ρ c main_arg18 (by decide)).symm
      _ = m ((c : Thread nD τ).loc main_arg18) := W10_main_arg18 m ρ c
  have e : (V9 m ρ c main_v98 : Vec Ideal S1x45 .f32)
      = shapeCast S1x45 (W8 m ρ c (Proc.devRef .tc main_arg18) : Vec Ideal S45 .f32) shapeCasts_S45_S1x45 := by
    dsimp only [V9, W9, hostOps4]; after_results_simp; rfl
  refine (congrFun e _).trans ?_
  rw [a]; exact shapeCast_a_1a_apply _ _ _ _
/-- The measurements' normalisation mean μ as a row. -/
theorem V9_v99 (k : Fin 45) :
    (V9 m ρ c main_v99 : Vec Ideal S1x45 .f32) (ix2 0 k) = (m ((c : Thread nD τ).loc main_arg19) : Vec Ideal S45 .f32) (ix1 k) := by
  have a : W8 m ρ c (Proc.devRef .tc main_arg19) = m ((c : Thread nD τ).loc main_arg19) :=
    calc W8 m ρ c (Proc.devRef .tc main_arg19)
      _ = W9 m ρ c (Proc.devRef .tc main_arg19) := (by host_untouched hostOps4 : W9 m ρ c (Proc.devRef .tc main_arg19) = W8 m ρ c (Proc.devRef .tc main_arg19)).symm
      _ = W10 m ρ c (Proc.devRef .tc main_arg19) := (W10_of_ne m ρ c main_arg19 (by decide)).symm
      _ = m ((c : Thread nD τ).loc main_arg19) := W10_main_arg19 m ρ c
  have e : (V9 m ρ c main_v99 : Vec Ideal S1x45 .f32)
      = shapeCast S1x45 (W8 m ρ c (Proc.devRef .tc main_arg19) : Vec Ideal S45 .f32) shapeCasts_S45_S1x45 := by
    dsimp only [V9, W9, hostOps4]; after_results_simp; rfl
  refine (congrFun e _).trans ?_
  rw [a]; exact shapeCast_a_1a_apply _ _ _ _
/-- The measurements' normalisation variance v as a row. -/
theorem V9_v100 (k : Fin 45) :
    (V9 m ρ c main_v100 : Vec Ideal S1x45 .f32) (ix2 0 k) = (m ((c : Thread nD τ).loc main_arg20) : Vec Ideal S45 .f32) (ix1 k) := by
  have a : W8 m ρ c (Proc.devRef .tc main_arg20) = m ((c : Thread nD τ).loc main_arg20) :=
    calc W8 m ρ c (Proc.devRef .tc main_arg20)
      _ = W9 m ρ c (Proc.devRef .tc main_arg20) := (by host_untouched hostOps4 : W9 m ρ c (Proc.devRef .tc main_arg20) = W8 m ρ c (Proc.devRef .tc main_arg20)).symm
      _ = W10 m ρ c (Proc.devRef .tc main_arg20) := (W10_of_ne m ρ c main_arg20 (by decide)).symm
      _ = m ((c : Thread nD τ).loc main_arg20) := W10_main_arg20 m ρ c
  have e : (V9 m ρ c main_v100 : Vec Ideal S1x45 .f32)
      = shapeCast S1x45 (W8 m ρ c (Proc.devRef .tc main_arg20) : Vec Ideal S45 .f32) shapeCasts_S45_S1x45 := by
    dsimp only [V9, W9, hostOps4]; after_results_simp; rfl
  refine (congrFun e _).trans ?_
  rw [a]; exact shapeCast_a_1a_apply _ _ _ _
/-- The head's first weight matrix, its first 128 rows. -/
theorem V9_v93 (k : Fin 128) (k1 : Fin 64) :
    (V9 m ρ c main_v93 : Vec Ideal S128x64 .f32) (ix2 k k1)
      = (m ((c : Thread nD τ).loc main_arg21) : Vec Ideal S173x64 .f32) (ix2 (Fin.castAdd 45 k) k1) := by
  have a : W8 m ρ c (Proc.devRef .tc main_arg21) = m ((c : Thread nD τ).loc main_arg21) :=
    calc W8 m ρ c (Proc.devRef .tc main_arg21)
      _ = W9 m ρ c (Proc.devRef .tc main_arg21) := (by host_untouched hostOps4 : W9 m ρ c (Proc.devRef .tc main_arg21) = W8 m ρ c (Proc.devRef .tc main_arg21)).symm
      _ = W10 m ρ c (Proc.devRef .tc main_arg21) := (W10_of_ne m ρ c main_arg21 (by decide)).symm
      _ = m ((c : Thread nD τ).loc main_arg21) := W10_main_arg21 m ρ c
  have e : (V9 m ρ c main_v93 : Vec Ideal S128x64 .f32)
      = extractStridedSlice S128x64 ![0, 0] (W8 m ρ c (Proc.devRef .tc main_arg21) : Vec Ideal S173x64 .f32) slices_S173x64_S128x64_0_0 := by
    dsimp only [V9, W9, hostOps4]; after_results_simp
  refine (congrFun e _).trans ?_
  rw [a]; exact slice2_axis0_apply 0 _ _ k k1 (Fin.castAdd 45 k) (Nat.zero_add _).symm
/-- The head's first weight matrix, its last 45 rows. -/
theorem V9_v94 (k : Fin 45) (k1 : Fin 64) :
    (V9 m ρ c main_v94 : Vec Ideal S45x64 .f32) (ix2 k k1)
      = (m ((c : Thread nD τ).loc main_arg21) : Vec Ideal S173x64 .f32) (ix2 (Fin.natAdd 128 k) k1) := by
  have a : W8 m ρ c (Proc.devRef .tc main_arg21) = m ((c : Thread nD τ).loc main_arg21) :=
    calc W8 m ρ c (Proc.devRef .tc main_arg21)
      _ = W9 m ρ c (Proc.devRef .tc main_arg21) := (by host_untouched hostOps4 : W9 m ρ c (Proc.devRef .tc main_arg21) = W8 m ρ c (Proc.devRef .tc main_arg21)).symm
      _ = W10 m ρ c (Proc.devRef .tc main_arg21) := (W10_of_ne m ρ c main_arg21 (by decide)).symm
      _ = m ((c : Thread nD τ).loc main_arg21) := W10_main_arg21 m ρ c
  have e : (V9 m ρ c main_v94 : Vec Ideal S45x64 .f32)
      = extractStridedSlice S45x64 ![128, 0] (W8 m ρ c (Proc.devRef .tc main_arg21) : Vec Ideal S173x64 .f32) slices_S173x64_S45x64_128_0 := by
    dsimp only [V9, W9, hostOps4]; after_results_simp
  refine (congrFun e _).trans ?_
  rw [a]; exact slice2_axis0_apply 128 _ _ k k1 (Fin.natAdd 128 k) rfl
/-- The embedding's weight matrix, its first 128 rows. -/
theorem V9_v95 (k : Fin 128) (j : Fin 173) :
    (V9 m ρ c main_v95 : Vec Ideal S128x173 .f32) (ix2 k j)
      = (m ((c : Thread nD τ).loc main_arg27) : Vec Ideal S173x173 .f32) (ix2 (Fin.castAdd 45 k) j) := by
  have a : W8 m ρ c (Proc.devRef .tc main_arg27) = m ((c : Thread nD τ).loc main_arg27) :=
    calc W8 m ρ c (Proc.devRef .tc main_arg27)
      _ = W9 m ρ c (Proc.devRef .tc main_arg27) := (by host_untouched hostOps4 : W9 m ρ c (Proc.devRef .tc main_arg27) = W8 m ρ c (Proc.devRef .tc main_arg27)).symm
      _ = W10 m ρ c (Proc.devRef .tc main_arg27) := (W10_of_ne m ρ c main_arg27 (by decide)).symm
      _ = m ((c : Thread nD τ).loc main_arg27) := W10_main_arg27 m ρ c
  have e : (V9 m ρ c main_v95 : Vec Ideal S128x173 .f32)
      = extractStridedSlice S128x173 ![0, 0] (W8 m ρ c (Proc.devRef .tc main_arg27) : Vec Ideal S173x173 .f32) slices_S173x173_S128x173_0_0 := by
    dsimp only [V9, W9, hostOps4]; after_results_simp
  refine (congrFun e _).trans ?_
  rw [a]; exact slice2_axis0_apply 0 _ _ k j (Fin.castAdd 45 k) (Nat.zero_add _).symm
/-- The embedding's weight matrix, its last 45 rows. -/
theorem V9_v96 (k : Fin 45) (j : Fin 173) :
    (V9 m ρ c main_v96 : Vec Ideal S45x173 .f32) (ix2 k j)
      = (m ((c : Thread nD τ).loc main_arg27) : Vec Ideal S173x173 .f32) (ix2 (Fin.natAdd 128 k) j) := by
  have a : W8 m ρ c (Proc.devRef .tc main_arg27) = m ((c : Thread nD τ).loc main_arg27) :=
    calc W8 m ρ c (Proc.devRef .tc main_arg27)
      _ = W9 m ρ c (Proc.devRef .tc main_arg27) := (by host_untouched hostOps4 : W9 m ρ c (Proc.devRef .tc main_arg27) = W8 m ρ c (Proc.devRef .tc main_arg27)).symm
      _ = W10 m ρ c (Proc.devRef .tc main_arg27) := (W10_of_ne m ρ c main_arg27 (by decide)).symm
      _ = m ((c : Thread nD τ).loc main_arg27) := W10_main_arg27 m ρ c
  have e : (V9 m ρ c main_v96 : Vec Ideal S45x173 .f32)
      = extractStridedSlice S45x173 ![128, 0] (W8 m ρ c (Proc.devRef .tc main_arg27) : Vec Ideal S173x173 .f32) slices_S173x173_S45x173_128_0 := by
    dsimp only [V9, W9, hostOps4]; after_results_simp
  refine (congrFun e _).trans ?_
  rw [a]; exact slice2_axis0_apply 128 _ _ k j (Fin.natAdd 128 k) rfl
/-- The head's first bias as a row. -/
theorem V9_v101 (k1 : Fin 64) :
    (V9 m ρ c main_v101 : Vec Ideal S1x64 .f32) (ix2 0 k1) = (m ((c : Thread nD τ).loc main_arg22) : Vec Ideal S64 .f32) (ix1 k1) := by
  have a : W8 m ρ c (Proc.devRef .tc main_arg22) = m ((c : Thread nD τ).loc main_arg22) :=
    calc W8 m ρ c (Proc.devRef .tc main_arg22)
      _ = W9 m ρ c (Proc.devRef .tc main_arg22) := (by host_untouched hostOps4 : W9 m ρ c (Proc.devRef .tc main_arg22) = W8 m ρ c (Proc.devRef .tc main_arg22)).symm
      _ = W10 m ρ c (Proc.devRef .tc main_arg22) := (W10_of_ne m ρ c main_arg22 (by decide)).symm
      _ = m ((c : Thread nD τ).loc main_arg22) := W10_main_arg22 m ρ c
  have e : (V9 m ρ c main_v101 : Vec Ideal S1x64 .f32)
      = shapeCast S1x64 (W8 m ρ c (Proc.devRef .tc main_arg22) : Vec Ideal S64 .f32) shapeCasts_S64_S1x64 := by
    dsimp only [V9, W9, hostOps4]; after_results_simp; rfl
  refine (congrFun e _).trans ?_
  rw [a]; exact shapeCast_a_1a_apply _ _ _ _
/-- The head's second bias as a row. -/
theorem V9_v102 (k2 : Fin 32) :
    (V9 m ρ c main_v102 : Vec Ideal S1x32 .f32) (ix2 0 k2) = (m ((c : Thread nD τ).loc main_arg24) : Vec Ideal S32 .f32) (ix1 k2) := by
  have a : W8 m ρ c (Proc.devRef .tc main_arg24) = m ((c : Thread nD τ).loc main_arg24) :=
    calc W8 m ρ c (Proc.devRef .tc main_arg24)
      _ = W9 m ρ c (Proc.devRef .tc main_arg24) := (by host_untouched hostOps4 : W9 m ρ c (Proc.devRef .tc main_arg24) = W8 m ρ c (Proc.devRef .tc main_arg24)).symm
      _ = W10 m ρ c (Proc.devRef .tc main_arg24) := (W10_of_ne m ρ c main_arg24 (by decide)).symm
      _ = m ((c : Thread nD τ).loc main_arg24) := W10_main_arg24 m ρ c
  have e : (V9 m ρ c main_v102 : Vec Ideal S1x32 .f32)
      = shapeCast S1x32 (W8 m ρ c (Proc.devRef .tc main_arg24) : Vec Ideal S32 .f32) shapeCasts_S32_S1x32 := by
    dsimp only [V9, W9, hostOps4]; after_results_simp; rfl
  refine (congrFun e _).trans ?_
  rw [a]; exact shapeCast_a_1a_apply _ _ _ _
/-- The head's third bias as a row. -/
theorem V9_v103 (j : Fin 2) :
    (V9 m ρ c main_v103 : Vec Ideal S1x2 .f32) (ix2 0 j) = (m ((c : Thread nD τ).loc main_arg26) : Vec Ideal S2 .f32) (ix1 j) := by
  have a : W8 m ρ c (Proc.devRef .tc main_arg26) = m ((c : Thread nD τ).loc main_arg26) :=
    calc W8 m ρ c (Proc.devRef .tc main_arg26)
      _ = W9 m ρ c (Proc.devRef .tc main_arg26) := (by host_untouched hostOps4 : W9 m ρ c (Proc.devRef .tc main_arg26) = W8 m ρ c (Proc.devRef .tc main_arg26)).symm
      _ = W10 m ρ c (Proc.devRef .tc main_arg26) := (W10_of_ne m ρ c main_arg26 (by decide)).symm
      _ = m ((c : Thread nD τ).loc main_arg26) := W10_main_arg26 m ρ c
  have e : (V9 m ρ c main_v103 : Vec Ideal S1x2 .f32)
      = shapeCast S1x2 (W8 m ρ c (Proc.devRef .tc main_arg26) : Vec Ideal S2 .f32) shapeCasts_S2_S1x2 := by
    dsimp only [V9, W9, hostOps4]; after_results_simp; rfl
  refine (congrFun e _).trans ?_
  rw [a]; exact shapeCast_a_1a_apply _ _ _ _
/-- The embedding's bias as a row. -/
theorem V9_v104 (j : Fin 173) :
    (V9 m ρ c main_v104 : Vec Ideal S1x173 .f32) (ix2 0 j) = (m ((c : Thread nD τ).loc main_arg28) : Vec Ideal S173 .f32) (ix1 j) := by
  have a : W8 m ρ c (Proc.devRef .tc main_arg28) = m ((c : Thread nD τ).loc main_arg28) :=
    calc W8 m ρ c (Proc.devRef .tc main_arg28)
      _ = W9 m ρ c (Proc.devRef .tc main_arg28) := (by host_untouched hostOps4 : W9 m ρ c (Proc.devRef .tc main_arg28) = W8 m ρ c (Proc.devRef .tc main_arg28)).symm
      _ = W10 m ρ c (Proc.devRef .tc main_arg28) := (W10_of_ne m ρ c main_arg28 (by decide)).symm
      _ = m ((c : Thread nD τ).loc main_arg28) := W10_main_arg28 m ρ c
  have e : (V9 m ρ c main_v104 : Vec Ideal S1x173 .f32)
      = shapeCast S1x173 (W8 m ρ c (Proc.devRef .tc main_arg28) : Vec Ideal S173 .f32) shapeCasts_S173_S1x173 := by
    dsimp only [V9, W9, hostOps4]; after_results_simp; rfl
  refine (congrFun e _).trans ?_
  rw [a]; exact shapeCast_a_1a_apply _ _ _ _

end Cert.KernelIdeal.Leaves

end
-- ==== Proof.KLeaves.lean ====
/-
  What the program's buffers hold when each layer is entered: the aggregation, the arrays that pass through, and the
  rows and reshapes read at an index, gathered.
-/
import proofs.«416966_j75505525063863_1_alg».proof.Proof.KLeavesAgg
import proofs.«416966_j75505525063863_1_alg».proof.Proof.KLeavesPass
import proofs.«416966_j75505525063863_1_alg».proof.Proof.KLeavesRows
-- ==== Proof.RefNode.lean ====
/-
  The three graph layers of the reference, one output entry at a time.

  A layer first averages, for every node, the rows of its in-neighbours: the rows are gathered along the edges' source
  column, added into the destination rows, and scaled by the reciprocal of the in-degree clipped below at 1. That
  stage depends on the edge list and on the node features only; it is kept as ONE function of the two (`agg64` for the
  64 input features, `agg128` for the 128 hidden ones) and never opened: the second and third layers normalise the
  source column again, with the same constants, so they use the same function of the edge list.

  Then, at node n and feature f, the entry is the contraction of the averaged row with column f of the first weight
  matrix, plus the bias, plus the contraction of the node's own row with column f of the second matrix; minus the
  mean μ_f, times γ_f / √(v_f + ε), plus β_f; clipped below at 0. The four normalisation vectors are row L of their
  3 × 128 tables for layer L: a slice of one row and a reshape of a 1 × 128 array read entry (L, f) of the table.
  Every broadcast reads the entry with the same feature coordinate. That is `Cert.Sage.denseR`.
-/
import proofs.«416966_j75505525063863_1_alg».proof.Proof.Gen.ReferenceIdeal.Read
import proofs.«416966_j75505525063863_1_alg».proof.Proof.Spec
import Idealize.ShloMosaic.Lib.ValueIdx
import Idealize.ShloMosaic.PureOps.Ideal

noncomputable section

open scoped BigOperators

namespace Cert.ReferenceIdeal.Handd

open Cert.ReferenceIdeal Cert.ReferenceIdeal.Gen Idealize.ShloMosaic Idealize.ShloMosaic.TcCoe Idealize.SL.Sem Idealize.ShloMosaic.StableHlo
open Idealize.ShloMosaic.ValueIdx

/-! ## The aggregation, as one function of the rows it gathers and of the edge list -/

/-- The mean over in-neighbours of 64-feature rows: gather the rows `h` at the (sign-normalised) source indices, add
    them into the destination rows of a zero array, scale row n by 1 / max(deg n, 1). -/
def agg64 (h : (⟨S100000x64, .f32⟩ : BufTy).Contents (Elt Ideal)) (x1 : (⟨S2x1600000, .i32⟩ : BufTy).Contents (Elt Ideal)) :
    (⟨S100000x64, .f32⟩ : BufTy).Contents (Elt Ideal) :=
  mulf (F := Ideal) (φ := .f32)
    (Host.scatterAdd (F := Ideal) (φ := .f32) scatter_S100000x64_S1600000x1_S1600000x64_1_0_0_1 (Read.val_main_v20 (F := Ideal))
      (Read.val_main_v21 (F := Ideal) x1)
      (Host.gather (α := Elt Ideal .f32) gather_S100000x64_S1600000x1_S1600000x64_1_0_n_n_0_1_164 h (Read.val_main_v18 (F := Ideal) x1)))
    (Read.val_main_v23 (F := Ideal) x1)

/-- The same mean for 128-feature rows. -/
def agg128 (h : (⟨S100000x128, .f32⟩ : BufTy).Contents (Elt Ideal)) (x1 : (⟨S2x1600000, .i32⟩ : BufTy).Contents (Elt Ideal)) :
    (⟨S100000x128, .f32⟩ : BufTy).Contents (Elt Ideal) :=
  mulf (F := Ideal) (φ := .f32)
    (Host.scatterAdd (F := Ideal) (φ := .f32) scatter_S100000x128_S1600000x1_S1600000x128_1_0_0_1 (Read.val_main_v60 (F := Ideal))
      (Read.val_main_v61 (F := Ideal) x1)
      (Host.gather (α := Elt Ideal .f32) gather_S100000x128_S1600000x1_S1600000x128_1_0_n_n_0_1_1128 h (Read.val_main_v58 (F := Ideal) x1)))
    (Read.val_main_v63 (F := Ideal) x1)

variable (x0 : (⟨S100000x64, .f32⟩ : BufTy).Contents (Elt Ideal)) (x1 : (⟨S2x1600000, .i32⟩ : BufTy).Contents (Elt Ideal))
  (x4 : (⟨S64x128, .f32⟩ : BufTy).Contents (Elt Ideal)) (x5 : (⟨S128, .f32⟩ : BufTy).Contents (Elt Ideal))
  (x6 : (⟨S64x128, .f32⟩ : BufTy).Contents (Elt Ideal)) (x7 : (⟨S128x128, .f32⟩ : BufTy).Contents (Elt Ideal))
  (x8 : (⟨S128, .f32⟩ : BufTy).Contents (Elt Ideal)) (x9 x10 : (⟨S128x128, .f32⟩ : BufTy).Contents (Elt Ideal))
  (x11 : (⟨S128, .f32⟩ : BufTy).Contents (Elt Ideal)) (x12 : (⟨S128x128, .f32⟩ : BufTy).Contents (Elt Ideal))
  (x13 x14 x15 x16 : (⟨S3x128, .f32⟩ : BufTy).Contents (Elt Ideal))

/-- The first layer's aggregate is the 64-feature mean of the input rows. -/
theorem agg0_eq : Read.val_main_v24 (F := Ideal) x0 x1 = agg64 x0 x1 := by
  unfold Read.val_main_v24 Read.val_main_v22 Read.val_main_v19 agg64
  rfl

/-- The second layer's aggregate is the 128-feature mean of the first layer's rows. -/
theorem agg1_eq : Read.val_main_v64 (F := Ideal) x0 x1 x4 x5 x6 x13 x14 x15 x16
    = agg128 (Read.val_main_v52 (F := Ideal) x0 x1 x4 x5 x6 x13 x14 x15 x16) x1 := by
  unfold Read.val_main_v64 Read.val_main_v62 Read.val_main_v59 agg128
  rfl

/-- The third layer's aggregate is the 128-feature mean of the second layer's rows: the source column is normalised
    once more, by the same comparison with 0 and the same shift by the node count, so it is the same function of the
    edge list. -/
theorem agg2_eq : Read.val_main_v104 (F := Ideal) x0 x1 x4 x5 x6 x7 x8 x9 x13 x14 x15 x16
    = agg128 (Read.val_main_v92 (F := Ideal) x0 x1 x4 x5 x6 x7 x8 x9 x13 x14 x15 x16) x1 := by
  unfold Read.val_main_v104 Read.val_main_v102 Read.val_main_v99 Read.val_main_v100 Read.val_main_cst_12
    Read.val_main_v101 Read.val_main_v98 Read.val_main_v97 Read.val_main_v94 Read.val_main_v93 Read.val_main_c_10
    Read.val_main_v96 Read.val_main_v95 Read.val_main_c_11 Read.val_main_v103 agg128
    Read.val_main_v60 Read.val_main_cst_8 Read.val_main_v61 Read.val_main_v58 Read.val_main_v57 Read.val_main_v54
    Read.val_main_v53 Read.val_main_c_6 Read.val_main_v56 Read.val_main_v55 Read.val_main_c_7 Read.val_main_v63
  rfl

/-! ## The first layer -/

/-- Entry (n, f) of the first layer: the dense stage of the averaged row and the node's own input row, with row 0 of
    the four normalisation tables. -/
theorem layer0_apply (n : Fin 100000) (f : Fin 128) :
    Read.val_main_v52 (F := Ideal) x0 x1 x4 x5 x6 x13 x14 x15 x16 (ix2 n f)
      = Cert.Sage.denseR (fun k : Fin 64 => Read.val_main_v24 (F := Ideal) x0 x1 (ix2 n k))
          (fun k : Fin 64 => x0 (ix2 n k))
          (fun k => x4 (ix2 k f)) (fun k => x6 (ix2 k f)) (x5 (ix1 f))
          (x13 (ix2 0 f)) (x14 (ix2 0 f)) (x15 (ix2 0 f)) (x16 (ix2 0 f)) := by
  -- the bias is read at the feature coordinate
  have eb : Read.idx_main_v26 (Read.idx_main_v27 (ix2 n f)) = ix1 f :=
    funext fun a => Fin.ext (by match a with | ⟨0, _⟩ => rfl)
  -- the two contractions run over row n of the left operand and column f of the right one
  have el : ∀ k : Fin 64, Read.lidx_main_v25 (ix2 n f) k = ix2 n k := fun k =>
    funext fun a => Fin.ext (by match a with | ⟨0, _⟩ => rfl | ⟨1, _⟩ => rfl)
  have er : ∀ k : Fin 64, Read.ridx_main_v25 (ix2 n f) k = ix2 k f := fun k =>
    funext fun a => Fin.ext (by match a with | ⟨0, _⟩ => rfl | ⟨1, _⟩ => rfl)
  have el' : ∀ k : Fin 64, Read.lidx_main_v29 (ix2 n f) k = ix2 n k := fun k =>
    funext fun a => Fin.ext (by match a with | ⟨0, _⟩ => rfl | ⟨1, _⟩ => rfl)
  have er' : ∀ k : Fin 64, Read.ridx_main_v29 (ix2 n f) k = ix2 k f := fun k =>
    funext fun a => Fin.ext (by match a with | ⟨0, _⟩ => rfl | ⟨1, _⟩ => rfl)
  -- a slice of row 0 reshaped to a vector and broadcast along the nodes reads entry (0, f) of the table
  have emu : Read.idx_main_v35 (Read.idx_main_v36 (Read.idx_main_v39 (Read.idx_main_v40 (ix2 n f)))) = ix2 (0 : Fin 3) f :=
    funext fun a => Fin.ext (by match a with | ⟨0, _⟩ => rfl | ⟨1, _⟩ => exact Nat.mod_eq_of_lt f.isLt)
  have eg : Read.idx_main_v31 (Read.idx_main_v32 (Read.idx_main_v46 (Read.idx_main_v47 (ix2 n f)))) = ix2 (0 : Fin 3) f :=
    funext fun a => Fin.ext (by match a with | ⟨0, _⟩ => rfl | ⟨1, _⟩ => exact Nat.mod_eq_of_lt f.isLt)
  have ev : Read.idx_main_v37 (Read.idx_main_v38 (Read.idx_main_v46 (Read.idx_main_v47 (ix2 n f)))) = ix2 (0 : Fin 3) f :=
    funext fun a => Fin.ext (by match a with | ⟨0, _⟩ => rfl | ⟨1, _⟩ => exact Nat.mod_eq_of_lt f.isLt)
  have ebe : Read.idx_main_v33 (Read.idx_main_v34 (Read.idx_main_v49 (Read.idx_main_v50 (ix2 n f)))) = ix2 (0 : Fin 3) f :=
    funext fun a => Fin.ext (by match a with | ⟨0, _⟩ => rfl | ⟨1, _⟩ => exact Nat.mod_eq_of_lt f.isLt)
  rw [Read.val_main_v52_apply, Read.val_main_v51_apply, Read.val_main_v48_apply, Read.val_main_v41_apply,
    Read.val_main_v30_apply, Read.val_main_v28_apply, Read.val_main_v25_apply, Read.val_main_v27_apply,
    Read.val_main_v26_apply, Read.val_main_v29_apply, Read.val_main_v40_apply, Read.val_main_v39_apply,
    Read.val_main_v36_apply, Read.val_main_v35_apply, Read.val_main_v47_apply, Read.val_main_v46_apply,
    Read.val_main_v45_apply, Read.val_main_v32_apply, Read.val_main_v31_apply, Read.val_main_v44_apply,
    Read.val_main_v43_apply, Read.val_main_v38_apply, Read.val_main_v37_apply, Read.val_main_v42_apply,
    Read.val_main_cst_5_apply, Read.val_main_v50_apply, Read.val_main_v49_apply, Read.val_main_v34_apply,
    Read.val_main_v33_apply, Read.val_main_call0_v0_apply, Read.val_main_call0_cst_apply]
  simp only [eb, el, er, el', er', emu, eg, ev, ebe, Ideal.maximumf_def, Ideal.addf_def, Ideal.subf_def, Ideal.mulf_def,
    Ideal.hostDivf_def, Ideal.hostUnary_sqrt_def, Ideal.ofBits_def]
  rfl

/-! ## The second layer -/

/-- Entry (n, f) of the second layer: the dense stage of the averaged row and the node's own row of the first layer, with row 1 of
    the four normalisation tables. -/
theorem layer1_apply (n : Fin 100000) (f : Fin 128) :
    Read.val_main_v92 (F := Ideal) x0 x1 x4 x5 x6 x7 x8 x9 x13 x14 x15 x16 (ix2 n f)
      = Cert.Sage.denseR (fun k : Fin 128 => Read.val_main_v64 (F := Ideal) x0 x1 x4 x5 x6 x13 x14 x15 x16 (ix2 n k))
          (fun k : Fin 128 => Read.val_main_v52 (F := Ideal) x0 x1 x4 x5 x6 x13 x14 x15 x16 (ix2 n k))
          (fun k => x7 (ix2 k f)) (fun k => x9 (ix2 k f)) (x8 (ix1 f))
          (x13 (ix2 1 f)) (x14 (ix2 1 f)) (x15 (ix2 1 f)) (x16 (ix2 1 f)) := by
  -- the bias is read at the feature coordinate
  have eb : Read.idx_main_v66 (Read.idx_main_v67 (ix2 n f)) = ix1 f :=
    funext fun a => Fin.ext (by match a with | ⟨0, _⟩ => rfl)
  -- the two contractions run over row n of the left operand and column f of the right one
  have el : ∀ k : Fin 128, Read.lidx_main_v65 (ix2 n f) k = ix2 n k := fun k =>
    funext fun a => Fin.ext (by match a with | ⟨0, _⟩ => rfl | ⟨1, _⟩ => rfl)
  have er : ∀ k : Fin 128, Read.ridx_main_v65 (ix2 n f) k = ix2 k f := fun k =>
    funext fun a => Fin.ext (by match a with | ⟨0, _⟩ => rfl | ⟨1, _⟩ => rfl)
  have el' : ∀ k : Fin 128, Read.lidx_main_v69 (ix2 n f) k = ix2 n k := fun k =>
    funext fun a => Fin.ext (by match a with | ⟨0, _⟩ => rfl | ⟨1, _⟩ => rfl)
  have er' : ∀ k : Fin 128, Read.ridx_main_v69 (ix2 n f) k = ix2 k f := fun k =>
    funext fun a => Fin.ext (by match a with | ⟨0, _⟩ => rfl | ⟨1, _⟩ => rfl)
  -- a slice of row 1 reshaped to a vector and broadcast along the nodes reads entry (1, f) of the table
  have emu : Read.idx_main_v75 (Read.idx_main_v76 (Read.idx_main_v79 (Read.idx_main_v80 (ix2 n f)))) = ix2 (1 : Fin 3) f :=
    funext fun a => Fin.ext (by match a with | ⟨0, _⟩ => rfl | ⟨1, _⟩ => exact Nat.mod_eq_of_lt f.isLt)
  have eg : Read.idx_main_v71 (Read.idx_main_v72 (Read.idx_main_v86 (Read.idx_main_v87 (ix2 n f)))) = ix2 (1 : Fin 3) f :=
    funext fun a => Fin.ext (by match a with | ⟨0, _⟩ => rfl | ⟨1, _⟩ => exact Nat.mod_eq_of_lt f.isLt)
  have ev : Read.idx_main_v77 (Read.idx_main_v78 (Read.idx_main_v86 (Read.idx_main_v87 (ix2 n f)))) = ix2 (1 : Fin 3) f :=
    funext fun a => Fin.ext (by match a with | ⟨0, _⟩ => rfl | ⟨1, _⟩ => exact Nat.mod_eq_of_lt f.isLt)
  have ebe : Read.idx_main_v73 (Read.idx_main_v74 (Read.idx_main_v89 (Read.idx_main_v90 (ix2 n f)))) = ix2 (1 : Fin 3) f :=
    funext fun a => Fin.ext (by match a with | ⟨0, _⟩ => rfl | ⟨1, _⟩ => exact Nat.mod_eq_of_lt f.isLt)
  rw [Read.val_main_v92_apply, Read.val_main_v91_apply, Read.val_main_v88_apply, Read.val_main_v81_apply,
    Read.val_main_v70_apply, Read.val_main_v68_apply, Read.val_main_v65_apply, Read.val_main_v67_apply,
    Read.val_main_v66_apply, Read.val_main_v69_apply, Read.val_main_v80_apply, Read.val_main_v79_apply,
    Read.val_main_v76_apply, Read.val_main_v75_apply, Read.val_main_v87_apply, Read.val_main_v86_apply,
    Read.val_main_v85_apply, Read.val_main_v72_apply, Read.val_main_v71_apply, Read.val_main_v84_apply,
    Read.val_main_v83_apply, Read.val_main_v78_apply, Read.val_main_v77_apply, Read.val_main_v82_apply,
    Read.val_main_cst_9_apply, Read.val_main_v90_apply, Read.val_main_v89_apply, Read.val_main_v74_apply,
    Read.val_main_v73_apply, Read.val_main_call1_v0_apply, Read.val_main_call1_cst_apply]
  simp only [eb, el, er, el', er', emu, eg, ev, ebe, Ideal.maximumf_def, Ideal.addf_def, Ideal.subf_def, Ideal.mulf_def,
    Ideal.hostDivf_def, Ideal.hostUnary_sqrt_def, Ideal.ofBits_def]
  rfl

/-! ## The third layer -/

/-- Entry (n, f) of the third layer: the dense stage of the averaged row and the node's own row of the second layer, with row 2 of
    the four normalisation tables. -/
theorem layer2_apply (n : Fin 100000) (f : Fin 128) :
    Read.val_main_v132 (F := Ideal) x0 x1 x4 x5 x6 x7 x8 x9 x10 x11 x12 x13 x14 x15 x16 (ix2 n f)
      = Cert.Sage.denseR (fun k : Fin 128 => Read.val_main_v104 (F := Ideal) x0 x1 x4 x5 x6 x7 x8 x9 x13 x14 x15 x16 (ix2 n k))
          (fun k : Fin 128 => Read.val_main_v92 (F := Ideal) x0 x1 x4 x5 x6 x7 x8 x9 x13 x14 x15 x16 (ix2 n k))
          (fun k => x10 (ix2 k f)) (fun k => x12 (ix2 k f)) (x11 (ix1 f))
          (x13 (ix2 2 f)) (x14 (ix2 2 f)) (x15 (ix2 2 f)) (x16 (ix2 2 f)) := by
  -- the bias is read at the feature coordinate
  have eb : Read.idx_main_v106 (Read.idx_main_v107 (ix2 n f)) = ix1 f :=
    funext fun a => Fin.ext (by match a with | ⟨0, _⟩ => rfl)
  -- the two contractions run over row n of the left operand and column f of the right one
  have el : ∀ k : Fin 128, Read.lidx_main_v105 (ix2 n f) k = ix2 n k := fun k =>
    funext fun a => Fin.ext (by match a with | ⟨0, _⟩ => rfl | ⟨1, _⟩ => rfl)
  have er : ∀ k : Fin 128, Read.ridx_main_v105 (ix2 n f) k = ix2 k f := fun k =>
    funext fun a => Fin.ext (by match a with | ⟨0, _⟩ => rfl | ⟨1, _⟩ => rfl)
  have el' : ∀ k : Fin 128, Read.lidx_main_v109 (ix2 n f) k = ix2 n k := fun k =>
    funext fun a => Fin.ext (by match a with | ⟨0, _⟩ => rfl | ⟨1, _⟩ => rfl)
  have er' : ∀ k : Fin 128, Read.ridx_main_v109 (ix2 n f) k = ix2 k f := fun k =>
    funext fun a => Fin.ext (by match a with | ⟨0, _⟩ => rfl | ⟨1, _⟩ => rfl)
  -- a slice of row 2 reshaped to a vector and broadcast along the nodes reads entry (2, f) of the table
  have emu : Read.idx_main_v115 (Read.idx_main_v116 (Read.idx_main_v119 (Read.idx_main_v120 (ix2 n f)))) = ix2 (2 : Fin 3) f :=
    funext fun a => Fin.ext (by match a with | ⟨0, _⟩ => rfl | ⟨1, _⟩ => exact Nat.mod_eq_of_lt f.isLt)
  have eg : Read.idx_main_v111 (Read.idx_main_v112 (Read.idx_main_v126 (Read.idx_main_v127 (ix2 n f)))) = ix2 (2 : Fin 3) f :=
    funext fun a => Fin.ext (by match a with | ⟨0, _⟩ => rfl | ⟨1, _⟩ => exact Nat.mod_eq_of_lt f.isLt)
  have ev : Read.idx_main_v117 (Read.idx_main_v118 (Read.idx_main_v126 (Read.idx_main_v127 (ix2 n f)))) = ix2 (2 : Fin 3) f :=
    funext fun a => Fin.ext (by match a with | ⟨0, _⟩ => rfl | ⟨1, _⟩ => exact Nat.mod_eq_of_lt f.isLt)
  have ebe : Read.idx_main_v113 (Read.idx_main_v114 (Read.idx_main_v129 (Read.idx_main_v130 (ix2 n f)))) = ix2 (2 : Fin 3) f :=
    funext fun a => Fin.ext (by match a with | ⟨0, _⟩ => rfl | ⟨1, _⟩ => exact Nat.mod_eq_of_lt f.isLt)
  rw [Read.val_main_v132_apply, Read.val_main_v131_apply, Read.val_main_v128_apply, Read.val_main_v121_apply,
    Read.val_main_v110_apply, Read.val_main_v108_apply, Read.val_main_v105_apply, Read.val_main_v107_apply,
    Read.val_main_v106_apply, Read.val_main_v109_apply, Read.val_main_v120_apply, Read.val_main_v119_apply,
    Read.val_main_v116_apply, Read.val_main_v115_apply, Read.val_main_v127_apply, Read.val_main_v126_apply,
    Read.val_main_v125_apply, Read.val_main_v112_apply, Read.val_main_v111_apply, Read.val_main_v124_apply,
    Read.val_main_v123_apply, Read.val_main_v118_apply, Read.val_main_v117_apply, Read.val_main_v122_apply,
    Read.val_main_cst_13_apply, Read.val_main_v130_apply, Read.val_main_v129_apply, Read.val_main_v114_apply,
    Read.val_main_v113_apply, Read.val_main_call2_v0_apply, Read.val_main_call2_cst_apply]
  simp only [eb, el, er, el', er', emu, eg, ev, ebe, Ideal.maximumf_def, Ideal.addf_def, Ideal.subf_def, Ideal.mulf_def,
    Ideal.hostDivf_def, Ideal.hostUnary_sqrt_def, Ideal.ofBits_def]
  rfl

end Cert.ReferenceIdeal.Handd

end
-- ==== Proof.SpecLaws.lean ====
/-
  The laws of extended-real arithmetic that relate the two arrangements of Spec.lean: the bit patterns 0.0, 1.0 and 1e-5
  read as reals; the agreement of γ·(v+ε)^(-1/2) with γ/√(v+ε) for 0 ≤ v; commutativity of a three-term sum; the
  splitting of a sum over Fin (A+B), and with it the scores and the embedding from the two halves of the fused features;
  a sum weighted by an indicator; and a sum over Fin (T·R) taken tile by tile.
-/
import proofs.«416966_j75505525063863_1_alg».proof.Proof.Spec
import Mathlib.Data.EReal.Inv
import Mathlib.Logic.Equiv.Fin.Basic

noncomputable section

open scoped BigOperators

namespace Cert.Sage

open Idealize.ShloMosaic

/-- The word of 0.0 is the extended real 0. -/
theorem zero_eq : zero = 0 := by
  unfold zero; simp [Ideal.ofBits, Ideal.ieee]

/-- The normalisation's ε is a positive real. -/
theorem eps_pos : ∃ e : ℝ, 0 < e ∧ eps = (e : EReal) := by
  unfold eps
  simp [Ideal.ofBits, Ideal.ieee, -EReal.coe_mul]

/-- For 0 ≤ v the two scales agree: v + ε is a positive real or +∞, and there x^(-1/2) is the inverse of √x. -/
theorem scaleK_eq_scaleR (g v : EReal) (hv : 0 ≤ v) : scaleK g v = scaleR g v := by
  obtain ⟨e, he, hE⟩ := eps_pos
  unfold scaleK scaleR
  rw [hE]
  induction v using EReal.rec with
  | bot => exact absurd hv (by simp)
  | top =>
    rw [EReal.top_add_coe, Ideal.rsqrt_top, Ideal.sqrt_top, Ideal.div, if_neg EReal.top_ne_zero, EReal.inv_top]
  | coe r =>
    have hr : 0 ≤ r := by exact_mod_cast hv
    have hpos : 0 < r + e := by linarith
    have hs : Real.sqrt (r + e) ≠ 0 := (Real.sqrt_pos.mpr hpos).ne'
    rw [← EReal.coe_add]
    rw [Ideal.rsqrt_coe, Ideal.sqrt_coe, if_neg (not_lt.mpr hpos.le), if_neg hpos.ne', if_neg (not_lt.mpr hpos.le),
      Ideal.div, if_neg (by exact_mod_cast hs), EReal.coe_inv]

/-- A layer's entry: (A + B) + c = (A + c) + B in the commutative monoid of extended reals, and the two scales agree. -/
theorem denseK_eq_denseR {K : ℕ} (a x wl wr : Fin K → EReal) (bl g b mu v : EReal) (hv : 0 ≤ v) :
    denseK a x wl wr bl g b mu v = denseR a x wl wr bl g b mu v := by
  unfold denseK denseR
  rw [scaleK_eq_scaleR g v hv, add_right_comm]

/-- A normalised measurement: the two scales agree. -/
theorem normK_eq_normR (r g b mu v : EReal) (hv : 0 ≤ v) : normK r g b mu v = normR r g b mu v := by
  unfold normK normR
  rw [scaleK_eq_scaleR g v hv]

/-- A sum over Fin (A + B) is the sum over the first A indices plus the sum over the last B. -/
theorem aff_split {A B : ℕ} (u w : Fin (A + B) → EReal) (bias : EReal) :
    aff u w bias = affSplit (fun k => u (Fin.castAdd B k)) (fun k => w (Fin.castAdd B k))
      (fun k => u (Fin.natAdd A k)) (fun k => w (Fin.natAdd A k)) bias := by
  unfold aff affSplit
  rw [Fin.sum_univ_add]

/-- A sum weighted by an indicator (1 on P, 0 off P) is the sum over the indices in P: 1·x = x and 0·x = 0 for every
    extended real x. -/
theorem sum_hot {N : ℕ} (P : Fin N → Prop) [DecidablePred P] (f : Fin N → EReal) :
    (∑ n, (if P n then (1 : EReal) else 0) * f n) = ∑ n ∈ Finset.univ.filter P, f n := by
  rw [Finset.sum_filter]
  refine Finset.sum_congr rfl fun n _ => ?_
  split_ifs <;> simp

/-- A sum over Fin (T·R) is the sum over the T tiles of the sums over the R indices of each tile: re-indexing along
    the bijection (t, r) ↦ t·R + r. -/
theorem sum_tiles (T R : ℕ) (f : Fin (T * R) → EReal) :
    (∑ n, f n) = ∑ t : Fin T, ∑ r : Fin R, f ⟨t.val * R + r.val, by
      calc t.val * R + r.val < t.val * R + R := Nat.add_lt_add_left r.isLt _
        _ = (t.val + 1) * R := (Nat.succ_mul _ _).symm
        _ ≤ T * R := Nat.mul_le_mul_right _ t.isLt⟩ := by
  rw [← Fintype.sum_prod_type', ← (finProdFinEquiv).sum_comp]
  refine Finset.sum_congr rfl fun p _ => ?_
  congr 1
  apply Fin.ext
  simp [finProdFinEquiv]
  ring

/-- The word of 1.0 is the extended real 1. -/
theorem one_eq : one = 1 := by
  unfold one; simp [Ideal.ofBits, Ideal.ieee, -EReal.coe_mul]; norm_num

/-- The half-width word of 1.0 is the extended real 1. -/
theorem bf16_one_eq : Ideal.ofBits .bf16 0x3F80#16 = (1 : EReal) := by
  simp [Ideal.ofBits, Ideal.ieee, -EReal.coe_mul]; norm_num

/-- The scores: the first affine map's sum over the 173 fused features splits into the first 128 and the last 45. -/
theorem logitsR_eq_logitsK (fused : Fin (128 + 45) → EReal) (c1W : Fin (128 + 45) → Fin 64 → EReal) (c1b : Fin 64 → EReal)
    (c2W : Fin 64 → Fin 32 → EReal) (c2b : Fin 32 → EReal) (c3W : Fin 32 → Fin 2 → EReal) (c3b : Fin 2 → EReal)
    (j : Fin 2) :
    logitsR fused c1W c1b c2W c2b c3W c3b j
      = logitsK (fun k => fused (Fin.castAdd 45 k)) (fun k => fused (Fin.natAdd 128 k))
          (fun k => c1W (Fin.castAdd 45 k)) (fun k => c1W (Fin.natAdd 128 k)) c1b c2W c2b c3W c3b j := by
  unfold logitsR logitsK
  refine congrArg (fun F : Fin 64 → EReal =>
    aff (fun k2 => relu (aff F (fun k1 => c2W k1 k2) (c2b k2))) (fun k2 => c3W k2 j) (c3b j)) ?_
  funext k1
  exact congrArg relu (aff_split (A := 128) (B := 45) fused (fun k => c1W k k1) (c1b k1))

/-- The embedding: its sum over the 173 fused features splits into the first 128 and the last 45. -/
theorem embR_eq_embK (fused : Fin (128 + 45) → EReal) (eW : Fin (128 + 45) → Fin 173 → EReal) (eb : Fin 173 → EReal)
    (j : Fin 173) :
    embR fused eW eb j
      = embK (fun k => fused (Fin.castAdd 45 k)) (fun k => fused (Fin.natAdd 128 k))
          (fun k => eW (Fin.castAdd 45 k)) (fun k => eW (Fin.natAdd 128 k)) eb j := by
  unfold embR embK
  exact aff_split (A := 128) (B := 45) fused (fun k => eW k j) (eb j)

end Cert.Sage

end
-- ==== Proof.BridgeNode.lean ====
/-
  The node features of the two programs are the same arrays, layer by layer.

  Each layer's output entry (n, f) is, on the kernel's side, the dense stage of row n of the aggregate and row n of the
  previous layer against column f of the two weight matrices, with the scale γ·(v+ε)^(-1/2); on the reference's side
  the same with the bias added before the second contraction and the scale γ/√(v+ε). The two agree because 0 ≤ v
  (the precondition's last conjuncts), and the aggregate is one and the same function of the previous layer's array
  and of the edge list in the two programs, so equality of one layer's arrays carries to the next.
-/
import proofs.«416966_j75505525063863_1_alg».proof.Proof.KLayer0
import proofs.«416966_j75505525063863_1_alg».proof.Proof.KLayer1
import proofs.«416966_j75505525063863_1_alg».proof.Proof.KLayer2
import proofs.«416966_j75505525063863_1_alg».proof.Proof.KLeaves
import proofs.«416966_j75505525063863_1_alg».proof.Proof.RefNode
import proofs.«416966_j75505525063863_1_alg».proof.Proof.SpecLaws

set_option maxRecDepth 16384

noncomputable section

namespace Cert.Bridge

open Cert.KernelIdeal Cert.KernelIdeal.Gen Idealize.ShloMosaic Idealize.ShloMosaic.TcCoe Idealize.SL.Sem
open Idealize.ShloMosaic.ValueIdx

/-- The kernel program's aggregate of 64-feature rows is the reference's: the same operations on the same operands. -/
theorem aggK64_eq (h : Vec Ideal S100000x64 .f32) (ei : IVec S2x1600000 32) :
    Cert.KernelIdeal.Leaves.aggK64 h ei = Cert.ReferenceIdeal.Handd.agg64 h ei := by
  unfold Cert.KernelIdeal.Leaves.aggK64 Cert.ReferenceIdeal.Handd.agg64
  rfl

/-- The same for 128-feature rows. -/
theorem aggK128_eq (h : Vec Ideal S100000x128 .f32) (ei : IVec S2x1600000 32) :
    Cert.KernelIdeal.Leaves.aggK128 h ei = Cert.ReferenceIdeal.Handd.agg128 h ei := by
  unfold Cert.KernelIdeal.Leaves.aggK128 Cert.ReferenceIdeal.Handd.agg128
  rfl

/-- The dense stage is a function of its nine arguments: equal rows, columns and scalars give equal entries. -/
theorem denseK_congr {K : ℕ} {a a' x x' wl wl' wr wr' : Fin K → EReal} {bl bl' g g' b b' mu mu' v v' : EReal}
    (ha : ∀ k, a k = a' k) (hx : ∀ k, x k = x' k) (hwl : ∀ k, wl k = wl' k) (hwr : ∀ k, wr k = wr' k)
    (hbl : bl = bl') (hg : g = g') (hb : b = b') (hmu : mu = mu') (hv : v = v') :
    Cert.Sage.denseK a x wl wr bl g b mu v = Cert.Sage.denseK a' x' wl' wr' bl' g' b' mu' v' := by
  obtain rfl : a = a' := funext ha
  obtain rfl : x = x' := funext hx
  obtain rfl : wl = wl' := funext hwl
  obtain rfl : wr = wr' := funext hwr
  subst hbl hg hb hmu hv
  rfl

variable (m : (ℓ : Loc nD τ sig) → Buf (Elt Ideal) ℓ) (ρ : Dev nD → PrngReg) (c : Dev nD)
variable (hv : ∀ i, (0 : EReal) ≤ (m ((c.tc : Thread nD τ).loc main_arg16)) i)

include hv

/-- After the first region the kernel's node array is the reference's first layer. -/
theorem node1 : (dat0 (F := Ideal) (V1 m ρ) c).arrAt 9 cfg0.N
    = Cert.ReferenceIdeal.Read.val_main_v52 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) (m ((c.tc : Thread nD τ).loc main_arg16)) := by
  funext i
  obtain ⟨n, f, rfl⟩ : ∃ (n : Fin 100000) (f : Fin 128), i = ix2 n f := ⟨i 0, i 1, eq_ix2 i⟩
  -- the kernel's entry, the reference's entry, and the two arrangements of the dense stage
  refine (Cert.KernelIdeal.Handa0.final_apply (V1 m ρ) c n f).trans ?_
  refine Eq.trans ?_ (Cert.ReferenceIdeal.Handd.layer0_apply _ _ _ _ _ _ _ _ _ n f).symm
  refine Eq.trans ?_ (Cert.Sage.denseK_eq_denseR _ _ _ _ _ _ _ _ _ (hv _))
  -- argument by argument: what the region finds in its nine operand arrays
  refine denseK_congr (fun k => ?_) (fun k => ?_) (fun k => ?_) (fun k => ?_) ?_ ?_ ?_ ?_ ?_
  · refine (congrFun (Cert.KernelIdeal.Leaves.V1_agg m ρ c) (ix2 n k)).trans ?_
    refine (congrFun (aggK64_eq _ _) (ix2 n k)).trans ?_
    exact (congrFun (Cert.ReferenceIdeal.Handd.agg0_eq _ _) (ix2 n k)).symm
  · exact congrFun (Cert.KernelIdeal.Leaves.V1_arg0 m ρ c) (ix2 n k)
  · exact congrFun (Cert.KernelIdeal.Leaves.V1_arg4 m ρ c) (ix2 k f)
  · exact congrFun (Cert.KernelIdeal.Leaves.V1_arg6 m ρ c) (ix2 k f)
  · exact Cert.KernelIdeal.Leaves.V1_v49 m ρ c f
  · exact Cert.KernelIdeal.Leaves.V1_v50 m ρ c f
  · exact Cert.KernelIdeal.Leaves.V1_v51 m ρ c f
  · exact Cert.KernelIdeal.Leaves.V1_v52 m ρ c f
  · exact Cert.KernelIdeal.Leaves.V1_v53 m ρ c f

/-- After the second region the kernel's node array is the reference's second layer. -/
theorem node2 : (dat1 (F := Ideal) (V3 m ρ) c).arrAt 9 cfg1.N
    = Cert.ReferenceIdeal.Read.val_main_v92 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15)) (m ((c.tc : Thread nD τ).loc main_arg16)) := by
  funext i
  obtain ⟨n, f, rfl⟩ : ∃ (n : Fin 100000) (f : Fin 128), i = ix2 n f := ⟨i 0, i 1, eq_ix2 i⟩
  -- the first layer's array, as the second region finds it
  have prev : W2 m ρ c (Proc.devRef .tc main_v54)
      = Cert.ReferenceIdeal.Read.val_main_v52 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) (m ((c.tc : Thread nD τ).loc main_arg16)) :=
    (Cert.KernelIdeal.Leaves.W2_v54 m ρ c).trans (node1 m ρ c hv)
  refine (Cert.KernelIdeal.Handa1.final_apply (V3 m ρ) c n f).trans ?_
  refine Eq.trans ?_ (Cert.ReferenceIdeal.Handd.layer1_apply _ _ _ _ _ _ _ _ _ _ _ _ n f).symm
  refine Eq.trans ?_ (Cert.Sage.denseK_eq_denseR _ _ _ _ _ _ _ _ _ (hv _))
  refine denseK_congr (fun k => ?_) (fun k => ?_) (fun k => ?_) (fun k => ?_) ?_ ?_ ?_ ?_ ?_
  · refine (congrFun (Cert.KernelIdeal.Leaves.V3_agg m ρ c) (ix2 n k)).trans ?_
    refine (congrFun (congrArg (fun h : Vec Ideal S100000x128 .f32 =>
      Cert.KernelIdeal.Leaves.aggK128 h (m ((c.tc : Thread nD τ).loc main_arg1))) prev) (ix2 n k)).trans ?_
    refine (congrFun (aggK128_eq _ _) (ix2 n k)).trans ?_
    exact (congrFun (Cert.ReferenceIdeal.Handd.agg1_eq _ _ _ _ _ _ _ _ _) (ix2 n k)).symm
  · exact congrFun ((Cert.KernelIdeal.Leaves.V3_v54 m ρ c).trans prev) (ix2 n k)
  · exact congrFun (Cert.KernelIdeal.Leaves.V3_arg7 m ρ c) (ix2 k f)
  · exact congrFun (Cert.KernelIdeal.Leaves.V3_arg9 m ρ c) (ix2 k f)
  · exact Cert.KernelIdeal.Leaves.V3_v67 m ρ c f
  · exact Cert.KernelIdeal.Leaves.V3_v68 m ρ c f
  · exact Cert.KernelIdeal.Leaves.V3_v69 m ρ c f
  · exact Cert.KernelIdeal.Leaves.V3_v70 m ρ c f
  · exact Cert.KernelIdeal.Leaves.V3_v71 m ρ c f

/-- After the third region the kernel's node array is the reference's third layer. -/
theorem node3 : (dat2 (F := Ideal) (V5 m ρ) c).arrAt 9 cfg2.N
    = Cert.ReferenceIdeal.Read.val_main_v132 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  funext i
  obtain ⟨n, f, rfl⟩ : ∃ (n : Fin 100000) (f : Fin 128), i = ix2 n f := ⟨i 0, i 1, eq_ix2 i⟩
  -- the second layer's array, as the third region finds it
  have prev : W4 m ρ c (Proc.devRef .tc main_v72)
      = Cert.ReferenceIdeal.Read.val_main_v92 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15)) (m ((c.tc : Thread nD τ).loc main_arg16)) :=
    (Cert.KernelIdeal.Leaves.W4_v72 m ρ c).trans (node2 m ρ c hv)
  refine (Cert.KernelIdeal.Handa2.final_apply (V5 m ρ) c n f).trans ?_
  refine Eq.trans ?_ (Cert.ReferenceIdeal.Handd.layer2_apply _ _ _ _ _ _ _ _ _ _ _ _ _ _ _ n f).symm
  refine Eq.trans ?_ (Cert.Sage.denseK_eq_denseR _ _ _ _ _ _ _ _ _ (hv _))
  refine denseK_congr (fun k => ?_) (fun k => ?_) (fun k => ?_) (fun k => ?_) ?_ ?_ ?_ ?_ ?_
  · refine (congrFun (Cert.KernelIdeal.Leaves.V5_agg m ρ c) (ix2 n k)).trans ?_
    refine (congrFun (congrArg (fun h : Vec Ideal S100000x128 .f32 =>
      Cert.KernelIdeal.Leaves.aggK128 h (m ((c.tc : Thread nD τ).loc main_arg1))) prev) (ix2 n k)).trans ?_
    refine (congrFun (aggK128_eq _ _) (ix2 n k)).trans ?_
    exact (congrFun (Cert.ReferenceIdeal.Handd.agg2_eq _ _ _ _ _ _ _ _ _ _ _ _) (ix2 n k)).symm
  · exact congrFun ((Cert.KernelIdeal.Leaves.V5_v72 m ρ c).trans prev) (ix2 n k)
  · exact congrFun (Cert.KernelIdeal.Leaves.V5_arg10 m ρ c) (ix2 k f)
  · exact congrFun (Cert.KernelIdeal.Leaves.V5_arg12 m ρ c) (ix2 k f)
  · exact Cert.KernelIdeal.Leaves.V5_v85 m ρ c f
  · exact Cert.KernelIdeal.Leaves.V5_v86 m ρ c f
  · exact Cert.KernelIdeal.Leaves.V5_v87 m ρ c f
  · exact Cert.KernelIdeal.Leaves.V5_v88 m ρ c f
  · exact Cert.KernelIdeal.Leaves.V5_v89 m ρ c f

/-- The node features the program returns are the third layer's array, still in place at the end: the reference's
    third layer. -/
theorem node_result : W10 m ρ c (Proc.devRef .tc main_v90)
    = Cert.ReferenceIdeal.Read.val_main_v132 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (Cert.KernelIdeal.Leaves.W10_v90 m ρ c).trans (node3 m ρ c hv)

end Cert.Bridge

end
-- ==== Proof.KHead.lean ====
/-
  The head of the network, one output entry at a time: the value of the two arrays the last region writes — the two-class
  scores [512, 2] and the embedding [512, 173] — at an index (p, j), as a formula in the arrays the region reads, for
  arbitrary contents of those arrays.

  For graph p the region forms its pooled means (the graph's feature sums over its node count clipped below at 1: 128
  entries) and its normalised measurements ((r − μ)·γ·(v+ε)^(-1/2) + β: 45 entries). The scores are three affine maps of these
  173 fused features with a clip below at 0 after the first two, the first map contracting the two halves against the top
  128 and the bottom 45 rows of its weight separately; the embedding is one affine map, contracted the same way. Every
  product accumulates into zero, so at an index it is the plain sum over the contracted coordinate.

  The grid has one point and every window's block is its whole array: what the point reads is the arrays as the region
  finds them, and what it writes back is the whole of each result.
-/
import proofs.«416966_j75505525063863_1_alg».proof.Proof.Gen.KernelIdeal.Frame
import proofs.«416966_j75505525063863_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Handc

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- A column [a, 1] broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row-by-column product into a zero accumulator, at an index

For dimension numbers that contract the left operand's axis 1 with the right operand's axis 0 and have no batch axis, the
left operand's index at output (p, q) and contraction position k is (p, k), the right operand's (k, q). -/

section RowByColumn
variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
include hlc hrc hln hrn hlb hrb

theorem contr_rank : D.contr.rank = 1 := by rw [D.rank_contr, hlc]; rfl

theorem lhs_row (i : (⟨2, ![M, N]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (i ⟨a, ha⟩).val = (i ⟨b, hb⟩).val :=
    fun a b ha hb h => by subst h; rfl
  exact key _ _ _ _ (by simp [hlb, hln])

theorem rhs_col (i : (⟨2, ![M, N]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (i ⟨a, ha⟩).val = (i ⟨b, hb⟩).val :=
    fun a b ha hb h => by subst h; rfl
  exact key _ _ _ _ (by simp [hlb, hln, hrn])

theorem contr_size : D.contr.size ⟨0, by rw [contr_rank D hlc hrc hln hrn hlb hrb]; exact Nat.one_pos⟩ = K := by
  have h := D.size_contr 0 (by rw [hlc]; exact Nat.one_pos)
  rw [h]
  simp only [hlc]
  rfl

/-- The product at (p, q): the sum over the contracted coordinate of row p of the left operand times column q of the right. -/
theorem matmul_zero_apply {φ₁ φ₂ : FTy} (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ k : Fin K, l (ix2 p k) * r (ix2 k q) := by
  have hr := contr_rank D hlc hrc hln hrn hlb hrb
  have hs := contr_size D hlc hrc hln hrn hlb hrb
  refine (Ideal.matmul_constant_zero_apply D none l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hlc hrc hln hrn hlb hrb _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhs_col D hlc hrc hln hrn hlb hrb _ _)
  rw [el, er]

end RowByColumn

/-- The pooled mean of graph p at feature k: the graph's sum over its node count clipped below at 1. -/
theorem pooled_apply (v0 : Vec Ideal S512x128 .f32) (v2 : Vec Ideal S512x1 .f32) (p : Fin 512) (k : Fin 128) :
    (k4_pay1 (F := Ideal) v0 v2) (ix2 p k) = Cert.Sage.meanOf (v0 (ix2 p k)) (v2 (ix2 p 0)) := by
  unfold k4_pay1
  rw [truncf_apply, divf_apply, shapeCast_self, shapeCast_self, broadcastTo_a1_ab_apply, maximumf_apply, broadcast_apply]
  rfl

/-- The normalised measurement k of graph p: (r − μ)·(γ·(v+ε)^(-1/2)) + β. -/
theorem normed_apply (v8 : Vec Ideal S512x45 .f32) (v9 v11 v17 v23 : Vec Ideal S1x45 .f32) (p : Fin 512) (k : Fin 45) :
    (k4_pay2 (F := Ideal) v8 v9 v11 v17 v23) (ix2 p k)
      = Cert.Sage.normK (v8 (ix2 p k)) (v9 (ix2 0 k)) (v23 (ix2 0 k)) (v17 (ix2 0 k)) (v11 (ix2 0 k)) := by
  unfold k4_pay2
  simp only [truncf_apply, addf_apply, mulf_apply, subf_apply, broadcastTo_1b_ab_apply, shapeCast_self]
  rfl

/-! ## The body's values at an index -/

/-- The first layer's product of the pooled means with the top rows of its weight, at (p, k1). -/
theorem hidden_top_apply (v0 : Vec Ideal S512x128 .f32) (v2 : Vec Ideal S512x1 .f32) (v29 : Vec Ideal S128x64 .f32)
    (p : Fin 512) (k1 : Fin 64) :
    (k4_pay3 (F := Ideal) v0 v2 v29) (ix2 p k1)
      = ∑ k : Fin 128, (k4_pay1 (F := Ideal) v0 v2) (ix2 p k) * v29 (ix2 k k1) := by
  unfold k4_pay3
  refine (matmul_zero_apply dot_S512x128_S128x64_S512x64_1_0_0_1_n_n rfl rfl rfl rfl rfl rfl _ _ p k1).trans ?_
  simp only [truncf_apply, shapeCast_self]

/-- The first layer's product of the normalised measurements with the bottom rows of its weight, at (p, k1). -/
theorem hidden_bot_apply (v8 : Vec Ideal S512x45 .f32) (v9 v11 v17 v23 : Vec Ideal S1x45 .f32) (v33 : Vec Ideal S45x64 .f32)
    (p : Fin 512) (k1 : Fin 64) :
    (k4_pay4 (F := Ideal) v8 v9 v11 v17 v23 v33) (ix2 p k1)
      = ∑ k : Fin 45, (k4_pay2 (F := Ideal) v8 v9 v11 v17 v23) (ix2 p k) * v33 (ix2 k k1) := by
  unfold k4_pay4
  refine (matmul_zero_apply dot_S512x45_S45x64_S512x64_1_0_0_1_n_n rfl rfl rfl rfl rfl rfl _ _ p k1).trans ?_
  simp only [truncf_apply, shapeCast_self]

/-- The scores at (p, j) from the two first-layer products: bias and clip, the second affine map and clip, the third. -/
theorem scores_apply (v32 v36 : FVec Ideal S512x64 .f32) (v38 : Vec Ideal S1x64 .f32) (v45 : Vec Ideal S64x32 .f32)
    (v48 : Vec Ideal S1x32 .f32) (v55 : Vec Ideal S32x2 .f32) (v58 : Vec Ideal S1x2 .f32) (p : Fin 512) (j : Fin 2) :
    (k4_pay5 (F := Ideal) v32 v36 v38 v45 v48 v55 v58) (ix2 p j)
      = Cert.Sage.aff (fun k2 : Fin 32 => Cert.Sage.relu (Cert.Sage.aff
          (fun k1 : Fin 64 => Cert.Sage.relu ((v32 (ix2 p k1) + v36 (ix2 p k1)) + v38 (ix2 0 k1)))
          (fun k1 => v45 (ix2 k1 k2)) (v48 (ix2 0 k2)))) (fun k2 => v55 (ix2 k2 j)) (v58 (ix2 0 j)) := by
  unfold k4_pay5
  rw [addf_apply]
  rw [matmul_zero_apply dot_S512x32_S32x2_S512x2_1_0_0_1_n_n rfl rfl rfl rfl rfl rfl _ _ p j]
  simp only [truncf_apply, maximumf_apply, addf_apply, broadcast_apply, broadcastTo_1b_ab_apply, shapeCast_self,
    matmul_zero_apply dot_S512x64_S64x32_S512x32_1_0_0_1_n_n rfl rfl rfl rfl rfl rfl]
  rfl

/-- The embedding at (p, j) from the pooled means and the normalised measurements: the two products and the bias. -/
theorem embedding_apply (v27 : FVec Ideal S512x128 .bf16) (v28 : FVec Ideal S512x45 .bf16) (v62 : Vec Ideal S128x173 .f32)
    (v66 : Vec Ideal S45x173 .f32) (v71 : Vec Ideal S1x173 .f32) (p : Fin 512) (j : Fin 173) :
    (k4_pay6 (F := Ideal) v27 v28 v62 v66 v71) (ix2 p j)
      = Cert.Sage.affSplit (fun k : Fin 128 => v27 (ix2 p k)) (fun k => v62 (ix2 k j))
          (fun k : Fin 45 => v28 (ix2 p k)) (fun k => v66 (ix2 k j)) (v71 (ix2 0 j)) := by
  unfold k4_pay6
  rw [addf_apply, addf_apply,
    matmul_zero_apply dot_S512x128_S128x173_S512x173_1_0_0_1_n_n rfl rfl rfl rfl rfl rfl _ _ p j,
    matmul_zero_apply dot_S512x45_S45x173_S512x173_1_0_0_1_n_n rfl rfl rfl rfl rfl rfl _ _ p j]
  simp only [truncf_apply, broadcastTo_1b_ab_apply, shapeCast_self]
  rfl

/-! ## The two results as functions of the arrays the region reads

Graph p's fused features are its pooled means (128) and its normalised measurements (45); the scores and the embedding are
affine maps of them, row p of each result depending on row p of the sums, the counts and the measurements only. -/

/-- Row p of the pooled means. -/
abbrev pooledRow (a0 : Vec Ideal S512x128 .f32) (a1 : Vec Ideal S512x1 .f32) (p : Fin 512) : Fin 128 → EReal :=
  fun k => Cert.Sage.meanOf (a0 (ix2 p k)) (a1 (ix2 p 0))

/-- Row p of the normalised measurements (γ, β, μ, variance in that order). -/
abbrev normedRow (a2 : Vec Ideal S512x45 .f32) (a3 a4 a5 a6 : Vec Ideal S1x45 .f32) (p : Fin 512) : Fin 45 → EReal :=
  fun k => Cert.Sage.normK (a2 (ix2 p k)) (a3 (ix2 0 k)) (a4 (ix2 0 k)) (a5 (ix2 0 k)) (a6 (ix2 0 k))

/-- The scores array. -/
def scoresOf (a0 : Vec Ideal S512x128 .f32) (a1 : Vec Ideal S512x1 .f32) (a2 : Vec Ideal S512x45 .f32)
    (a3 a4 a5 a6 : Vec Ideal S1x45 .f32) (a7 : Vec Ideal S128x64 .f32) (a8 : Vec Ideal S45x64 .f32) (a9 : Vec Ideal S1x64 .f32)
    (a10 : Vec Ideal S64x32 .f32) (a11 : Vec Ideal S1x32 .f32) (a12 : Vec Ideal S32x2 .f32) (a13 : Vec Ideal S1x2 .f32) :
    Vec Ideal S512x2 .f32 :=
  fun i => Cert.Sage.logitsK (pooledRow a0 a1 (i 0)) (normedRow a2 a3 a4 a5 a6 (i 0)) (fun k k1 => a7 (ix2 k k1))
    (fun k k1 => a8 (ix2 k k1)) (fun k1 => a9 (ix2 0 k1)) (fun k1 k2 => a10 (ix2 k1 k2)) (fun k2 => a11 (ix2 0 k2))
    (fun k2 j' => a12 (ix2 k2 j')) (fun j' => a13 (ix2 0 j')) (i 1)

/-- The embedding array. -/
def embOf (a0 : Vec Ideal S512x128 .f32) (a1 : Vec Ideal S512x1 .f32) (a2 : Vec Ideal S512x45 .f32)
    (a3 a4 a5 a6 : Vec Ideal S1x45 .f32) (a14 : Vec Ideal S128x173 .f32) (a15 : Vec Ideal S45x173 .f32)
    (a16 : Vec Ideal S1x173 .f32) : Vec Ideal S512x173 .f32 :=
  fun i => Cert.Sage.embK (pooledRow a0 a1 (i 0)) (normedRow a2 a3 a4 a5 a6 (i 0)) (fun k j' => a14 (ix2 k j'))
    (fun k j' => a15 (ix2 k j')) (fun j' => a16 (ix2 0 j')) (i 1)

/-- What the body leaves in the scores' buffer, from the input blocks. -/
theorem out_scores (x0 : Vec Ideal S512x128 .f32) (x1 : Vec Ideal S512x1 .f32) (x2 : Vec Ideal S512x45 .f32)
    (x3 x4 x5 x6 : Vec Ideal S1x45 .f32) (x7 : Vec Ideal S128x64 .f32) (x8 : Vec Ideal S45x64 .f32) (x9 : Vec Ideal S1x64 .f32)
    (x10 : Vec Ideal S64x32 .f32) (x11 : Vec Ideal S1x32 .f32) (x12 : Vec Ideal S32x2 .f32) (x13 : Vec Ideal S1x2 .f32)
    (x14 : Vec Ideal S128x173 .f32) (x15 : Vec Ideal S45x173 .f32) (x16 : Vec Ideal S1x173 .f32) :
    out4_17 (F := Ideal) x0 x1 x2 x3 x4 x5 x6 x7 x8 x9 x10 x11 x12 x13 x14 x15 x16
      = scoresOf x0 x1 x2 x3 x4 x5 x6 x7 x8 x9 x10 x11 x12 x13 := by
  unfold out4_17
  rw [View.canon_unit_zero hz]
  simp only [View.ld_unit_zero (S := S512x128) hz, View.ld_unit_zero (S := S512x1) hz, View.ld_unit_zero (S := S512x45) hz,
    View.ld_unit_zero (S := S1x45) hz, View.ld_unit_zero (S := S128x64) hz, View.ld_unit_zero (S := S45x64) hz,
    View.ld_unit_zero (S := S1x64) hz, View.ld_unit_zero (S := S64x32) hz, View.ld_unit_zero (S := S1x32) hz,
    View.ld_unit_zero (S := S32x2) hz, View.ld_unit_zero (S := S1x2) hz]
  funext i
  obtain ⟨p, j, rfl⟩ : ∃ (p : Fin 512) (j : Fin 2), i = ix2 p j := ⟨i 0, i 1, eq_ix2 i⟩
  rw [scores_apply]
  show _ = Cert.Sage.logitsK (pooledRow x0 x1 p) (normedRow x2 x3 x4 x5 x6 p) _ _ _ _ _ _ _ j
  unfold Cert.Sage.logitsK Cert.Sage.affSplit
  simp only [hidden_top_apply, hidden_bot_apply, pooled_apply, normed_apply]

/-- What the body leaves in the embedding's buffer, from the input blocks. -/
theorem out_emb (x0 : Vec Ideal S512x128 .f32) (x1 : Vec Ideal S512x1 .f32) (x2 : Vec Ideal S512x45 .f32)
    (x3 x4 x5 x6 : Vec Ideal S1x45 .f32) (x7 : Vec Ideal S128x64 .f32) (x8 : Vec Ideal S45x64 .f32) (x9 : Vec Ideal S1x64 .f32)
    (x10 : Vec Ideal S64x32 .f32) (x11 : Vec Ideal S1x32 .f32) (x12 : Vec Ideal S32x2 .f32) (x13 : Vec Ideal S1x2 .f32)
    (x14 : Vec Ideal S128x173 .f32) (x15 : Vec Ideal S45x173 .f32) (x16 : Vec Ideal S1x173 .f32) :
    out4_18 (F := Ideal) x0 x1 x2 x3 x4 x5 x6 x7 x8 x9 x10 x11 x12 x13 x14 x15 x16
      = embOf x0 x1 x2 x3 x4 x5 x6 x14 x15 x16 := by
  unfold out4_18
  rw [View.canon_unit_zero hz]
  simp only [View.ld_unit_zero (S := S512x128) hz, View.ld_unit_zero (S := S512x1) hz, View.ld_unit_zero (S := S512x45) hz,
    View.ld_unit_zero (S := S1x45) hz, View.ld_unit_zero (S := S128x173) hz, View.ld_unit_zero (S := S45x173) hz,
    View.ld_unit_zero (S := S1x173) hz]
  funext i
  obtain ⟨p, j, rfl⟩ : ∃ (p : Fin 512) (j : Fin 173), i = ix2 p j := ⟨i 0, i 1, eq_ix2 i⟩
  rw [embedding_apply]
  show _ = Cert.Sage.embK (pooledRow x0 x1 p) (normedRow x2 x3 x4 x5 x6 p) _ _ _ j
  unfold Cert.Sage.embK
  simp only [pooled_apply, normed_apply]

/-- Equal arrays give equal scores. -/
theorem scoresOf_congr {x0 a0 : Vec Ideal S512x128 .f32} {x1 a1 : Vec Ideal S512x1 .f32} {x2 a2 : Vec Ideal S512x45 .f32}
    {x3 a3 x4 a4 x5 a5 x6 a6 : Vec Ideal S1x45 .f32} {x7 a7 : Vec Ideal S128x64 .f32} {x8 a8 : Vec Ideal S45x64 .f32}
    {x9 a9 : Vec Ideal S1x64 .f32} {x10 a10 : Vec Ideal S64x32 .f32} {x11 a11 : Vec Ideal S1x32 .f32}
    {x12 a12 : Vec Ideal S32x2 .f32} {x13 a13 : Vec Ideal S1x2 .f32}
    (h0 : x0 = a0) (h1 : x1 = a1) (h2 : x2 = a2) (h3 : x3 = a3) (h4 : x4 = a4) (h5 : x5 = a5) (h6 : x6 = a6) (h7 : x7 = a7)
    (h8 : x8 = a8) (h9 : x9 = a9) (h10 : x10 = a10) (h11 : x11 = a11) (h12 : x12 = a12) (h13 : x13 = a13) :
    scoresOf x0 x1 x2 x3 x4 x5 x6 x7 x8 x9 x10 x11 x12 x13 = scoresOf a0 a1 a2 a3 a4 a5 a6 a7 a8 a9 a10 a11 a12 a13 := by
  subst h0 h1 h2 h3 h4 h5 h6 h7 h8 h9 h10 h11 h12 h13; rfl

/-- Equal arrays give equal embeddings. -/
theorem embOf_congr {x0 a0 : Vec Ideal S512x128 .f32} {x1 a1 : Vec Ideal S512x1 .f32} {x2 a2 : Vec Ideal S512x45 .f32}
    {x3 a3 x4 a4 x5 a5 x6 a6 : Vec Ideal S1x45 .f32} {x14 a14 : Vec Ideal S128x173 .f32} {x15 a15 : Vec Ideal S45x173 .f32}
    {x16 a16 : Vec Ideal S1x173 .f32}
    (h0 : x0 = a0) (h1 : x1 = a1) (h2 : x2 = a2) (h3 : x3 = a3) (h4 : x4 = a4) (h5 : x5 = a5) (h6 : x6 = a6)
    (h14 : x14 = a14) (h15 : x15 = a15) (h16 : x16 = a16) :
    embOf x0 x1 x2 x3 x4 x5 x6 x14 x15 x16 = embOf a0 a1 a2 a3 a4 a5 a6 a14 a15 a16 := by
  subst h0 h1 h2 h3 h4 h5 h6 h14 h15 h16; rfl

/-! ## From the blocks to the arrays

The grid has one point and every window's index map is constantly (0, 0), so each window's block is its whole array:
an input block read through the window is the array as the region finds it, and the one write-back writes the whole result. -/

variable (V : (c : Dev nD) → (b : Ref sig .tc) → Buf (Elt Ideal) ((c : Thread nD τ).loc b))

theorem iblk_sums (c : Dev nD) (t : Fin cfg4.N) : (iblk4 V c 0 t : Vec Ideal S512x128 .f32) = V c main_v92_0 :=
  Memref.read_access_unit_zero (Elt Ideal) main_v92_0 (off := fun a => win4_0.index t a * S512x128.size a)
    (funext fun a => by fin_cases a <;> rfl) _ (V c main_v92_0)
theorem iblk_counts (c : Dev nD) (t : Fin cfg4.N) : (iblk4 V c 1 t : Vec Ideal S512x1 .f32) = V c main_v92_1 :=
  Memref.read_access_unit_zero (Elt Ideal) main_v92_1 (off := fun a => win4_1.index t a * S512x1.size a)
    (funext fun a => by fin_cases a <;> rfl) _ (V c main_v92_1)
theorem iblk_meas (c : Dev nD) (t : Fin cfg4.N) : (iblk4 V c 2 t : Vec Ideal S512x45 .f32) = V c main_arg3 :=
  Memref.read_access_unit_zero (Elt Ideal) main_arg3 (off := fun a => win4_2.index t a * S512x45.size a)
    (funext fun a => by fin_cases a <;> rfl) _ (V c main_arg3)
theorem iblk_gamma (c : Dev nD) (t : Fin cfg4.N) : (iblk4 V c 3 t : Vec Ideal S1x45 .f32) = V c main_v97 :=
  Memref.read_access_unit_zero (Elt Ideal) main_v97 (off := fun a => win4_3.index t a * S1x45.size a)
    (funext fun a => by fin_cases a <;> rfl) _ (V c main_v97)
theorem iblk_beta (c : Dev nD) (t : Fin cfg4.N) : (iblk4 V c 4 t : Vec Ideal S1x45 .f32) = V c main_v98 :=
  Memref.read_access_unit_zero (Elt Ideal) main_v98 (off := fun a => win4_4.index t a * S1x45.size a)
    (funext fun a => by fin_cases a <;> rfl) _ (V c main_v98)
theorem iblk_mu (c : Dev nD) (t : Fin cfg4.N) : (iblk4 V c 5 t : Vec Ideal S1x45 .f32) = V c main_v99 :=
  Memref.read_access_unit_zero (Elt Ideal) main_v99 (off := fun a => win4_5.index t a * S1x45.size a)
    (funext fun a => by fin_cases a <;> rfl) _ (V c main_v99)
theorem iblk_var (c : Dev nD) (t : Fin cfg4.N) : (iblk4 V c 6 t : Vec Ideal S1x45 .f32) = V c main_v100 :=
  Memref.read_access_unit_zero (Elt Ideal) main_v100 (off := fun a => win4_6.index t a * S1x45.size a)
    (funext fun a => by fin_cases a <;> rfl) _ (V c main_v100)
theorem iblk_w1top (c : Dev nD) (t : Fin cfg4.N) : (iblk4 V c 7 t : Vec Ideal S128x64 .f32) = V c main_v93 :=
  Memref.read_access_unit_zero (Elt Ideal) main_v93 (off := fun a => win4_7.index t a * S128x64.size a)
    (funext fun a => by fin_cases a <;> rfl) _ (V c main_v93)
theorem iblk_w1bot (c : Dev nD) (t : Fin cfg4.N) : (iblk4 V c 8 t : Vec Ideal S45x64 .f32) = V c main_v94 :=
  Memref.read_access_unit_zero (Elt Ideal) main_v94 (off := fun a => win4_8.index t a * S45x64.size a)
    (funext fun a => by fin_cases a <;> rfl) _ (V c main_v94)
theorem iblk_b1 (c : Dev nD) (t : Fin cfg4.N) : (iblk4 V c 9 t : Vec Ideal S1x64 .f32) = V c main_v101 :=
  Memref.read_access_unit_zero (Elt Ideal) main_v101 (off := fun a => win4_9.index t a * S1x64.size a)
    (funext fun a => by fin_cases a <;> rfl) _ (V c main_v101)
theorem iblk_w2 (c : Dev nD) (t : Fin cfg4.N) : (iblk4 V c 10 t : Vec Ideal S64x32 .f32) = V c main_arg23 :=
  Memref.read_access_unit_zero (Elt Ideal) main_arg23 (off := fun a => win4_10.index t a * S64x32.size a)
    (funext fun a => by fin_cases a <;> rfl) _ (V c main_arg23)
theorem iblk_b2 (c : Dev nD) (t : Fin cfg4.N) : (iblk4 V c 11 t : Vec Ideal S1x32 .f32) = V c main_v102 :=
  Memref.read_access_unit_zero (Elt Ideal) main_v102 (off := fun a => win4_11.index t a * S1x32.size a)
    (funext fun a => by fin_cases a <;> rfl) _ (V c main_v102)
theorem iblk_w3 (c : Dev nD) (t : Fin cfg4.N) : (iblk4 V c 12 t : Vec Ideal S32x2 .f32) = V c main_arg25 :=
  Memref.read_access_unit_zero (Elt Ideal) main_arg25 (off := fun a => win4_12.index t a * S32x2.size a)
    (funext fun a => by fin_cases a <;> rfl) _ (V c main_arg25)
theorem iblk_b3 (c : Dev nD) (t : Fin cfg4.N) : (iblk4 V c 13 t : Vec Ideal S1x2 .f32) = V c main_v103 :=
  Memref.read_access_unit_zero (Elt Ideal) main_v103 (off := fun a => win4_13.index t a * S1x2.size a)
    (funext fun a => by fin_cases a <;> rfl) _ (V c main_v103)
theorem iblk_wetop (c : Dev nD) (t : Fin cfg4.N) : (iblk4 V c 14 t : Vec Ideal S128x173 .f32) = V c main_v95 :=
  Memref.read_access_unit_zero (Elt Ideal) main_v95 (off := fun a => win4_14.index t a * S128x173.size a)
    (funext fun a => by fin_cases a <;> rfl) _ (V c main_v95)
theorem iblk_webot (c : Dev nD) (t : Fin cfg4.N) : (iblk4 V c 15 t : Vec Ideal S45x173 .f32) = V c main_v96 :=
  Memref.read_access_unit_zero (Elt Ideal) main_v96 (off := fun a => win4_15.index t a * S45x173.size a)
    (funext fun a => by fin_cases a <;> rfl) _ (V c main_v96)
theorem iblk_be (c : Dev nD) (t : Fin cfg4.N) : (iblk4 V c 16 t : Vec Ideal S1x173 .f32) = V c main_v104 :=
  Memref.read_access_unit_zero (Elt Ideal) main_v104 (off := fun a => win4_16.index t a * S1x173.size a)
    (funext fun a => by fin_cases a <;> rfl) _ (V c main_v104)

/-- The pooled means of graph p, from the region's sums and counts. -/
abbrev ge (c : Dev nD) (p : Fin 512) : Fin 128 → EReal :=
  fun k => Cert.Sage.meanOf ((V c main_v92_0 : Vec Ideal S512x128 .f32) (ix2 p k)) ((V c main_v92_1 : Vec Ideal S512x1 .f32) (ix2 p 0))

/-- The normalised measurements of graph p. -/
abbrev re (c : Dev nD) (p : Fin 512) : Fin 45 → EReal :=
  fun k => Cert.Sage.normK ((V c main_arg3 : Vec Ideal S512x45 .f32) (ix2 p k)) ((V c main_v97 : Vec Ideal S1x45 .f32) (ix2 0 k))
    ((V c main_v98 : Vec Ideal S1x45 .f32) (ix2 0 k)) ((V c main_v99 : Vec Ideal S1x45 .f32) (ix2 0 k))
    ((V c main_v100 : Vec Ideal S1x45 .f32) (ix2 0 k))

/-- The scores of the arrays as the region finds them. -/
abbrev scores (c : Dev nD) : Vec Ideal S512x2 .f32 :=
  scoresOf (V c main_v92_0) (V c main_v92_1) (V c main_arg3) (V c main_v97) (V c main_v98) (V c main_v99) (V c main_v100)
    (V c main_v93) (V c main_v94) (V c main_v101) (V c main_arg23) (V c main_v102) (V c main_arg25) (V c main_v103)

/-- The embedding of the arrays as the region finds them. -/
abbrev embedding (c : Dev nD) : Vec Ideal S512x173 .f32 :=
  embOf (V c main_v92_0) (V c main_v92_1) (V c main_arg3) (V c main_v97) (V c main_v98) (V c main_v99) (V c main_v100)
    (V c main_v95) (V c main_v96) (V c main_v104)

/-- The one point writes back the whole scores array. -/
theorem flushed_scores (c : Dev nD) (t : Fin cfg4.N) :
    (dat4 (F := Ideal) V c).flushed 17 t = ((cfg4.win 17).blk t).view.read (Elt Ideal) (scores V c) := by
  show (cfg4.win 17).cut (grid4.coords t) ((dat4 V c).after 17 t) = _
  rw [after4_17]
  refine Eq.trans ?_ (Memref.read_access_unit_zero (Elt Ideal) main_v105_0 (off := fun a => win4_17.index t a * S512x2.size a)
    (funext fun a => by fin_cases a <;> rfl) _ (scores V c)).symm
  refine (out_scores (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) (iblk4 V c 10 t) (iblk4 V c 11 t) (iblk4 V c 12 t)
    (iblk4 V c 13 t) (iblk4 V c 14 t) (iblk4 V c 15 t) (iblk4 V c 16 t)).trans ?_
  exact scoresOf_congr (iblk_sums V c t) (iblk_counts V c t) (iblk_meas V c t) (iblk_gamma V c t) (iblk_beta V c t)
    (iblk_mu V c t) (iblk_var V c t) (iblk_w1top V c t) (iblk_w1bot V c t) (iblk_b1 V c t) (iblk_w2 V c t) (iblk_b2 V c t)
    (iblk_w3 V c t) (iblk_b3 V c t)

/-- The one point writes back the whole embedding array. -/
theorem flushed_embedding (c : Dev nD) (t : Fin cfg4.N) :
    (dat4 (F := Ideal) V c).flushed 18 t = ((cfg4.win 18).blk t).view.read (Elt Ideal) (embedding V c) := by
  show (cfg4.win 18).cut (grid4.coords t) ((dat4 V c).after 18 t) = _
  rw [after4_18]
  refine Eq.trans ?_ (Memref.read_access_unit_zero (Elt Ideal) main_v105_1 (off := fun a => win4_18.index t a * S512x173.size a)
    (funext fun a => by fin_cases a <;> rfl) _ (embedding V c)).symm
  refine (out_emb (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) (iblk4 V c 10 t) (iblk4 V c 11 t) (iblk4 V c 12 t)
    (iblk4 V c 13 t) (iblk4 V c 14 t) (iblk4 V c 15 t) (iblk4 V c 16 t)).trans ?_
  exact embOf_congr (iblk_sums V c t) (iblk_counts V c t) (iblk_meas V c t) (iblk_gamma V c t) (iblk_beta V c t)
    (iblk_mu V c t) (iblk_var V c t) (iblk_wetop V c t) (iblk_webot V c t) (iblk_be V c t)

/-- The scores array after the region: the one point's block covers it. -/
theorem scores_final (c : Dev nD) : (dat4 (F := Ideal) V c).arrAt 17 cfg4.N = scores V c :=
  (dat4 V c).arrAt_eq_of_cover 17 (scores V c) (fun t _ => flushed_scores V c t) fun i =>
    ⟨t4_0, flush4_17 t4_0, by
      show i ∈ ((View.whole main_v105_0).slice (win4_17.rect t4_0)).set
      rw [View.set_slice_whole, Rect.mem_set_unit]
      intro a
      have h0 : (i 0 : Nat) < 512 := (i 0).isLt
      have h1 : (i 1 : Nat) < 2 := (i 1).isLt
      match a with
      | ⟨0, _⟩ =>
        show win4_17.index t4_0 0 * win4_17.size 0 ≤ (i 0 : Nat)
          ∧ (i 0 : Nat) < win4_17.index t4_0 0 * win4_17.size 0 + win4_17.xsize (grid4.coords t4_0) 0
        rw [show win4_17.index t4_0 0 * win4_17.size 0 = 0 from by decide +kernel,
          show win4_17.xsize (grid4.coords t4_0) 0 = 512 from by decide +kernel]; omega
      | ⟨1, _⟩ =>
        show win4_17.index t4_0 1 * win4_17.size 1 ≤ (i 1 : Nat)
          ∧ (i 1 : Nat) < win4_17.index t4_0 1 * win4_17.size 1 + win4_17.xsize (grid4.coords t4_0) 1
        rw [show win4_17.index t4_0 1 * win4_17.size 1 = 0 from by decide +kernel,
          show win4_17.xsize (grid4.coords t4_0) 1 = 2 from by decide +kernel]; omega⟩

/-- The embedding array after the region. -/
theorem embedding_final (c : Dev nD) : (dat4 (F := Ideal) V c).arrAt 18 cfg4.N = embedding V c :=
  (dat4 V c).arrAt_eq_of_cover 18 (embedding V c) (fun t _ => flushed_embedding V c t) fun i =>
    ⟨t4_0, flush4_18 t4_0, by
      show i ∈ ((View.whole main_v105_1).slice (win4_18.rect t4_0)).set
      rw [View.set_slice_whole, Rect.mem_set_unit]
      intro a
      have h0 : (i 0 : Nat) < 512 := (i 0).isLt
      have h1 : (i 1 : Nat) < 173 := (i 1).isLt
      match a with
      | ⟨0, _⟩ =>
        show win4_18.index t4_0 0 * win4_18.size 0 ≤ (i 0 : Nat)
          ∧ (i 0 : Nat) < win4_18.index t4_0 0 * win4_18.size 0 + win4_18.xsize (grid4.coords t4_0) 0
        rw [show win4_18.index t4_0 0 * win4_18.size 0 = 0 from by decide +kernel,
          show win4_18.xsize (grid4.coords t4_0) 0 = 512 from by decide +kernel]; omega
      | ⟨1, _⟩ =>
        show win4_18.index t4_0 1 * win4_18.size 1 ≤ (i 1 : Nat)
          ∧ (i 1 : Nat) < win4_18.index t4_0 1 * win4_18.size 1 + win4_18.xsize (grid4.coords t4_0) 1
        rw [show win4_18.index t4_0 1 * win4_18.size 1 = 0 from by decide +kernel,
          show win4_18.xsize (grid4.coords t4_0) 1 = 173 from by decide +kernel]; omega⟩

/-- THE SCORES of graph p after the region: three affine maps of its fused features, a clip after the first two. -/
theorem logits_apply (c : Dev nD) (p : Fin 512) (j : Fin 2) :
    (dat4 (F := Ideal) V c).arrAt 17 cfg4.N (ix2 p j)
      = Cert.Sage.logitsK (ge V c p) (re V c p) (fun k k1 => (V c main_v93 : Vec Ideal S128x64 .f32) (ix2 k k1))
          (fun k k1 => (V c main_v94 : Vec Ideal S45x64 .f32) (ix2 k k1)) (fun k1 => (V c main_v101 : Vec Ideal S1x64 .f32) (ix2 0 k1))
          (fun k1 k2 => (V c main_arg23 : Vec Ideal S64x32 .f32) (ix2 k1 k2)) (fun k2 => (V c main_v102 : Vec Ideal S1x32 .f32) (ix2 0 k2))
          (fun k2 j' => (V c main_arg25 : Vec Ideal S32x2 .f32) (ix2 k2 j')) (fun j' => (V c main_v103 : Vec Ideal S1x2 .f32) (ix2 0 j')) j :=
  congrFun (scores_final V c) (ix2 p j)

/-- THE EMBEDDING of graph p after the region: one affine map of its fused features. -/
theorem emb_apply (c : Dev nD) (p : Fin 512) (j : Fin 173) :
    (dat4 (F := Ideal) V c).arrAt 18 cfg4.N (ix2 p j)
      = Cert.Sage.embK (ge V c p) (re V c p) (fun k j' => (V c main_v95 : Vec Ideal S128x173 .f32) (ix2 k j'))
          (fun k j' => (V c main_v96 : Vec Ideal S45x173 .f32) (ix2 k j')) (fun j' => (V c main_v104 : Vec Ideal S1x173 .f32) (ix2 0 j')) j :=
  congrFun (embedding_final V c) (ix2 p j)

end Cert.KernelIdeal.Handc

end
-- ==== Proof.KPool.lean ====
import proofs.«416966_j75505525063863_1_alg».proof.Proof.Gen.KernelIdeal.Frame
import proofs.«416966_j75505525063863_1_alg».proof.Proof.SpecLaws
import Idealize.ShloMosaic.Lib.Pipeline.Value
import Idealize.ShloMosaic.Lib.ValueIdx
import Idealize.ShloMosaic.Lib.ValueLayout
import Idealize.ShloMosaic.Lib.Tactic
import Idealize.ShloMosaic.Lib.KernelVsHost
import Idealize.ShloMosaic.PureOps.Ideal.Laws

noncomputable section

open Idealize.ShloMosaic Idealize.ShloMosaic.TcCoe Idealize.SL.Sem
open Idealize.ShloMosaic.Pipeline (Dat)

namespace Cert.KernelIdeal.Handb

open Cert.KernelIdeal Cert.KernelIdeal.Gen

variable {F : FTy → Type} [FloatOps F]

theorem hz : (![0, 0] : Fin 2 → Nat) = fun _ => 0 := funext fun a => by fin_cases a <;> rfl

/-- Away from the first point the sums' buffer, holding `xo2`, is left at `xo2 + hotᵀ·x0`: one covering store, whose
    loads read the whole buffers. -/
theorem out_B_2 (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (a4 : Memref sig .tc .vmem S512x1 .f32) (h4 : a4.IsWhole) (hc : ¬cond3_0 i)
    (x0 : Vec F S2000x128 .f32) (x1 : Vec F S2000x1 .i32) (xo2 : Vec F S512x128 .f32) (xo3 : Vec F S512x1 .f32) :
    out3_B_2 c i a1 h1 a2 h2 a3 h3 a4 h4 hc x0 x1 xo2 xo3 = k3_pay4 x1 x0 xo2 := by
  unfold out3_B_2
  rw [View.read_writes_eq_canon _ _ _ (cover3_B_2 c i a1 h1 a2 h2 a3 h3 a4 h4 hc x0 x1 xo2 xo3)]
  unfold kernelRun3_B
  dsimp only
  sl_unfold_words
  rw [View.canon_unit_zero hz]
  simp only [View.readAt_eq_ld, h1.read_unread, h2.read_unread, h3.read_unread, View.ld_unit_zero (S := S2000x1) hz,
    View.ld_unit_zero (S := S2000x128) hz, View.ld_unit_zero (S := S512x128) hz]

/-- Away from the first point the counts' buffer, holding `xo3`, is left at `xo3 + hotᵀ·1`. -/
theorem out_B_3 (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (a4 : Memref sig .tc .vmem S512x1 .f32) (h4 : a4.IsWhole) (hc : ¬cond3_0 i)
    (x0 : Vec F S2000x128 .f32) (x1 : Vec F S2000x1 .i32) (xo2 : Vec F S512x128 .f32) (xo3 : Vec F S512x1 .f32) :
    out3_B_3 c i a1 h1 a2 h2 a3 h3 a4 h4 hc x0 x1 xo2 xo3 = k3_pay5 x1 xo3 := by
  unfold out3_B_3
  rw [View.read_writes_eq_canon _ _ _ (cover3_B_3 c i a1 h1 a2 h2 a3 h3 a4 h4 hc x0 x1 xo2 xo3)]
  unfold kernelRun3_B
  dsimp only
  sl_unfold_words
  rw [View.canon_unit_zero hz]
  simp only [View.readAt_eq_ld, h2.read_unread, h4.read_unread, View.ld_unit_zero (S := S2000x1) hz,
    View.ld_unit_zero (S := S512x1) hz]

/-- At the first point the sums' buffer is first cleared, read back, and left at `0 + hotᵀ·x0`. -/
theorem out_A_2 (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (a4 : Memref sig .tc .vmem S512x1 .f32) (h4 : a4.IsWhole) (hc : cond3_0 i)
    (x0 : Vec F S2000x128 .f32) (x1 : Vec F S2000x1 .i32) :
    out3_A_2 c i a1 h1 a2 h2 a3 h3 a4 h4 hc x0 x1 = k3_pay4 x1 x0 k3_pay1 := by
  unfold out3_A_2
  rw [View.read_writes_eq_canon _ _ _ (cover3_A_2 c i a1 h1 a2 h2 a3 h3 a4 h4 hc x0 x1)]
  unfold kernelRun3_A
  dsimp only
  sl_unfold_words
  rw [View.canon_cons_unit_zero (S := S512x128) hz, View.readCov_unit_zero (S := S512x128) _ hz]
  simp only [View.readAt_eq_ld, h1.read_unread, h2.read_unread, View.ld_unit_zero (S := S2000x1) hz,
    View.ld_unit_zero (S := S2000x128) hz, View.ld_unit_zero (S := S512x128) hz]

/-- At the first point the counts' buffer is first cleared, read back, and left at `0 + hotᵀ·1`. -/
theorem out_A_3 (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (a4 : Memref sig .tc .vmem S512x1 .f32) (h4 : a4.IsWhole) (hc : cond3_0 i)
    (x0 : Vec F S2000x128 .f32) (x1 : Vec F S2000x1 .i32) :
    out3_A_3 c i a1 h1 a2 h2 a3 h3 a4 h4 hc x0 x1 = k3_pay5 x1 k3_pay2 := by
  unfold out3_A_3
  rw [View.read_writes_eq_canon _ _ _ (cover3_A_3 c i a1 h1 a2 h2 a3 h3 a4 h4 hc x0 x1)]
  unfold kernelRun3_A
  dsimp only
  sl_unfold_words
  rw [View.canon_cons_unit_zero (S := S512x1) hz, View.readCov_unit_zero (S := S512x1) _ hz]
  simp only [View.readAt_eq_ld, h2.read_unread, View.ld_unit_zero (S := S2000x1) hz,
    View.ld_unit_zero (S := S512x1) hz]

open Idealize.ShloMosaic.ValueIdx
open scoped BigOperators

/-! ## The indicator of "node r of the block belongs to graph g" -/

/-- A column of ids spread over 512 lanes reads, at (r, g), the id of row r. -/
theorem bcast_col (v : IVec S2000x1 32) (h : S2000x1.Broadcasts S2000x512) (r : Fin 2000) (g : Fin 512) :
    broadcastTo S2000x512 v h (ix2 r g) = v (ix2 r (0 : Fin 1)) := by
  refine broadcastTo_apply v h (ix2 r g) (ix2 r (0 : Fin 1)) fun ax => ?_
  match ax with
  | ⟨0, _⟩ => rfl
  | ⟨1, _⟩ => rfl

/-- The lane counter along axis 1 reads, at (r, g), the word of g. -/
theorem iota_col (h : S2000x512.Iotas .tc 32 [1]) (r : Fin 2000) (g : Fin 512) :
    iota .tc S2000x512 32 [1] h (ix2 r g) = BitVec.ofNat 32 g.val := by
  show BitVec.ofNat 32 (0 * 512 + g.val) = _
  rw [Nat.zero_mul, Nat.zero_add]

/-- The transposed one-hot matrix at (g, r): 1 when the id word of row r is the word of g, else 0. -/
theorem hot_apply (x1 : Vec Ideal S2000x1 .i32) (g : Fin 512) (r : Fin 2000) :
    k3_pay3 (F := Ideal) x1 (ix2 g r)
      = if (x1 (ix2 r (0 : Fin 1)) : BitVec 32) = BitVec.ofNat 32 g.val then (1 : EReal) else 0 := by
  unfold k3_pay3
  refine (transpose_ix2_apply _ _ g r).trans ?_
  show ((((IntOp.cmpi .eq (broadcastTo S2000x512 (shapeCast S2000x1 x1 shapeCasts_S2000x1_S2000x1) broadcasts_S2000x1_S2000x512 (ix2 r g))
      (iota .tc S2000x512 32 [1] iota_S2000x512_d1_w32 (ix2 r g))).setWidth 32).toInt : ℝ) : EReal) = _
  rw [bcast_col, iota_col, shapeCast_self, toInt_setWidth_bit]
  unfold IntOp.cmpi
  by_cases h : (x1 (ix2 r (0 : Fin 1)) : BitVec 32) = BitVec.ofNat 32 g.val
  · rw [if_pos h, h]; simp
  · rw [if_neg h]; simp [h]

/-! ## The two block products at an index -/

theorem lhsS_0 (j : S512x128.Idx) (q : dot_S512x2000_S2000x128_S512x128_1_0_0_1_n_n.contr.Idx) :
    (dot_S512x2000_S2000x128_S512x128_1_0_0_1_n_n.lhsIdx j q 0).val = (j 0).val := by
  unfold DotDims.lhsIdx
  rw [dif_neg (show ¬(0 : Fin S512x2000.rank) ∈ dot_S512x2000_S2000x128_S512x128_1_0_0_1_n_n.lhsBatch by decide), dif_pos (show (0 : Fin S512x2000.rank) ∈ dot_S512x2000_S2000x128_S512x128_1_0_0_1_n_n.lhsNonContracting by decide)]
  rfl
theorem lhsS_1 (j : S512x128.Idx) (q : dot_S512x2000_S2000x128_S512x128_1_0_0_1_n_n.contr.Idx) :
    (dot_S512x2000_S2000x128_S512x128_1_0_0_1_n_n.lhsIdx j q 1).val = (q ⟨0, by decide⟩).val :=
  dot_S512x2000_S2000x128_S512x128_1_0_0_1_n_n.lhsIdx_val_of_single rfl j q
theorem rhsS_0 (j : S512x128.Idx) (q : dot_S512x2000_S2000x128_S512x128_1_0_0_1_n_n.contr.Idx) :
    (dot_S512x2000_S2000x128_S512x128_1_0_0_1_n_n.rhsIdx j q 0).val = (q ⟨0, by decide⟩).val :=
  dot_S512x2000_S2000x128_S512x128_1_0_0_1_n_n.rhsIdx_val_of_single rfl j q
theorem rhsS_1 (j : S512x128.Idx) (q : dot_S512x2000_S2000x128_S512x128_1_0_0_1_n_n.contr.Idx) :
    (dot_S512x2000_S2000x128_S512x128_1_0_0_1_n_n.rhsIdx j q 1).val = (j 1).val := by
  unfold DotDims.rhsIdx
  rw [dif_neg (show ¬(1 : Fin S2000x128.rank) ∈ dot_S512x2000_S2000x128_S512x128_1_0_0_1_n_n.rhsBatch by decide), dif_pos (show (1 : Fin S2000x128.rank) ∈ dot_S512x2000_S2000x128_S512x128_1_0_0_1_n_n.rhsNonContracting by decide)]
  rfl

/-- The [512,2000]·[2000,128] product into the zero splat, at (g, f): the sum over the 2000 rows. -/
theorem mmS_apply (L : FVec Ideal S512x2000 .bf16) (R : FVec Ideal S2000x128 .bf16) (g : Fin 512) (f : Fin 128) :
    matmul dot_S512x2000_S2000x128_S512x128_1_0_0_1_n_n none L R (constant (F := Ideal) S512x128 .f32 0x00000000#32) (ix2 g f)
      = ∑ r : Fin 2000, L (ix2 g r) * R (ix2 r f) := by
  simp only [matmul]
  rw [Ideal.matmul_constant_zero_apply, ← Equiv.sum_comp (ValueIdx.contrEquiv1 dot_S512x2000_S2000x128_S512x128_1_0_0_1_n_n 2000 rfl rfl).symm]
  refine Finset.sum_congr rfl fun k _ => ?_
  have hk := ValueIdx.contrEquiv1_symm_val dot_S512x2000_S2000x128_S512x128_1_0_0_1_n_n 2000 rfl rfl k
  have el : dot_S512x2000_S2000x128_S512x128_1_0_0_1_n_n.lhsIdx (ix2 g f) ((ValueIdx.contrEquiv1 dot_S512x2000_S2000x128_S512x128_1_0_0_1_n_n 2000 rfl rfl).symm k) = ix2 g k := funext fun a => Fin.ext (by
    match a with
    | ⟨0, _⟩ => exact lhsS_0 _ _
    | ⟨1, _⟩ => exact (lhsS_1 _ _).trans hk)
  have er : dot_S512x2000_S2000x128_S512x128_1_0_0_1_n_n.rhsIdx (ix2 g f) ((ValueIdx.contrEquiv1 dot_S512x2000_S2000x128_S512x128_1_0_0_1_n_n 2000 rfl rfl).symm k) = ix2 k f := funext fun a => Fin.ext (by
    match a with
    | ⟨0, _⟩ => exact (rhsS_0 _ _).trans hk
    | ⟨1, _⟩ => exact rhsS_1 _ _)
  rw [el, er]

theorem lhsC_0 (j : S512x1.Idx) (q : dot_S512x2000_S2000x1_S512x1_1_0_0_1_n_n.contr.Idx) :
    (dot_S512x2000_S2000x1_S512x1_1_0_0_1_n_n.lhsIdx j q 0).val = (j 0).val := by
  unfold DotDims.lhsIdx
  rw [dif_neg (show ¬(0 : Fin S512x2000.rank) ∈ dot_S512x2000_S2000x1_S512x1_1_0_0_1_n_n.lhsBatch by decide), dif_pos (show (0 : Fin S512x2000.rank) ∈ dot_S512x2000_S2000x1_S512x1_1_0_0_1_n_n.lhsNonContracting by decide)]
  rfl
theorem lhsC_1 (j : S512x1.Idx) (q : dot_S512x2000_S2000x1_S512x1_1_0_0_1_n_n.contr.Idx) :
    (dot_S512x2000_S2000x1_S512x1_1_0_0_1_n_n.lhsIdx j q 1).val = (q ⟨0, by decide⟩).val :=
  dot_S512x2000_S2000x1_S512x1_1_0_0_1_n_n.lhsIdx_val_of_single rfl j q
theorem rhsC_0 (j : S512x1.Idx) (q : dot_S512x2000_S2000x1_S512x1_1_0_0_1_n_n.contr.Idx) :
    (dot_S512x2000_S2000x1_S512x1_1_0_0_1_n_n.rhsIdx j q 0).val = (q ⟨0, by decide⟩).val :=
  dot_S512x2000_S2000x1_S512x1_1_0_0_1_n_n.rhsIdx_val_of_single rfl j q
theorem rhsC_1 (j : S512x1.Idx) (q : dot_S512x2000_S2000x1_S512x1_1_0_0_1_n_n.contr.Idx) :
    (dot_S512x2000_S2000x1_S512x1_1_0_0_1_n_n.rhsIdx j q 1).val = (j 1).val := by
  unfold DotDims.rhsIdx
  rw [dif_neg (show ¬(1 : Fin S2000x1.rank) ∈ dot_S512x2000_S2000x1_S512x1_1_0_0_1_n_n.rhsBatch by decide), dif_pos (show (1 : Fin S2000x1.rank) ∈ dot_S512x2000_S2000x1_S512x1_1_0_0_1_n_n.rhsNonContracting by decide)]
  rfl

/-- The [512,2000]·[2000,1] product into the zero splat, at (g, 0): the sum over the 2000 rows. -/
theorem mmC_apply (L : FVec Ideal S512x2000 .bf16) (R : FVec Ideal S2000x1 .bf16) (g : Fin 512) :
    matmul dot_S512x2000_S2000x1_S512x1_1_0_0_1_n_n none L R (constant (F := Ideal) S512x1 .f32 0x00000000#32) (ix2 g (0 : Fin 1))
      = ∑ r : Fin 2000, L (ix2 g r) * R (ix2 r (0 : Fin 1)) := by
  simp only [matmul]
  rw [Ideal.matmul_constant_zero_apply, ← Equiv.sum_comp (ValueIdx.contrEquiv1 dot_S512x2000_S2000x1_S512x1_1_0_0_1_n_n 2000 rfl rfl).symm]
  refine Finset.sum_congr rfl fun k _ => ?_
  have hk := ValueIdx.contrEquiv1_symm_val dot_S512x2000_S2000x1_S512x1_1_0_0_1_n_n 2000 rfl rfl k
  have el : dot_S512x2000_S2000x1_S512x1_1_0_0_1_n_n.lhsIdx (ix2 g (0 : Fin 1)) ((ValueIdx.contrEquiv1 dot_S512x2000_S2000x1_S512x1_1_0_0_1_n_n 2000 rfl rfl).symm k) = ix2 g k := funext fun a => Fin.ext (by
    match a with
    | ⟨0, _⟩ => exact lhsC_0 _ _
    | ⟨1, _⟩ => exact (lhsC_1 _ _).trans hk)
  have er : dot_S512x2000_S2000x1_S512x1_1_0_0_1_n_n.rhsIdx (ix2 g (0 : Fin 1)) ((ValueIdx.contrEquiv1 dot_S512x2000_S2000x1_S512x1_1_0_0_1_n_n 2000 rfl rfl).symm k) = ix2 k (0 : Fin 1) := funext fun a => Fin.ext (by
    match a with
    | ⟨0, _⟩ => exact (rhsC_0 _ _).trans hk
    | ⟨1, _⟩ => exact rhsC_1 _ _)
  rw [el, er]

/-! ## One point's update of the two running blocks, at an index -/

/-- The sums' update at (g, f): the old entry plus the indicator-weighted sum of column f over the block's rows. -/
theorem sums_step (x1 : Vec Ideal S2000x1 .i32) (x0 : Vec Ideal S2000x128 .f32) (xo : Vec Ideal S512x128 .f32)
    (g : Fin 512) (f : Fin 128) :
    k3_pay4 (F := Ideal) x1 x0 xo (ix2 g f)
      = xo (ix2 g f) + ∑ r : Fin 2000,
          (if (x1 (ix2 r (0 : Fin 1)) : BitVec 32) = BitVec.ofNat 32 g.val then (1 : EReal) else 0) * x0 (ix2 r f) := by
  unfold k3_pay4
  refine congrArg₂ (fun a b : EReal => a + b) (congrFun (shapeCast_self xo _) (ix2 g f)) ?_
  refine (mmS_apply _ _ g f).trans (Finset.sum_congr rfl fun r _ => ?_)
  exact congrArg₂ (fun a b : EReal => a * b) (hot_apply x1 g r) (congrFun (shapeCast_self x0 _) (ix2 r f))

/-- The counts' update at (g, 0): the old entry plus the indicator-weighted sum of ones over the block's rows. -/
theorem cnt_step (x1 : Vec Ideal S2000x1 .i32) (xo : Vec Ideal S512x1 .f32) (g : Fin 512) :
    k3_pay5 (F := Ideal) x1 xo (ix2 g (0 : Fin 1))
      = xo (ix2 g (0 : Fin 1)) + ∑ r : Fin 2000,
          (if (x1 (ix2 r (0 : Fin 1)) : BitVec 32) = BitVec.ofNat 32 g.val then (1 : EReal) else 0) * Ideal.ofBits .bf16 0x3F80#16 := by
  unfold k3_pay5
  refine congrArg₂ (fun a b : EReal => a + b) (congrFun (shapeCast_self xo _) (ix2 g (0 : Fin 1))) ?_
  refine (mmC_apply _ _ g).trans (Finset.sum_congr rfl fun r _ => ?_)
  exact congrArg₂ (fun a b : EReal => a * b) (hot_apply x1 g r) rfl

/-- The cleared sums' block is 0 everywhere. -/
theorem zeroS_apply (j : S512x128.Idx) : k3_pay1 (F := Ideal) j = (0 : EReal) := by
  unfold k3_pay1
  exact Ideal.ofBits_zero_f32

/-- The cleared counts' block is 0 everywhere. -/
theorem zeroC_apply (j : S512x1.Idx) : k3_pay2 (F := Ideal) j = (0 : EReal) := by
  unfold k3_pay2
  exact Ideal.ofBits_zero_f32

/-! ## The blocks of the two inputs, read off the arrays the region finds -/

section Region

variable (V : (c : Dev nD) → (b : Ref sig .tc) → Buf (Elt Ideal) ((c : Thread nD τ).loc b))

/-- The node features as the region finds them. -/
abbrev harr (c : Dev nD) : Vec Ideal S100000x128 .f32 := V c main_v90
/-- The graph ids as the region finds them. -/
abbrev idarr (c : Dev nD) : Vec Ideal S100000x1 .i32 := V c main_v91
/-- The 2000 rows of features the point t works on. -/
abbrev hblk (c : Dev nD) (t : Fin cfg3.N) : Vec Ideal S2000x128 .f32 := iblk3 V c 0 t
/-- The 2000 ids the point t works on. -/
abbrev idblk (c : Dev nD) (t : Fin cfg3.N) : Vec Ideal S2000x1 .i32 := iblk3 V c 1 t

/-- Both input windows move down one block of 2000 rows per point and stay in column block 0. -/
theorem idx_in : ∀ t : Fin cfg3.N, (win3_0.index t 0 = t.val ∧ win3_0.index t 1 = 0) ∧ (win3_1.index t 0 = t.val ∧ win3_1.index t 1 = 0) :=
  (by decide +kernel : ∀ t : Fin grid3.N, (win3_0.index t 0 = t.val ∧ win3_0.index t 1 = 0) ∧ (win3_1.index t 0 = t.val ∧ win3_1.index t 1 = 0))

theorem node_lt (t : Fin cfg3.N) (r : Fin 2000) : t.val * 2000 + r.val < 100000 := by
  have hN : cfg3.N = 50 := N_3
  have := t.isLt; have := r.isLt; omega

/-- Row r of point t's feature block is node 2000·t + r. -/
theorem hblk_apply (c : Dev nD) (t : Fin cfg3.N) (r : Fin 2000) (f : Fin 128) :
    hblk V c t (ix2 r f) = harr V c (ix2 ⟨t.val * 2000 + r.val, node_lt t r⟩ f) := by
  have hi := (idx_in t).1
  unfold hblk iblk3
  rw [View.read_apply]
  show V c main_v90 _ = V c main_v90 _
  congr 1
  funext a
  apply Fin.ext
  match a with
  | ⟨0, _⟩ => show win3_0.index t 0 * 2000 + 1 * r.val = t.val * 2000 + r.val; rw [hi.1]; omega
  | ⟨1, _⟩ => show win3_0.index t 1 * 128 + 1 * f.val = f.val; rw [hi.2]; omega

/-- Row r of point t's id block is node 2000·t + r. -/
theorem idblk_apply (c : Dev nD) (t : Fin cfg3.N) (r : Fin 2000) :
    idblk V c t (ix2 r (0 : Fin 1)) = idarr V c (ix2 ⟨t.val * 2000 + r.val, node_lt t r⟩ (0 : Fin 1)) := by
  have hi := (idx_in t).2
  unfold idblk iblk3
  rw [View.read_apply]
  show V c main_v91 _ = V c main_v91 _
  congr 1
  funext a
  apply Fin.ext
  match a with
  | ⟨0, _⟩ => show win3_1.index t 0 * 2000 + 1 * r.val = t.val * 2000 + r.val; rw [hi.1]; omega
  | ⟨1, _⟩ => show win3_1.index t 1 * 1 + 1 * 0 = 0; rw [hi.2]

/-! ## What node k adds to an entry, and the running blocks after each point -/

/-- Node k's indicator for graph g: 1 when its id word is the word of g (0 past the last node). -/
def hotAt (c : Dev nD) (g : Fin 512) (k : ℕ) : EReal :=
  if h : k < 100000 then (if (idarr V c (ix2 ⟨k, h⟩ (0 : Fin 1)) : BitVec 32) = BitVec.ofNat 32 g.val then (1 : EReal) else 0) else 0

/-- Node k's feature f (0 past the last node). -/
def featAt (c : Dev nD) (f : Fin 128) (k : ℕ) : EReal :=
  if h : k < 100000 then harr V c (ix2 ⟨k, h⟩ f) else 0

theorem hot_blk (c : Dev nD) (t : Fin cfg3.N) (g : Fin 512) (r : Fin 2000) :
    (if (idblk V c t (ix2 r (0 : Fin 1)) : BitVec 32) = BitVec.ofNat 32 g.val then (1 : EReal) else 0)
      = hotAt V c g (t.val * 2000 + r.val) := by
  unfold hotAt
  rw [dif_pos (node_lt t r), idblk_apply]

theorem feat_blk (c : Dev nD) (t : Fin cfg3.N) (f : Fin 128) (r : Fin 2000) :
    hblk V c t (ix2 r f) = featAt V c f (t.val * 2000 + r.val) := by
  unfold featAt
  rw [dif_pos (node_lt t r), hblk_apply]

/-- After point n the sums' block holds, at (g, f), the features f of the nodes of graph g among the first
    2000·(n+1) nodes, added block by block. -/
theorem sums_at (c : Dev nD) : ∀ (n : ℕ) (hn : n < cfg3.N) (g : Fin 512) (f : Fin 128),
    (outsAt3 V c n hn).1 (ix2 g f)
      = ∑ t' ∈ Finset.range (n + 1), ∑ r : Fin 2000, hotAt V c g (t' * 2000 + r.val) * featAt V c f (t' * 2000 + r.val)
  | 0, hn, g, f => by
    rw [outsAt3_A V c ⟨0, hn⟩ (Nat.zero_mod _)]
    dsimp only
    refine (congrFun (out_A_2 (F := Ideal) c (grid3.coords ⟨0, hn⟩) (ms3_0 ⟨0, hn⟩) (hs3_0 ⟨0, hn⟩) (ms3_1 ⟨0, hn⟩) (hs3_1 ⟨0, hn⟩)
      (ms3_2 ⟨0, hn⟩) (hs3_2 ⟨0, hn⟩) (ms3_3 ⟨0, hn⟩) (hs3_3 ⟨0, hn⟩) ((hcond3_0 ⟨0, hn⟩).mpr (Nat.zero_mod _))
      (hblk V c ⟨0, hn⟩) (idblk V c ⟨0, hn⟩)) (ix2 g f)).trans ?_
    rw [sums_step, zeroS_apply, zero_add, Finset.sum_range_one]
    exact Finset.sum_congr rfl fun r _ => congrArg₂ (fun a b : EReal => a * b) (hot_blk V c ⟨0, hn⟩ g r) (feat_blk V c ⟨0, hn⟩ f r)
  | n + 1, hn, g, f => by
    have hN : cfg3.N = 50 := N_3
    have hB : ¬(⟨n + 1, hn⟩ : Fin cfg3.N).val % 50 = 0 := by dsimp only; omega
    rw [outsAt3_B V c ⟨n + 1, hn⟩ hB]
    dsimp only
    refine (congrFun (out_B_2 (F := Ideal) c (grid3.coords ⟨n + 1, hn⟩) (ms3_0 ⟨n + 1, hn⟩) (hs3_0 ⟨n + 1, hn⟩) (ms3_1 ⟨n + 1, hn⟩) (hs3_1 ⟨n + 1, hn⟩)
      (ms3_2 ⟨n + 1, hn⟩) (hs3_2 ⟨n + 1, hn⟩) (ms3_3 ⟨n + 1, hn⟩) (hs3_3 ⟨n + 1, hn⟩) (fun h => hB ((hcond3_0 ⟨n + 1, hn⟩).mp h))
      (hblk V c ⟨n + 1, hn⟩) (idblk V c ⟨n + 1, hn⟩) (outsAt3 V c n (Nat.lt_of_succ_lt hn)).1 (outsAt3 V c n (Nat.lt_of_succ_lt hn)).2) (ix2 g f)).trans ?_
    rw [sums_step, Finset.sum_range_succ _ (n + 1)]
    exact congrArg₂ (fun a b : EReal => a + b) (sums_at c n (Nat.lt_of_succ_lt hn) g f)
      (Finset.sum_congr rfl fun r _ => congrArg₂ (fun a b : EReal => a * b) (hot_blk V c ⟨n + 1, hn⟩ g r) (feat_blk V c ⟨n + 1, hn⟩ f r))

end Region

/-! ## The counts, the same way -/

section Region2

variable (V : (c : Dev nD) → (b : Ref sig .tc) → Buf (Elt Ideal) ((c : Thread nD τ).loc b))

/-- After point n the counts' block holds, at (g, 0), the number of nodes of graph g among the first 2000·(n+1)
    nodes, added block by block (each node weighs the half-width word of 1.0). -/
theorem cnt_at (c : Dev nD) : ∀ (n : ℕ) (hn : n < cfg3.N) (g : Fin 512),
    (outsAt3 V c n hn).2 (ix2 g (0 : Fin 1))
      = ∑ t' ∈ Finset.range (n + 1), ∑ r : Fin 2000, hotAt V c g (t' * 2000 + r.val) * Ideal.ofBits .bf16 0x3F80#16
  | 0, hn, g => by
    rw [outsAt3_A V c ⟨0, hn⟩ (Nat.zero_mod _)]
    dsimp only
    refine (congrFun (out_A_3 (F := Ideal) c (grid3.coords ⟨0, hn⟩) (ms3_0 ⟨0, hn⟩) (hs3_0 ⟨0, hn⟩) (ms3_1 ⟨0, hn⟩) (hs3_1 ⟨0, hn⟩)
      (ms3_2 ⟨0, hn⟩) (hs3_2 ⟨0, hn⟩) (ms3_3 ⟨0, hn⟩) (hs3_3 ⟨0, hn⟩) ((hcond3_0 ⟨0, hn⟩).mpr (Nat.zero_mod _))
      (hblk V c ⟨0, hn⟩) (idblk V c ⟨0, hn⟩)) (ix2 g (0 : Fin 1))).trans ?_
    rw [cnt_step, zeroC_apply, zero_add, Finset.sum_range_one]
    exact Finset.sum_congr rfl fun r _ => congrArg (fun a : EReal => a * Ideal.ofBits .bf16 0x3F80#16) (hot_blk V c ⟨0, hn⟩ g r)
  | n + 1, hn, g => by
    have hN : cfg3.N = 50 := N_3
    have hB : ¬(⟨n + 1, hn⟩ : Fin cfg3.N).val % 50 = 0 := by dsimp only; omega
    rw [outsAt3_B V c ⟨n + 1, hn⟩ hB]
    dsimp only
    refine (congrFun (out_B_3 (F := Ideal) c (grid3.coords ⟨n + 1, hn⟩) (ms3_0 ⟨n + 1, hn⟩) (hs3_0 ⟨n + 1, hn⟩) (ms3_1 ⟨n + 1, hn⟩) (hs3_1 ⟨n + 1, hn⟩)
      (ms3_2 ⟨n + 1, hn⟩) (hs3_2 ⟨n + 1, hn⟩) (ms3_3 ⟨n + 1, hn⟩) (hs3_3 ⟨n + 1, hn⟩) (fun h => hB ((hcond3_0 ⟨n + 1, hn⟩).mp h))
      (hblk V c ⟨n + 1, hn⟩) (idblk V c ⟨n + 1, hn⟩) (outsAt3 V c n (Nat.lt_of_succ_lt hn)).1 (outsAt3 V c n (Nat.lt_of_succ_lt hn)).2) (ix2 g (0 : Fin 1))).trans ?_
    rw [cnt_step, Finset.sum_range_succ _ (n + 1)]
    exact congrArg₂ (fun a b : EReal => a + b) (cnt_at c n (Nat.lt_of_succ_lt hn) g)
      (Finset.sum_congr rfl fun r _ => congrArg (fun a : EReal => a * Ideal.ofBits .bf16 0x3F80#16) (hot_blk V c ⟨n + 1, hn⟩ g r))

/-! ## From the 50 blocks to one sum over the 100000 nodes -/

/-- A 32-bit word is the word of g < 512 exactly when its signed reading is g. -/
theorem word_eq_iff (w : BitVec 32) (g : Fin 512) : w = BitVec.ofNat 32 g.val ↔ w.toInt = (g.val : Int) := by
  have hg : (BitVec.ofNat 32 g.val).toInt = (g.val : Int) := by
    have := g.isLt
    rw [BitVec.toInt_eq_toNat_cond, BitVec.toNat_ofNat, Nat.mod_eq_of_lt (by omega), if_pos (by omega)]
  rw [← BitVec.toInt_inj, hg]

/-- Fifty blocks of 2000 indicator-weighted terms are the sum over the nodes of graph g. -/
theorem blocks_sum (c : Dev nD) (g : Fin 512) (x : Fin 100000 → EReal) (xa : ℕ → EReal)
    (hx : ∀ (k : ℕ) (h : k < 100000), xa k = x ⟨k, h⟩) :
    (∑ t' ∈ Finset.range 50, ∑ r : Fin 2000, hotAt V c g (t' * 2000 + r.val) * xa (t' * 2000 + r.val))
      = ∑ n ∈ Finset.univ.filter (fun n : Fin 100000 => ((V c main_v91 : IVec S100000x1 32) (ix2 n (0 : Fin 1))).toInt = (g.val : Int)), x n := by
  rw [Finset.sum_range]
  have e := Cert.Sage.sum_tiles 50 2000 (fun n : Fin (50 * 2000) =>
    (if (idarr V c (ix2 (n : Fin 100000) (0 : Fin 1)) : BitVec 32) = BitVec.ofNat 32 g.val then (1 : EReal) else 0) * x n)
  have e2 := Cert.Sage.sum_hot (N := 100000) (fun n : Fin 100000 => (idarr V c (ix2 n (0 : Fin 1)) : BitVec 32) = BitVec.ofNat 32 g.val) x
  refine (Eq.trans ?_ e.symm).trans (e2.trans ?_)
  · refine Finset.sum_congr rfl fun t' _ => Finset.sum_congr rfl fun r _ => ?_
    have hlt : t'.val * 2000 + r.val < 100000 := by have := t'.isLt; have := r.isLt; omega
    unfold hotAt
    rw [dif_pos hlt, hx _ hlt]
  · refine Finset.sum_congr (Finset.filter_congr fun n _ => ?_) fun _ _ => rfl
    exact word_eq_iff _ g

end Region2

/-! ## The two result arrays: one block each, written back after the last point -/

section Region3

variable (V : (c : Dev nD) → (b : Ref sig .tc) → Buf (Elt Ideal) ((c : Thread nD τ).loc b))

/-- The last point of the grid. -/
abbrev tLast : Fin cfg3.N := ⟨49, by rw [show cfg3.N = 50 from N_3]; decide⟩

/-- What the sums' array ends holding: the running block after the last point. -/
abbrev sumsEnd (c : Dev nD) : Buf (Elt Ideal) ((c : Thread nD τ).loc main_v92_0) := (outsAt3 V c 49 tLast.isLt).1
/-- What the counts' array ends holding: the running block after the last point. -/
abbrev cntEnd (c : Dev nD) : Buf (Elt Ideal) ((c : Thread nD τ).loc main_v92_1) := (outsAt3 V c 49 tLast.isLt).2

/-- The one write-back of the sums, after point 49, writes the running block: block (0, 0) of a [512,128] array read
    through zero offsets is the array. -/
theorem flushedS_eq (c : Dev nD) (t : Fin cfg3.N) (hf : (cfg3.win 2).flush t = true) :
    (dat3 V c).flushed 2 t = ((cfg3.win 2).blk t).view.read (Elt Ideal) (sumsEnd V c) := by
  have hN : cfg3.N = 50 := N_3
  have h49 : t.val = 49 := by have := (flush3_2 t).mp hf; have := t.isLt; omega
  obtain rfl : t = tLast := Fin.ext h49
  show (cfg3.win 2).cut (grid3.coords tLast) ((dat3 V c).after 2 tLast) = _
  rw [after3_2]
  have hz' : (fun a => win3_2.index tLast a * main_v92_0.ty.shape.size a) = fun _ => 0 := funext fun a => by fin_cases a <;> decide +kernel
  exact (Memref.read_access_unit_zero (Elt Ideal) main_v92_0 hz' (fun a => by rw [congrFun hz' a]; simp) (sumsEnd V c)).symm

/-- The same for the counts. -/
theorem flushedC_eq (c : Dev nD) (t : Fin cfg3.N) (hf : (cfg3.win 3).flush t = true) :
    (dat3 V c).flushed 3 t = ((cfg3.win 3).blk t).view.read (Elt Ideal) (cntEnd V c) := by
  have hN : cfg3.N = 50 := N_3
  have h49 : t.val = 49 := by have := (flush3_3 t).mp hf; have := t.isLt; omega
  obtain rfl : t = tLast := Fin.ext h49
  show (cfg3.win 3).cut (grid3.coords tLast) ((dat3 V c).after 3 tLast) = _
  rw [after3_3]
  have hz' : (fun a => win3_3.index tLast a * main_v92_1.ty.shape.size a) = fun _ => 0 := funext fun a => by fin_cases a <;> decide +kernel
  exact (Memref.read_access_unit_zero (Elt Ideal) main_v92_1 hz' (fun a => by rw [congrFun hz' a]; simp) (cntEnd V c)).symm

/-- So the sums' array ends holding the running block after point 49: that point's block covers it. -/
theorem finalS (c : Dev nD) : (dat3 V c).arrAt 2 cfg3.N = sumsEnd V c :=
  (dat3 V c).arrAt_eq_of_cover 2 (sumsEnd V c) (flushedS_eq V c) fun i =>
    ⟨tLast, (flush3_2 tLast).mpr rfl, by
      show i ∈ ((View.whole main_v92_0).slice (win3_2.rect tLast)).set
      rw [View.set_slice_whole, Rect.mem_set_unit]
      intro a
      have h0 : (i 0 : Nat) < 512 := (i 0).isLt
      have h1 : (i 1 : Nat) < 128 := (i 1).isLt
      match a with
      | ⟨0, _⟩ => show win3_2.index tLast 0 * win3_2.size 0 ≤ (i 0 : Nat) ∧ (i 0 : Nat) < win3_2.index tLast 0 * win3_2.size 0 + win3_2.xsize (grid3.coords tLast) 0
                  rw [show win3_2.index tLast 0 * win3_2.size 0 = 0 from by decide +kernel, show win3_2.xsize (grid3.coords tLast) 0 = 512 from by decide +kernel]; omega
      | ⟨1, _⟩ => show win3_2.index tLast 1 * win3_2.size 1 ≤ (i 1 : Nat) ∧ (i 1 : Nat) < win3_2.index tLast 1 * win3_2.size 1 + win3_2.xsize (grid3.coords tLast) 1
                  rw [show win3_2.index tLast 1 * win3_2.size 1 = 0 from by decide +kernel, show win3_2.xsize (grid3.coords tLast) 1 = 128 from by decide +kernel]; omega⟩

/-- And the counts' array the same. -/
theorem finalC (c : Dev nD) : (dat3 V c).arrAt 3 cfg3.N = cntEnd V c :=
  (dat3 V c).arrAt_eq_of_cover 3 (cntEnd V c) (flushedC_eq V c) fun i =>
    ⟨tLast, (flush3_3 tLast).mpr rfl, by
      show i ∈ ((View.whole main_v92_1).slice (win3_3.rect tLast)).set
      rw [View.set_slice_whole, Rect.mem_set_unit]
      intro a
      have h0 : (i 0 : Nat) < 512 := (i 0).isLt
      have h1 : (i 1 : Nat) < 1 := (i 1).isLt
      match a with
      | ⟨0, _⟩ => show win3_3.index tLast 0 * win3_3.size 0 ≤ (i 0 : Nat) ∧ (i 0 : Nat) < win3_3.index tLast 0 * win3_3.size 0 + win3_3.xsize (grid3.coords tLast) 0
                  rw [show win3_3.index tLast 0 * win3_3.size 0 = 0 from by decide +kernel, show win3_3.xsize (grid3.coords tLast) 0 = 512 from by decide +kernel]; omega
      | ⟨1, _⟩ => show win3_3.index tLast 1 * win3_3.size 1 ≤ (i 1 : Nat) ∧ (i 1 : Nat) < win3_3.index tLast 1 * win3_3.size 1 + win3_3.xsize (grid3.coords tLast) 1
                  rw [show win3_3.index tLast 1 * win3_3.size 1 = 0 from by decide +kernel, show win3_3.xsize (grid3.coords tLast) 1 = 1 from by decide +kernel]; omega⟩

/-! ## The region's two results at an index -/

/-- The pooled sums: entry (g, f) of the first result is the sum of feature f over the nodes whose id reads g. -/
theorem gsum_apply (c : Dev nD) (g : Fin 512) (f : Fin 128) :
    (dat3 (F := Ideal) V c).arrAt 2 cfg3.N (ix2 g f)
      = Finset.sum (M := EReal)
          (Finset.univ.filter (fun n : Fin 100000 => ((V c main_v91 : IVec S100000x1 32) (ix2 n (0 : Fin 1))).toInt = (g.val : Int)))
          (fun n => (V c main_v90 : Vec Ideal S100000x128 .f32) (ix2 n f)) := by
  rw [finalS]
  show (outsAt3 V c 49 tLast.isLt).1 (ix2 g f) = _
  rw [sums_at V c 49 tLast.isLt g f]
  exact blocks_sum V c g (fun n => harr V c (ix2 n f)) (featAt V c f) (fun k h => by unfold featAt; rw [dif_pos h])

/-- The node counts: entry (g, 0) of the second result is the number of nodes whose id reads g. -/
theorem gcnt_apply (c : Dev nD) (g : Fin 512) :
    (dat3 (F := Ideal) V c).arrAt 3 cfg3.N (ix2 g (0 : Fin 1))
      = ∑ n ∈ Finset.univ.filter (fun n : Fin 100000 => ((V c main_v91 : IVec S100000x1 32) (ix2 n (0 : Fin 1))).toInt = (g.val : Int)), (1 : EReal) := by
  rw [finalC]
  show (outsAt3 V c 49 tLast.isLt).2 (ix2 g (0 : Fin 1)) = _
  rw [cnt_at V c 49 tLast.isLt g, Cert.Sage.bf16_one_eq]
  exact blocks_sum V c g (fun _ => 1) (fun _ => 1) (fun _ _ => rfl)

end Region3

end Cert.KernelIdeal.Handb
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.RefHead.lean ====
/-
  The reference's pooling and head, one entry at a time, over the extended reals.

  The pooled sums and counts: the node features, and a one per node, are accumulated into zeros by the nodes' graph ids;
  entry p of either is the sum over the nodes whose id, read signed, is p. The fused features of a graph are a row of
  173 columns: the first 128 are the pooled mean (the graph's sum over its count clipped below at 1), the last 45 the
  normalised measurements (r − μ)·(γ/√(v+ε)) + β; a column of a two-piece concatenation reads the first piece below the
  first piece's width and the second piece, the width less, from there on. The scores are three affine maps of the
  fused features with a clip at 0 after the first two; the embedding is one affine map of them. A contraction reads at
  an index as the sum over the contracted coordinate of the products of its operands' entries.
-/
import proofs.«416966_j75505525063863_1_alg».proof.Proof.Gen.ReferenceIdeal.Read
import proofs.«416966_j75505525063863_1_alg».proof.Proof.LibScatterSum
import proofs.«416966_j75505525063863_1_alg».proof.Proof.Spec
import Idealize.ShloMosaic.Lib.Pipeline.Value
import Idealize.ShloMosaic.Lib.ValueIdx
import Idealize.ShloMosaic.PureOps.Ideal.Laws

noncomputable section

namespace Cert.ReferenceIdeal.Handf

open Cert.ReferenceIdeal Cert.ReferenceIdeal.Gen Idealize.ShloMosaic Idealize.ShloMosaic.TcCoe Idealize.SL.Sem
  Idealize.ShloMosaic.StableHlo Idealize.ShloMosaic.ValueIdx

open scoped BigOperators

/-! ## Two words read as extended reals, and small index equations -/

/-- The word of 1.0 is the extended real 1. -/
theorem ofBits_one_f32 : Ideal.ofBits .f32 0x3F800000#32 = (1 : EReal) := by
  simp [Ideal.ofBits, Ideal.ieee, -EReal.coe_mul]; norm_num

/-! ## The two accumulations into zeros, over any operands of the program's shapes -/

/-- Rows accumulated into zeros by one id per row: entry (p, f) is the sum of the rows' entries at f over the rows
    whose id, read signed, is p. -/
theorem rows_into_zeros (z : (⟨S512x128, .f32⟩ : BufTy).Contents (Elt Ideal)) (idx : (⟨S100000x1, .i32⟩ : BufTy).Contents (Elt Ideal))
    (ids : (⟨S100000, .i32⟩ : BufTy).Contents (Elt Ideal)) (u : (⟨S100000x128, .f32⟩ : BufTy).Contents (Elt Ideal))
    (hz : ∀ i, z i = 0) (hidx : ∀ n : Fin 100000, idx (ix2 n (0 : Fin 1)) = ids (ix1 n)) (p : Fin 512) (f : Fin 128) :
    Host.scatterAdd (F := Ideal) (φ := .f32) scatter_S512x128_S100000x1_S100000x128_1_0_0_1 z idx u (ix2 p f)
      = ∑ n ∈ Finset.univ.filter (fun n : Fin 100000 => (ids (ix1 n)).toInt = (p.val : Int)), u (ix2 n f) := by
  refine (ScatterSum.scatterAdd_rows_apply scatter_S512x128_S100000x1_S100000x128_1_0_0_1 rfl rfl rfl rfl z idx u p f).trans ?_
  rw [hz, zero_add]
  exact Finset.sum_congr (Finset.filter_congr fun n _ => by rw [hidx n]) fun _ _ => rfl

/-- Ones accumulated into zeros by one id per entry: entry p counts, as a sum of ones, the entries whose id, read
    signed, is p. -/
theorem ones_into_zeros (z : (⟨S512, .f32⟩ : BufTy).Contents (Elt Ideal)) (idx : (⟨S100000x1, .i32⟩ : BufTy).Contents (Elt Ideal))
    (ids : (⟨S100000, .i32⟩ : BufTy).Contents (Elt Ideal)) (u : (⟨S100000, .f32⟩ : BufTy).Contents (Elt Ideal))
    (hz : ∀ i, z i = 0) (hidx : ∀ n : Fin 100000, idx (ix2 n (0 : Fin 1)) = ids (ix1 n)) (hu : ∀ i, u i = 1) (p : Fin 512) :
    Host.scatterAdd (F := Ideal) (φ := .f32) scatter_S512_S100000x1_S100000_n_0_0_1 z idx u (ix1 p)
      = ∑ n ∈ Finset.univ.filter (fun n : Fin 100000 => (ids (ix1 n)).toInt = (p.val : Int)), (1 : EReal) := by
  refine (ScatterSum.scatterAdd_flat_apply scatter_S512_S100000x1_S100000_n_0_0_1 rfl rfl rfl rfl z idx u p).trans ?_
  rw [hz, zero_add]
  exact Finset.sum_congr (Finset.filter_congr fun n _ => by rw [hidx n]) fun n _ => hu (ix1 n)

variable (x0 : (⟨S100000x64, .f32⟩ : BufTy).Contents (Elt Ideal)) (x1 : (⟨S2x1600000, .i32⟩ : BufTy).Contents (Elt Ideal)) (x2 : (⟨S100000, .i32⟩ : BufTy).Contents (Elt Ideal))
  (x3 : (⟨S512x45, .f32⟩ : BufTy).Contents (Elt Ideal)) (x4 : (⟨S64x128, .f32⟩ : BufTy).Contents (Elt Ideal)) (x5 : (⟨S128, .f32⟩ : BufTy).Contents (Elt Ideal))
  (x6 : (⟨S64x128, .f32⟩ : BufTy).Contents (Elt Ideal)) (x7 : (⟨S128x128, .f32⟩ : BufTy).Contents (Elt Ideal)) (x8 : (⟨S128, .f32⟩ : BufTy).Contents (Elt Ideal))
  (x9 x10 : (⟨S128x128, .f32⟩ : BufTy).Contents (Elt Ideal)) (x11 : (⟨S128, .f32⟩ : BufTy).Contents (Elt Ideal)) (x12 : (⟨S128x128, .f32⟩ : BufTy).Contents (Elt Ideal))
  (x13 x14 x15 x16 : (⟨S3x128, .f32⟩ : BufTy).Contents (Elt Ideal)) (x17 x18 x19 x20 : (⟨S45, .f32⟩ : BufTy).Contents (Elt Ideal))
  (x21 : (⟨S173x64, .f32⟩ : BufTy).Contents (Elt Ideal)) (x22 : (⟨S64, .f32⟩ : BufTy).Contents (Elt Ideal)) (x23 : (⟨S64x32, .f32⟩ : BufTy).Contents (Elt Ideal))
  (x24 : (⟨S32, .f32⟩ : BufTy).Contents (Elt Ideal)) (x25 : (⟨S32x2, .f32⟩ : BufTy).Contents (Elt Ideal)) (x26 : (⟨S2, .f32⟩ : BufTy).Contents (Elt Ideal))
  (x27 : (⟨S173x173, .f32⟩ : BufTy).Contents (Elt Ideal)) (x28 : (⟨S173, .f32⟩ : BufTy).Contents (Elt Ideal))

/-! ## The pooling -/

/-- The pooled sums: entry (p, f) is the sum of the node features at f over the nodes of graph p. -/
theorem gsum_apply (p : Fin 512) (f : Fin 128) :
    Read.val_main_v135 (F := Ideal) x0 x1 x2 x4 x5 x6 x7 x8 x9 x10 x11 x12 x13 x14 x15 x16 (ix2 p f)
      = ∑ n ∈ Finset.univ.filter (fun n : Fin 100000 => (x2 (ix1 n)).toInt = (p.val : Int)), Read.val_main_v132 (F := Ideal) x0 x1 x4 x5 x6 x7 x8 x9 x10 x11 x12 x13 x14 x15 x16 (ix2 n f) := by
  unfold Read.val_main_v135
  generalize Read.val_main_v132 (F := Ideal) x0 x1 x4 x5 x6 x7 x8 x9 x10 x11 x12 x13 x14 x15 x16 = u
  exact rows_into_zeros _ _ x2 u
    (fun i => by rw [Read.val_main_v133_apply, Read.val_main_cst_14_apply]; exact Ideal.ofBits_zero_f32)
    (fun n => by rw [Read.val_main_v134_apply]; exact congrArg x2 (funext fun a => (by match a with | ⟨0, _⟩ => rfl)))
    p f

/-- The node counts: entry p is a one for every node of graph p. -/
theorem gcnt_apply (p : Fin 512) :
    Read.val_main_v139 (F := Ideal) x2 (ix1 p) = ∑ n ∈ Finset.univ.filter (fun n : Fin 100000 => (x2 (ix1 n)).toInt = (p.val : Int)), (1 : EReal) := by
  unfold Read.val_main_v139
  exact ones_into_zeros _ _ x2 _
    (fun i => by rw [Read.val_main_v137_apply, Read.val_main_cst_16_apply]; exact Ideal.ofBits_zero_f32)
    (fun n => by rw [Read.val_main_v138_apply]; exact congrArg x2 (funext fun a => (by match a with | ⟨0, _⟩ => rfl)))
    (fun i => by rw [Read.val_main_v136_apply, Read.val_main_cst_15_apply]; exact ofBits_one_f32)
    p

/-! ## The fused features: the pooled mean on the first 128 columns, the normalised measurements on the last 45 -/

/-- A column below 128 of the fused features is the pooled mean: the graph's sum over its count clipped below at 1. -/
theorem fused_left (p : Fin 512) (k : Fin 128) :
    Read.val_main_v158 (F := Ideal) x0 x1 x2 x3 x4 x5 x6 x7 x8 x9 x10 x11 x12 x13 x14 x15 x16 x17 x18 x19 x20 (ix2 p (Fin.castAdd 45 k))
      = Cert.Sage.meanOf (Read.val_main_v135 (F := Ideal) x0 x1 x2 x4 x5 x6 x7 x8 x9 x10 x11 x12 x13 x14 x15 x16 (ix2 p k)) (Read.val_main_v139 (F := Ideal) x2 (ix1 p)) := by
  unfold Read.val_main_v158
  refine (concatenate_pair_apply_left 1 _ _ concatenates_S512x128_S512x45_S512x173_d1 _ rfl (ix2 p k)
    (fun a => (by match a with | ⟨0, _⟩ => rfl | ⟨1, _⟩ => rfl))).trans ?_
  rw [Read.val_main_v144_apply, Read.val_main_v143_apply, Read.val_main_v142_apply, Read.val_main_v141_apply,
    Read.val_main_v140_apply, Read.val_main_cst_17_apply]
  have e : Read.idx_main_v142 (Read.idx_main_v143 (ix2 p k)) = ix1 p := funext fun a => (by match a with | ⟨0, _⟩ => rfl)
  rw [e]
  rfl

/-- A column from 128 on of the fused features is the normalised measurement (r − μ)·(γ/√(v+ε)) + β. -/
theorem fused_right (p : Fin 512) (k : Fin 45) :
    Read.val_main_v158 (F := Ideal) x0 x1 x2 x3 x4 x5 x6 x7 x8 x9 x10 x11 x12 x13 x14 x15 x16 x17 x18 x19 x20 (ix2 p (Fin.natAdd 128 k))
      = Cert.Sage.normR (x3 (ix2 p k)) (x17 (ix1 k)) (x18 (ix1 k)) (x19 (ix1 k)) (x20 (ix1 k)) := by
  unfold Read.val_main_v158
  refine (concatenate_pair_apply_right 1 _ _ concatenates_S512x128_S512x45_S512x173_d1 _ rfl rfl (ix2 p k)
    (fun a ha => by match a with | ⟨0, _⟩ => rfl | ⟨1, _⟩ => exact absurd rfl ha)
    (by show k.val + 128 = 128 + k.val; omega)).trans ?_
  rw [Read.val_main_v157_apply, Read.val_main_v156_apply, Read.val_main_v155_apply, Read.val_main_v154_apply,
    Read.val_main_v153_apply, Read.val_main_v152_apply, Read.val_main_v151_apply, Read.val_main_v150_apply,
    Read.val_main_v149_apply, Read.val_main_v148_apply, Read.val_main_cst_18_apply, Read.val_main_v147_apply,
    Read.val_main_v146_apply, Read.val_main_v145_apply]
  have e1 : Read.idx_main_v155 (Read.idx_main_v156 (ix2 p k)) = ix1 k := funext fun a => (by match a with | ⟨0, _⟩ => rfl)
  have e2 : Read.idx_main_v152 (Read.idx_main_v153 (ix2 p k)) = ix1 k := funext fun a => (by match a with | ⟨0, _⟩ => rfl)
  have e3 : Read.idx_main_v145 (Read.idx_main_v146 (ix2 p k)) = ix1 k := funext fun a => (by match a with | ⟨0, _⟩ => rfl)
  rw [e1, e2, e3]
  rfl

/-! ## The head: three affine maps with a clip after the first two, and the embedding -/

/-- The first hidden layer: the clip of the fused features' affine image. -/
theorem hid1_apply (p : Fin 512) (k1 : Fin 64) :
    Read.val_main_v163 (F := Ideal) x0 x1 x2 x3 x4 x5 x6 x7 x8 x9 x10 x11 x12 x13 x14 x15 x16 x17 x18 x19 x20 x21 x22 (ix2 p k1)
      = Cert.Sage.relu (Cert.Sage.aff (fun k : Fin 173 => Read.val_main_v158 (F := Ideal) x0 x1 x2 x3 x4 x5 x6 x7 x8 x9 x10 x11 x12 x13 x14 x15 x16 x17 x18 x19 x20 (ix2 p k))
          (fun k => x21 (ix2 k k1)) (x22 (ix1 k1))) := by
  rw [Read.val_main_v163_apply, Read.val_main_v162_apply, Read.val_main_v159_apply, Read.val_main_v161_apply,
    Read.val_main_v160_apply, Read.val_main_call3_v0_apply, Read.val_main_call3_cst_apply]
  have el : ∀ k : Fin 173, Read.lidx_main_v159 (ix2 p k1) k = ix2 p k := fun k => funext fun a => (by match a with | ⟨0, _⟩ => rfl | ⟨1, _⟩ => rfl)
  have er : ∀ k : Fin 173, Read.ridx_main_v159 (ix2 p k1) k = ix2 k k1 := fun k => funext fun a => (by match a with | ⟨0, _⟩ => rfl | ⟨1, _⟩ => rfl)
  have eb : Read.idx_main_v160 (Read.idx_main_v161 (ix2 p k1)) = ix1 k1 := funext fun a => (by match a with | ⟨0, _⟩ => rfl)
  simp only [el, er, eb]
  rfl

/-- The second hidden layer: the clip of the first hidden layer's affine image. -/
theorem hid2_apply (p : Fin 512) (k2 : Fin 32) :
    Read.val_main_v168 (F := Ideal) x0 x1 x2 x3 x4 x5 x6 x7 x8 x9 x10 x11 x12 x13 x14 x15 x16 x17 x18 x19 x20 x21 x22 x23 x24 (ix2 p k2)
      = Cert.Sage.relu (Cert.Sage.aff (fun k1 : Fin 64 => Read.val_main_v163 (F := Ideal) x0 x1 x2 x3 x4 x5 x6 x7 x8 x9 x10 x11 x12 x13 x14 x15 x16 x17 x18 x19 x20 x21 x22 (ix2 p k1))
          (fun k1 => x23 (ix2 k1 k2)) (x24 (ix1 k2))) := by
  rw [Read.val_main_v168_apply, Read.val_main_v167_apply, Read.val_main_v164_apply, Read.val_main_v166_apply,
    Read.val_main_v165_apply, Read.val_main_call4_v0_apply, Read.val_main_call4_cst_apply]
  have el : ∀ k : Fin 64, Read.lidx_main_v164 (ix2 p k2) k = ix2 p k := fun k => funext fun a => (by match a with | ⟨0, _⟩ => rfl | ⟨1, _⟩ => rfl)
  have er : ∀ k : Fin 64, Read.ridx_main_v164 (ix2 p k2) k = ix2 k k2 := fun k => funext fun a => (by match a with | ⟨0, _⟩ => rfl | ⟨1, _⟩ => rfl)
  have eb : Read.idx_main_v165 (Read.idx_main_v166 (ix2 p k2)) = ix1 k2 := funext fun a => (by match a with | ⟨0, _⟩ => rfl)
  simp only [el, er, eb]
  rfl

/-- The two-class scores of a graph from its 173 fused features. -/
theorem logits_apply (p : Fin 512) (j : Fin 2) :
    Read.val_main_v172 (F := Ideal) x0 x1 x2 x3 x4 x5 x6 x7 x8 x9 x10 x11 x12 x13 x14 x15 x16 x17 x18 x19 x20 x21 x22 x23 x24 x25 x26 (ix2 p j)
      = Cert.Sage.logitsR (fun k : Fin 173 => Read.val_main_v158 (F := Ideal) x0 x1 x2 x3 x4 x5 x6 x7 x8 x9 x10 x11 x12 x13 x14 x15 x16 x17 x18 x19 x20 (ix2 p k))
          (fun k k1 => x21 (ix2 k k1)) (fun k1 => x22 (ix1 k1)) (fun k1 k2 => x23 (ix2 k1 k2)) (fun k2 => x24 (ix1 k2))
          (fun k2 j' => x25 (ix2 k2 j')) (fun j' => x26 (ix1 j')) j := by
  rw [Read.val_main_v172_apply, Read.val_main_v169_apply, Read.val_main_v171_apply, Read.val_main_v170_apply]
  have el : ∀ k : Fin 32, Read.lidx_main_v169 (ix2 p j) k = ix2 p k := fun k => funext fun a => (by match a with | ⟨0, _⟩ => rfl | ⟨1, _⟩ => rfl)
  have er : ∀ k : Fin 32, Read.ridx_main_v169 (ix2 p j) k = ix2 k j := fun k => funext fun a => (by match a with | ⟨0, _⟩ => rfl | ⟨1, _⟩ => rfl)
  have eb : Read.idx_main_v170 (Read.idx_main_v171 (ix2 p j)) = ix1 j := funext fun a => (by match a with | ⟨0, _⟩ => rfl)
  simp only [el, er, eb, hid2_apply, hid1_apply]
  rfl

/-- One entry of a graph's embedding from its 173 fused features. -/
theorem emb_apply (p : Fin 512) (j : Fin 173) :
    Read.val_main_v176 (F := Ideal) x0 x1 x2 x3 x4 x5 x6 x7 x8 x9 x10 x11 x12 x13 x14 x15 x16 x17 x18 x19 x20 x27 x28 (ix2 p j)
      = Cert.Sage.embR (fun k : Fin 173 => Read.val_main_v158 (F := Ideal) x0 x1 x2 x3 x4 x5 x6 x7 x8 x9 x10 x11 x12 x13 x14 x15 x16 x17 x18 x19 x20 (ix2 p k))
          (fun k j' => x27 (ix2 k j')) (fun j' => x28 (ix1 j')) j := by
  rw [Read.val_main_v176_apply, Read.val_main_v173_apply, Read.val_main_v175_apply, Read.val_main_v174_apply]
  have el : ∀ k : Fin 173, Read.lidx_main_v173 (ix2 p j) k = ix2 p k := fun k => funext fun a => (by match a with | ⟨0, _⟩ => rfl | ⟨1, _⟩ => rfl)
  have er : ∀ k : Fin 173, Read.ridx_main_v173 (ix2 p j) k = ix2 k j := fun k => funext fun a => (by match a with | ⟨0, _⟩ => rfl | ⟨1, _⟩ => rfl)
  have eb : Read.idx_main_v174 (Read.idx_main_v175 (ix2 p j)) = ix1 j := funext fun a => (by match a with | ⟨0, _⟩ => rfl)
  simp only [el, er, eb]
  rfl

end Cert.ReferenceIdeal.Handf

end
-- ==== Proof.BridgeHead.lean ====
/-
  The head of the two programs: the scores [512, 2] and the embedding [512, 173] the kernel program ends with are the
  reference's.

  Graph p's fused features are 173 numbers. The first 128 are its pooled means: the sum of the third layer's node
  features over the nodes n whose graph id is p, over the number of such nodes clipped below at 1. One program gets the
  sum and the count as products with the indicator of "node n belongs to graph p", 2000 nodes at a time; the other
  accumulates rows and ones into zeros by the ids. Both are the same sum over the set {n | id n = p}: the ids are the
  same array, and the node features are the same array by the agreement of the three layers (which needs 0 ≤ v for the
  layers' variances). The last 45 are the normalised measurements (r − μ)·s + β, with s = γ·(v+ε)^(-1/2) in one program
  and γ/√(v+ε) in the other: equal for 0 ≤ v, the measurements' variances.

  The scores are three affine maps of the fused features with a clip below at 0 after the first two, the embedding one
  affine map. One program contracts the 173 features at once, the other the first 128 against the top 128 rows of the
  weight and the last 45 against its bottom 45 rows: a sum over Fin (128 + 45) splits. The weights' halves and the biases
  the second program reads are rows of the arrays both programs were given.
-/
import proofs.«416966_j75505525063863_1_alg».proof.Proof.KHead
import proofs.«416966_j75505525063863_1_alg».proof.Proof.KPool
import proofs.«416966_j75505525063863_1_alg».proof.Proof.KLeaves
import proofs.«416966_j75505525063863_1_alg».proof.Proof.RefHead
import proofs.«416966_j75505525063863_1_alg».proof.Proof.SpecLaws
import proofs.«416966_j75505525063863_1_alg».proof.Proof.BridgeNode

set_option maxRecDepth 16384

noncomputable section

open scoped BigOperators

namespace Cert.Bridge

open Cert.KernelIdeal Cert.KernelIdeal.Gen Idealize.ShloMosaic Idealize.ShloMosaic.TcCoe Idealize.SL.Sem
open Idealize.ShloMosaic.ValueIdx

/-! ## Equal arguments give equal entries -/

/-- A normalised measurement depends on its five arguments only. -/
theorem normK_congr {r r' g g' b b' mu mu' v v' : EReal} (h1 : r = r') (h2 : g = g') (h3 : b = b') (h4 : mu = mu')
    (h5 : v = v') : Cert.Sage.normK r g b mu v = Cert.Sage.normK r' g' b' mu' v' := by
  subst h1 h2 h3 h4 h5; rfl

/-- A score depends on the two halves of the fused features, the weights and the biases only. -/
theorem logitsK_congr {ge ge' : Fin 128 → EReal} {re re' : Fin 45 → EReal} {wt wt' : Fin 128 → Fin 64 → EReal}
    {wb wb' : Fin 45 → Fin 64 → EReal} {b1 b1' : Fin 64 → EReal} {w2 w2' : Fin 64 → Fin 32 → EReal}
    {b2 b2' : Fin 32 → EReal} {w3 w3' : Fin 32 → Fin 2 → EReal} {b3 b3' : Fin 2 → EReal} (j : Fin 2)
    (h1 : ge = ge') (h2 : re = re') (h3 : wt = wt') (h4 : wb = wb') (h5 : b1 = b1') (h6 : w2 = w2') (h7 : b2 = b2')
    (h8 : w3 = w3') (h9 : b3 = b3') :
    Cert.Sage.logitsK ge re wt wb b1 w2 b2 w3 b3 j = Cert.Sage.logitsK ge' re' wt' wb' b1' w2' b2' w3' b3' j := by
  subst h1 h2 h3 h4 h5 h6 h7 h8 h9; rfl

/-- An embedding entry depends on the two halves of the fused features, the weight and the bias only. -/
theorem embK_congr {ge ge' : Fin 128 → EReal} {re re' : Fin 45 → EReal} {wt wt' : Fin 128 → Fin 173 → EReal}
    {wb wb' : Fin 45 → Fin 173 → EReal} {eb eb' : Fin 173 → EReal} (j : Fin 173)
    (h1 : ge = ge') (h2 : re = re') (h3 : wt = wt') (h4 : wb = wb') (h5 : eb = eb') :
    Cert.Sage.embK ge re wt wb eb j = Cert.Sage.embK ge' re' wt' wb' eb' j := by
  subst h1 h2 h3 h4 h5; rfl

variable (m : (ℓ : Loc nD τ sig) → Buf (Elt Ideal) ℓ) (ρ : Dev nD → PrngReg) (c : Dev nD)

/-! ## The pooled half of the fused features -/

/-- Node n's graph id, as the pooling region reads it, is the id both programs were given: so "node n belongs to
    graph p" is the same condition in the two programs. -/
theorem member_iff (p : Fin 512) (n : Fin 100000) :
    (((V7 m ρ c main_v91 : IVec S100000x1 32) (ix2 n (0 : Fin 1))).toInt = (p.val : Int))
      ↔ (((m ((c.tc : Thread nD τ).loc main_arg2) : IVec S100000 32) (ix1 n)).toInt = (p.val : Int)) :=
  iff_of_eq (congrArg (fun z : BitVec 32 => z.toInt = (p.val : Int)) (Cert.KernelIdeal.Leaves.V7_v91 m ρ c n))

/-- The node counts the head finds are the reference's: ones summed over the nodes of the graph. -/
theorem head_counts (p : Fin 512) :
    (V9 m ρ c main_v92_1 : Vec Ideal S512x1 .f32) (ix2 p (0 : Fin 1))
      = Cert.ReferenceIdeal.Read.val_main_v139 (F := Ideal) (m ((c.tc : Thread nD τ).loc main_arg2)) (ix1 p) := by
  refine (congrFun (Cert.KernelIdeal.Leaves.V9_v92_1 m ρ c) (ix2 p (0 : Fin 1))).trans ?_
  refine (congrFun (Cert.KernelIdeal.Leaves.W8_v92_1 m ρ c) (ix2 p (0 : Fin 1))).trans ?_
  refine (Cert.KernelIdeal.Handb.gcnt_apply (V7 m ρ) c p).trans ?_
  refine Eq.trans ?_ (Cert.ReferenceIdeal.Handf.gcnt_apply _ p).symm
  exact (Finset.sum_congr (Finset.filter_congr fun n _ => member_iff m ρ c p n) fun _ _ => rfl : (_ : EReal) = _)

/-- The pooled sums the head finds are the reference's: the third layer's features summed over the nodes of the graph,
    and the third layer's array is the same in the two programs. -/
theorem head_sums (hv : ∀ i, (0 : EReal) ≤ (m ((c.tc : Thread nD τ).loc main_arg16)) i) (p : Fin 512) (k : Fin 128) :
    (V9 m ρ c main_v92_0 : Vec Ideal S512x128 .f32) (ix2 p k)
      = Cert.ReferenceIdeal.Read.val_main_v135 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (ix2 p k) := by
  refine (congrFun (Cert.KernelIdeal.Leaves.V9_v92_0 m ρ c) (ix2 p k)).trans ?_
  refine (congrFun (Cert.KernelIdeal.Leaves.W8_v92_0 m ρ c) (ix2 p k)).trans ?_
  refine (Cert.KernelIdeal.Handb.gsum_apply (V7 m ρ) c p k).trans ?_
  refine Eq.trans ?_ (Cert.ReferenceIdeal.Handf.gsum_apply _ _ _ _ _ _ _ _ _ _ _ _ _ _ _ _ p k).symm
  exact (Finset.sum_congr (Finset.filter_congr fun n _ => member_iff m ρ c p n) fun n _ =>
    congrFun ((Cert.KernelIdeal.Leaves.V7_v90 m ρ c).trans ((Cert.KernelIdeal.Leaves.W6_v90 m ρ c).trans (node3 m ρ c hv))) (ix2 n k) : (_ : EReal) = _)

/-- The pooled means of graph p are the first 128 columns of the reference's fused features. -/
theorem pooled_half (hv : ∀ i, (0 : EReal) ≤ (m ((c.tc : Thread nD τ).loc main_arg16)) i) (p : Fin 512) :
    Cert.KernelIdeal.Handc.ge (V9 m ρ) c p
      = fun k : Fin 128 => Cert.ReferenceIdeal.Read.val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (ix2 p (Fin.castAdd 45 k)) := by
  funext k
  refine Eq.trans ?_ (Cert.ReferenceIdeal.Handf.fused_left _ _ _ _ _ _ _ _ _ _ _ _ _ _ _ _ _ _ _ _ _ p k).symm
  exact congrArg₂ Cert.Sage.meanOf (head_sums m ρ c hv p k) (head_counts m ρ c p)

/-! ## The normalised half of the fused features -/

/-- The normalised measurements of graph p are the last 45 columns of the reference's fused features: the two scales
    agree because the measurements' variances are nonnegative. -/
theorem normed_half (hr : ∀ i, (0 : EReal) ≤ (m ((c.tc : Thread nD τ).loc main_arg20)) i) (p : Fin 512) :
    Cert.KernelIdeal.Handc.re (V9 m ρ) c p
      = fun k : Fin 45 => Cert.ReferenceIdeal.Read.val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (ix2 p (Fin.natAdd 128 k)) := by
  funext k
  refine Eq.trans ?_ (Cert.ReferenceIdeal.Handf.fused_right _ _ _ _ _ _ _ _ _ _ _ _ _ _ _ _ _ _ _ _ _ p k).symm
  refine Eq.trans ?_ (Cert.Sage.normK_eq_normR _ _ _ _ _ (hr (ix1 k)))
  exact normK_congr (congrFun (Cert.KernelIdeal.Leaves.V9_arg3 m ρ c) (ix2 p k)) (Cert.KernelIdeal.Leaves.V9_v97 m ρ c k) (Cert.KernelIdeal.Leaves.V9_v98 m ρ c k)
    (Cert.KernelIdeal.Leaves.V9_v99 m ρ c k) (Cert.KernelIdeal.Leaves.V9_v100 m ρ c k)

/-! ## The two results at an index -/

/-- The scores of graph p after the head region are the reference's. -/
theorem logits_at (hv : ∀ i, (0 : EReal) ≤ (m ((c.tc : Thread nD τ).loc main_arg16)) i) (hr : ∀ i, (0 : EReal) ≤ (m ((c.tc : Thread nD τ).loc main_arg20)) i) (p : Fin 512) (j : Fin 2) :
    (dat4 (F := Ideal) (V9 m ρ) c).arrAt 17 cfg4.N (ix2 p j)
      = Cert.ReferenceIdeal.Read.val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (ix2 p j) := by
  refine (Cert.KernelIdeal.Handc.logits_apply (V9 m ρ) c p j).trans ?_
  refine Eq.trans ?_ (Cert.ReferenceIdeal.Handf.logits_apply _ _ _ _ _ _ _ _ _ _ _ _ _ _ _ _ _ _ _ _ _ _ _ _ _ _ _ p j).symm
  refine Eq.trans ?_ (Cert.Sage.logitsR_eq_logitsK _ _ _ _ _ _ _ j).symm
  exact logitsK_congr j (pooled_half m ρ c hv p) (normed_half m ρ c hr p)
    (funext fun k => funext fun k1 => Cert.KernelIdeal.Leaves.V9_v93 m ρ c k k1)
    (funext fun k => funext fun k1 => Cert.KernelIdeal.Leaves.V9_v94 m ρ c k k1)
    (funext fun k1 => Cert.KernelIdeal.Leaves.V9_v101 m ρ c k1)
    (funext fun k1 => funext fun k2 => congrFun (Cert.KernelIdeal.Leaves.V9_arg23 m ρ c) (ix2 k1 k2))
    (funext fun k2 => Cert.KernelIdeal.Leaves.V9_v102 m ρ c k2)
    (funext fun k2 => funext fun j' => congrFun (Cert.KernelIdeal.Leaves.V9_arg25 m ρ c) (ix2 k2 j'))
    (funext fun j' => Cert.KernelIdeal.Leaves.V9_v103 m ρ c j')

/-- The embedding of graph p after the head region is the reference's. -/
theorem emb_at (hv : ∀ i, (0 : EReal) ≤ (m ((c.tc : Thread nD τ).loc main_arg16)) i) (hr : ∀ i, (0 : EReal) ≤ (m ((c.tc : Thread nD τ).loc main_arg20)) i) (p : Fin 512) (j : Fin 173) :
    (dat4 (F := Ideal) (V9 m ρ) c).arrAt 18 cfg4.N (ix2 p j)
      = Cert.ReferenceIdeal.Read.val_main_v176 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg27)) (m ((c.tc : Thread nD τ).loc main_arg28)) (ix2 p j) := by
  refine (Cert.KernelIdeal.Handc.emb_apply (V9 m ρ) c p j).trans ?_
  refine Eq.trans ?_ (Cert.ReferenceIdeal.Handf.emb_apply _ _ _ _ _ _ _ _ _ _ _ _ _ _ _ _ _ _ _ _ _ _ _ p j).symm
  refine Eq.trans ?_ (Cert.Sage.embR_eq_embK _ _ _ j).symm
  exact embK_congr j (pooled_half m ρ c hv p) (normed_half m ρ c hr p)
    (funext fun k => funext fun j' => Cert.KernelIdeal.Leaves.V9_v95 m ρ c k j')
    (funext fun k => funext fun j' => Cert.KernelIdeal.Leaves.V9_v96 m ρ c k j')
    (funext fun j' => Cert.KernelIdeal.Leaves.V9_v104 m ρ c j')

/-! ## The two result arrays -/

/-- THE SCORES: what the kernel program leaves in its first result is the reference's scores. -/
theorem logits_eq (hv : ∀ i, (0 : EReal) ≤ (m ((c.tc : Thread nD τ).loc main_arg16)) i) (hr : ∀ i, (0 : EReal) ≤ (m ((c.tc : Thread nD τ).loc main_arg20)) i) :
    W10 m ρ c (Proc.devRef .tc main_v105_0)
      = Cert.ReferenceIdeal.Read.val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) :=
  (Cert.KernelIdeal.Leaves.W10_v105_0 m ρ c).trans (funext fun i : S512x2.Idx => by
    obtain ⟨p, j, rfl⟩ : ∃ (p : Fin 512) (j : Fin 2), i = ix2 p j := ⟨i 0, i 1, eq_ix2 i⟩
    exact logits_at m ρ c hv hr p j)

/-- THE EMBEDDING: what the kernel program leaves in its second result is the reference's embedding. -/
theorem emb_eq (hv : ∀ i, (0 : EReal) ≤ (m ((c.tc : Thread nD τ).loc main_arg16)) i) (hr : ∀ i, (0 : EReal) ≤ (m ((c.tc : Thread nD τ).loc main_arg20)) i) :
    W10 m ρ c (Proc.devRef .tc main_v105_1)
      = Cert.ReferenceIdeal.Read.val_main_v176 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg27)) (m ((c.tc : Thread nD τ).loc main_arg28)) :=
  (Cert.KernelIdeal.Leaves.W10_v105_1 m ρ c).trans (funext fun i : S512x173.Idx => by
    obtain ⟨p, j, rfl⟩ : ∃ (p : Fin 512) (j : Fin 173), i = ix2 p j := ⟨i 0, i 1, eq_ix2 i⟩
    exact emb_at m ρ c hv hr p j)

end Cert.Bridge

end
-- ==== Proof.lean ====
/-
  The claim, assembled. The three frames: the two kernel programs' by their generated frames, the reference's by its
  generated run with the results dropped. The idealization rewrote no operation, so its conjunct is trivial. The value
  claim: the idealized kernel program's run names its three results as what the fold through the program leaves in
  their buffers; the reference's run names its three results as its operations' composed terms; on memories that agree
  on the arguments the two are equal arrays — the node features layer by layer, the scores and the embedding through
  the pooled means and the fused head — because under the precondition every variance entry is nonnegative, where
  γ·(v+ε)^(-1/2) and γ/√(v+ε) are one number.
-/
import proofs.«416966_j75505525063863_1_alg».proof.Defs
import proofs.«416966_j75505525063863_1_alg».proof.Proof.Gen.Kernel
import proofs.«416966_j75505525063863_1_alg».proof.Proof.Gen.Kernel.Skeleton
import proofs.«416966_j75505525063863_1_alg».proof.Proof.Gen.Kernel.Launch
import proofs.«416966_j75505525063863_1_alg».proof.Proof.Gen.Kernel.Points
import proofs.«416966_j75505525063863_1_alg».proof.Proof.Gen.Kernel.Frame
import proofs.«416966_j75505525063863_1_alg».proof.Proof.Gen.KernelIdeal
import proofs.«416966_j75505525063863_1_alg».proof.Proof.Gen.KernelIdeal.Skeleton
import proofs.«416966_j75505525063863_1_alg».proof.Proof.Gen.KernelIdeal.Launch
import proofs.«416966_j75505525063863_1_alg».proof.Proof.Gen.KernelIdeal.Points
import proofs.«416966_j75505525063863_1_alg».proof.Proof.Gen.KernelIdeal.Frame
import proofs.«416966_j75505525063863_1_alg».proof.Proof.Gen.ReferenceIdeal
import proofs.«416966_j75505525063863_1_alg».proof.Proof.Gen.ReferenceIdeal.Run
import proofs.«416966_j75505525063863_1_alg».proof.Proof.Gen.ReferenceIdeal.Read
import proofs.«416966_j75505525063863_1_alg».proof.Proof.Gen.Pre_finite_inputs
import proofs.«416966_j75505525063863_1_alg».proof.Proof.PreFacts
import proofs.«416966_j75505525063863_1_alg».proof.Proof.KResults
import proofs.«416966_j75505525063863_1_alg».proof.Proof.BridgeNode
import proofs.«416966_j75505525063863_1_alg».proof.Proof.BridgeHead
import Idealize.ShloMosaic.Adequacy
import Idealize.ShloMosaic.Init

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Both runs end with the same three arrays. -/
theorem algebraic : Cert.algebraic_KernelIdeal_ReferenceIdeal := by
  intro m ρ m' ρ' hpre hagree
  have hv : ∀ c : Dev Cert.KernelIdeal.nD, ∀ i, (0 : EReal) ≤ (m ((c.tc : Thread Cert.KernelIdeal.nD Cert.KernelIdeal.τ).loc Cert.KernelIdeal.main_arg16)) i :=
    fun c => Cert.PreFacts.bn_v_nonneg _ _ _ _ _ _ _ _ _ _ _ _ _ _ _ _ _ _ _ _ _ _ _ _ _ _ _ _ _ (hpre c)
  have hr : ∀ c : Dev Cert.KernelIdeal.nD, ∀ i, (0 : EReal) ≤ (m ((c.tc : Thread Cert.KernelIdeal.nD Cert.KernelIdeal.τ).loc Cert.KernelIdeal.main_arg20)) i :=
    fun c => Cert.PreFacts.rad_v_nonneg _ _ _ _ _ _ _ _ _ _ _ _ _ _ _ _ _ _ _ _ _ _ _ _ _ _ _ _ _ (hpre c)
  refine ⟨fun c => Cert.KernelIdeal.GenRun.outLogits m ρ c, fun c => Cert.KernelIdeal.GenRun.outEmb m ρ c,
    fun c => Cert.KernelIdeal.GenRun.outNode m ρ c, Cert.KernelIdeal.GenRun.run_results m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19, a20, a21, a22, a23, a24, a25, a26, a27, a28⟩ := hagree c
  refine ⟨(h c).1.trans ?_, (h c).2.1.trans ?_, (h c).2.2.1.trans ?_, (h c).2.2.2⟩
  · rw [Cert.ReferenceIdeal.Read.val_main_v172_eq m' c]
    simp only [a0, a1, a2, a3, a4, a5, a6, a7, a8, a9, a10, a11, a12, a13, a14, a15, a16, a17, a18, a19, a20, a21, a22, a23, a24, a25, a26, a27, a28]
    exact (Cert.Bridge.logits_eq m ρ c (hv c) (hr c)).symm
  · rw [Cert.ReferenceIdeal.Read.val_main_v176_eq m' c]
    simp only [a0, a1, a2, a3, a4, a5, a6, a7, a8, a9, a10, a11, a12, a13, a14, a15, a16, a17, a18, a19, a20, a21, a22, a23, a24, a25, a26, a27, a28]
    exact (Cert.Bridge.emb_eq m ρ c (hv c) (hr c)).symm
  · rw [Cert.ReferenceIdeal.Read.val_main_v132_eq m' c]
    simp only [a0, a1, a2, a3, a4, a5, a6, a7, a8, a9, a10, a11, a12, a13, a14, a15, a16, a17, a18, a19, a20, a21, a22, a23, a24, a25, a26, a27, a28]
    exact (Cert.Bridge.node_result m ρ c (hv c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
